-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v26_0)) (v1 : (c : Dev Cert.KernelIdeal.nD) → Buf (Elt Ideal) ((c.tc : Thread Cert.KernelIdeal.nD Cert.KernelIdeal.τ).loc Cert.KernelIdeal.main_v26_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26_0) = v0 c
          ∧ r.2.mem ((c.tc : Thread Cert.KernelIdeal.nD Cert.KernelIdeal.τ).loc Cert.KernelIdeal.main_v26_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v108) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x3 : Shape := ⟨2, ![50000, 3]⟩
abbrev S2x800000 : Shape := ⟨2, ![2, 800000]⟩
abbrev S131x64 : Shape := ⟨2, ![131, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x3 : S_.BroadcastsInDim S50000x3 (![] : Fin 0 → Fin S50000x3.rank)
  reducesTo_S50000x3_S_d0_1 : S50000x3.ReducesTo [0, 1] S_
  bcast_S_S131x64 : S_.BroadcastsInDim S131x64 (![] : Fin 0 → Fin S131x64.rank)
  reducesTo_S131x64_S_d0_1 : S131x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S128x64 : S_.BroadcastsInDim S128x64 (![] : Fin 0 → Fin S128x64.rank)
  reducesTo_S128x64_S_d0_1 : S128x64.ReducesTo [0, 1] S_
  bcast_S_S64x1 : S_.BroadcastsInDim S64x1 (![] : Fin 0 → Fin S64x1.rank)
  reducesTo_S64x1_S_d0_1 : S64x1.ReducesTo [0, 1] S_
  bcast_S_S2x800000 : S_.BroadcastsInDim S2x800000 (![] : Fin 0 → Fin S2x800000.rank)
  reducesTo_S2x800000_S_d0_1 : S2x800000.ReducesTo [0, 1] S_

variable [Facts]

def fn_part4 {F : FTy → Type} [FloatOps F] (main_arg3 : IVec S2x800000 32) (main_v63 : IVec S_ 1) (main_v67 : IVec S_ 1) : IVec S_ 1 :=
  let main_v68 : IVec S_ 1 := andi main_v63 main_v67
  let main_c_26 : IVec S_ 32 := constantI S_ 32 0#32
  let main_v69 : IVec S2x800000 32 := broadcastInDim S2x800000 ![] bcast_S_S2x800000 main_c_26
  let main_v70 : IVec S2x800000 1 := cmpi .sge main_arg3 main_v69
  let main_c_27 : IVec S_ 32 := constantI S_ 32 50000#32
  let main_v71 : IVec S2x800000 32 := broadcastInDim S2x800000 ![] bcast_S_S2x800000 main_c_27
  let main_v72 : IVec S2x800000 1 := cmpi .slt main_arg3 main_v71
  let main_v73 : IVec S2x800000 1 := andi main_v70 main_v72
  let main_c_28 : IVec S_ 1 := constantI S_ 1 1#1
  let main_v74 : IVec S_ 1 := (fun x v => Host.reduce IntOp.andi x v reducesTo_S2x800000_S_d0_1 h_S_) main_v73 main_c_28
  let main_v75 : IVec S_ 1 := andi main_v68 main_v74
  main_v75

def fn_part3 {F : FTy → Type} [FloatOps F] (main_arg3 : IVec S2x800000 32) (main_arg12 : FVec F S64x64 .f32) (main_arg13 : FVec F S64 .f32) (main_arg14 : FVec F S64x1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x64 .f32 := Host.absf main_arg12
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg13
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x1 .f32 := Host.absf main_arg14
  let main_cst_24 : FVec F S_ .f32 := constant S_ .f32 0x7F800000#32
  let main_v65 : FVec F S64x1 .f32 := broadcastInDim S64x1 ![] bcast_S_S64x1 main_cst_24
  let main_v66 : IVec S64x1 1 := cmpf .olt main_v64 main_v65
  let main_c_25 : IVec S_ 1 := constantI S_ 1 1#1
  let main_v67 : IVec S_ 1 := (fun x v => Host.reduce IntOp.andi x v reducesTo_S64x1_S_d0_1 h_S_) main_v66 main_c_25
  fn_part4 (F := F) main_arg3 main_v63 main_v67

def fn_part2 {F : FTy → Type} [FloatOps F] (main_arg3 : IVec S2x800000 32) (main_arg8 : FVec F S128x64 .f32) (main_arg9 : FVec F S64 .f32) (main_arg10 : FVec F S64x64 .f32) (main_arg11 : FVec F S64 .f32) (main_arg12 : FVec F S64x64 .f32) (main_arg13 : FVec F S64 .f32) (main_arg14 : FVec F S64x1 .f32) (main_v33 : IVec S_ 1) : IVec S_ 1 :=
  let main_v34 : FVec F S128x64 .f32 := Host.absf main_arg8
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg10
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg11
  let main_cst_18 : FVec F S_ .f32 := constant S_ .f32 0x7F800000#32
  let main_v50 : FVec F S64 .f32 := broadcastInDim S64 ![] bcast_S_S64 main_cst_18
  fn_part3 (F := F) main_arg3 main_arg12 main_arg13 main_arg14 main_v48 main_v49 main_v50

def fn_part1 {F : FTy → Type} [FloatOps F] (main_arg3 : IVec S2x800000 32) (main_arg5 : FVec F S64 .f32) (main_arg6 : FVec F S64x64 .f32) (main_arg7 : FVec F S64 .f32) (main_arg8 : FVec F S128x64 .f32) (main_arg9 : FVec F S64 .f32) (main_arg10 : FVec F S64x64 .f32) (main_arg11 : FVec F S64 .f32) (main_arg12 : FVec F S64x64 .f32) (main_arg13 : FVec F S64 .f32) (main_arg14 : FVec F S64x1 .f32) (main_v13 : IVec S_ 1) (main_v16 : IVec S131x64 1) : IVec S_ 1 :=
  let main_c_5 : IVec S_ 1 := constantI S_ 1 1#1
  let main_v17 : IVec S_ 1 := (fun x v => Host.reduce IntOp.andi x v reducesTo_S131x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg3 main_arg8 main_arg9 main_arg10 main_arg11 main_arg12 main_arg13 main_arg14 main_v33

def fn {F : FTy → Type} [FloatOps F] (main_arg0 : FVec F S50000x64 .f32) (main_arg1 : FVec F S50000x3 .f32) (main_arg2 : FVec F S50000x3 .f32) (main_arg3 : IVec S2x800000 32) (main_arg4 : FVec F S131x64 .f32) (main_arg5 : FVec F S64 .f32) (main_arg6 : FVec F S64x64 .f32) (main_arg7 : FVec F S64 .f32) (main_arg8 : FVec F S128x64 .f32) (main_arg9 : FVec F S64 .f32) (main_arg10 : FVec F S64x64 .f32) (main_arg11 : FVec F S64 .f32) (main_arg12 : FVec F S64x64 .f32) (main_arg13 : FVec F S64 .f32) (main_arg14 : FVec F S64x1 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x3 .f32 := Host.absf main_arg1
  let main_cst_0 : FVec F S_ .f32 := constant S_ .f32 0x7F800000#32
  let main_v5 : FVec F S50000x3 .f32 := broadcastInDim S50000x3 ![] bcast_S_S50000x3 main_cst_0
  let main_v6 : IVec S50000x3 1 := cmpf .olt main_v4 main_v5
  let main_c_1 : IVec S_ 1 := constantI S_ 1 1#1
  let main_v7 : IVec S_ 1 := (fun x v => Host.reduce IntOp.andi x v reducesTo_S50000x3_S_d0_1 h_S_) main_v6 main_c_1
  let main_v8 : IVec S_ 1 := andi main_v3 main_v7
  let main_v9 : FVec F S50000x3 .f32 := Host.absf main_arg2
  let main_cst_2 : FVec F S_ .f32 := constant S_ .f32 0x7F800000#32
  let main_v10 : FVec F S50000x3 .f32 := broadcastInDim S50000x3 ![] bcast_S_S50000x3 main_cst_2
  let main_v11 : IVec S50000x3 1 := cmpf .olt main_v9 main_v10
  let main_c_3 : IVec S_ 1 := constantI S_ 1 1#1
  let main_v12 : IVec S_ 1 := (fun x v => Host.reduce IntOp.andi x v reducesTo_S50000x3_S_d0_1 h_S_) main_v11 main_c_3
  let main_v13 : IVec S_ 1 := andi main_v8 main_v12
  let main_v14 : FVec F S131x64 .f32 := Host.absf main_arg4
  let main_cst_4 : FVec F S_ .f32 := constant S_ .f32 0x7F800000#32
  let main_v15 : FVec F S131x64 .f32 := broadcastInDim S131x64 ![] bcast_S_S131x64 main_cst_4
  let main_v16 : IVec S131x64 1 := cmpf .olt main_v14 main_v15
  fn_part1 (F := F) main_arg3 main_arg5 main_arg6 main_arg7 main_arg8 main_arg9 main_arg10 main_arg11 main_arg12 main_arg13 main_arg14 main_v13 main_v16
-- ==== Kernel.lean ====
abbrev S50000x64 : Shape := ⟨2, ![50000, 64]⟩
abbrev S50000x3 : Shape := ⟨2, ![50000, 3]⟩
abbrev S2x800000 : Shape := ⟨2, ![2, 800000]⟩
abbrev S131x64 : Shape := ⟨2, ![131, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S1 : Shape := ⟨1, ![1]⟩
abbrev S1x1 : Shape := ⟨2, ![1, 1]⟩
abbrev S800000x64 : Shape := ⟨2, ![800000, 64]⟩
abbrev S800000x3 : Shape := ⟨2, ![800000, 3]⟩
abbrev S3x64 : Shape := ⟨2, ![3, 64]⟩
abbrev S2000x64 : Shape := ⟨2, ![2000, 64]⟩
abbrev S2000x3 : Shape := ⟨2, ![2000, 3]⟩
abbrev S2000 : Shape := ⟨1, ![2000]⟩
abbrev S2000x1 : Shape := ⟨2, ![2000, 1]⟩
abbrev S1x64 : Shape := ⟨2, ![1, 64]⟩
abbrev S50000x1 : Shape := ⟨2, ![50000, 1]⟩

abbrev nBuf : Space → Nat
  | .hbm => 180
  | .vmem => 42
  | .smem => 0
  | _ => 0

abbrev hbmTy0_0 (i : Nat) : BufTy := match i % 128 with
  | 0 => ⟨S50000x64, .f32⟩
  | 1 => ⟨S50000x3, .f32⟩
  | 2 => ⟨S50000x3, .f32⟩
  | 3 => ⟨S2x800000, .i32⟩
  | 4 => ⟨S131x64, .f32⟩
  | 5 => ⟨S64, .f32⟩
  | 6 => ⟨S64x64, .f32⟩
  | 7 => ⟨S64, .f32⟩
  | 8 => ⟨S128x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x1, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S1, .i32⟩
  | 28 => ⟨S_, .i32⟩
  | 29 => ⟨S800000x1, .i32⟩
  | 30 => ⟨S800000x1, .i1⟩
  | 31 => ⟨S1x1, .i32⟩
  | 32 => ⟨S800000x1, .i32⟩
  | 33 => ⟨S800000x1, .i1⟩
  | 34 => ⟨S800000x1, .i1⟩
  | 35 => ⟨S_, .i1⟩
  | 36 => ⟨S800000, .i1⟩
  | 37 => ⟨S800000x64, .f32⟩
  | 38 => ⟨S800000x64, .i1⟩
  | 39 => ⟨S_, .f32⟩
  | 40 => ⟨S800000x64, .f32⟩
  | 41 => ⟨S800000x64, .f32⟩
  | 42 => ⟨S_, .i32⟩
  | 43 => ⟨S800000, .i32⟩
  | 44 => ⟨S800000, .i1⟩
  | 45 => ⟨S_, .i32⟩
  | 46 => ⟨S800000, .i32⟩
  | 47 => ⟨S800000, .i32⟩
  | 48 => ⟨S800000, .i32⟩
  | 49 => ⟨S800000x1, .i32⟩
  | 50 => ⟨S1, .i32⟩
  | 51 => ⟨S_, .i32⟩
  | 52 => ⟨S800000x1, .i32⟩
  | 53 => ⟨S800000x1, .i1⟩
  | 54 => ⟨S1x1, .i32⟩
  | 55 => ⟨S800000x1, .i32⟩
  | 56 => ⟨S800000x1, .i1⟩
  | 57 => ⟨S800000x1, .i1⟩
  | 58 => ⟨S_, .i1⟩
  | 59 => ⟨S800000, .i1⟩
  | 60 => ⟨S800000x64, .f32⟩
  | 61 => ⟨S800000x64, .i1⟩
  | 62 => ⟨S_, .f32⟩
  | 63 => ⟨S800000x64, .f32⟩
  | 64 => ⟨S800000x64, .f32⟩
  | 65 => ⟨S_, .i32⟩
  | 66 => ⟨S800000, .i32⟩
  | 67 => ⟨S800000, .i1⟩
  | 68 => ⟨S_, .i32⟩
  | 69 => ⟨S800000, .i32⟩
  | 70 => ⟨S800000, .i32⟩
  | 71 => ⟨S800000, .i32⟩
  | 72 => ⟨S800000x1, .i32⟩
  | 73 => ⟨S1, .i32⟩
  | 74 => ⟨S_, .i32⟩
  | 75 => ⟨S800000x1, .i32⟩
  | 76 => ⟨S800000x1, .i1⟩
  | 77 => ⟨S1x1, .i32⟩
  | 78 => ⟨S800000x1, .i32⟩
  | 79 => ⟨S800000x1, .i1⟩
  | 80 => ⟨S800000x1, .i1⟩
  | 81 => ⟨S_, .i1⟩
  | 82 => ⟨S800000, .i1⟩
  | 83 => ⟨S800000x3, .f32⟩
  | 84 => ⟨S800000x3, .i1⟩
  | 85 => ⟨S_, .f32⟩
  | 86 => ⟨S800000x3, .f32⟩
  | 87 => ⟨S800000x3, .f32⟩
  | 88 => ⟨S_, .i32⟩
  | 89 => ⟨S800000, .i32⟩
  | 90 => ⟨S800000, .i1⟩
  | 91 => ⟨S_, .i32⟩
  | 92 => ⟨S800000, .i32⟩
  | 93 => ⟨S800000, .i32⟩
  | 94 => ⟨S800000, .i32⟩
  | 95 => ⟨S800000x1, .i32⟩
  | 96 => ⟨S1, .i32⟩
  | 97 => ⟨S_, .i32⟩
  | 98 => ⟨S800000x1, .i32⟩
  | 99 => ⟨S800000x1, .i1⟩
  | 100 => ⟨S1x1, .i32⟩
  | 101 => ⟨S800000x1, .i32⟩
  | 102 => ⟨S800000x1, .i1⟩
  | 103 => ⟨S800000x1, .i1⟩
  | 104 => ⟨S_, .i1⟩
  | 105 => ⟨S800000, .i1⟩
  | 106 => ⟨S800000x3, .f32⟩
  | 107 => ⟨S800000x3, .i1⟩
  | 108 => ⟨S_, .f32⟩
  | 109 => ⟨S800000x3, .f32⟩
  | 110 => ⟨S800000x3, .f32⟩
  | 111 => ⟨S_, .i32⟩
  | 112 => ⟨S800000, .i32⟩
  | 113 => ⟨S800000, .i1⟩
  | 114 => ⟨S_, .i32⟩
  | 115 => ⟨S800000, .i32⟩
  | 116 => ⟨S800000, .i32⟩
  | 117 => ⟨S800000, .i32⟩
  | 118 => ⟨S800000x1, .i32⟩
  | 119 => ⟨S1, .i32⟩
  | 120 => ⟨S_, .i32⟩
  | 121 => ⟨S800000x1, .i32⟩
  | 122 => ⟨S800000x1, .i1⟩
  | 123 => ⟨S1x1, .i32⟩
  | 124 => ⟨S800000x1, .i32⟩
  | 125 => ⟨S800000x1, .i1⟩
  | 126 => ⟨S800000x1, .i1⟩
  | 127 => ⟨S_, .i1⟩
  | _ => ⟨S50000x64, .f32⟩

abbrev hbmTy0_1 (i : Nat) : BufTy := match i % 128 with
  | 0 => ⟨S800000, .i1⟩
  | 1 => ⟨S800000x3, .f32⟩
  | 2 => ⟨S800000x3, .i1⟩
  | 3 => ⟨S_, .f32⟩
  | 4 => ⟨S800000x3, .f32⟩
  | 5 => ⟨S800000x3, .f32⟩
  | 6 => ⟨S_, .i32⟩
  | 7 => ⟨S800000, .i32⟩
  | 8 => ⟨S800000, .i1⟩
  | 9 => ⟨S_, .i32⟩
  | 10 => ⟨S800000, .i32⟩
  | 11 => ⟨S800000, .i32⟩
  | 12 => ⟨S800000, .i32⟩
  | 13 => ⟨S800000x1, .i32⟩
  | 14 => ⟨S1, .i32⟩
  | 15 => ⟨S_, .i32⟩
  | 16 => ⟨S800000x1, .i32⟩
  | 17 => ⟨S800000x1, .i1⟩
  | 18 => ⟨S1x1, .i32⟩
  | 19 => ⟨S800000x1, .i32⟩
  | 20 => ⟨S800000x1, .i1⟩
  | 21 => ⟨S800000x1, .i1⟩
  | 22 => ⟨S_, .i1⟩
  | 23 => ⟨S800000, .i1⟩
  | 24 => ⟨S800000x3, .f32⟩
  | 25 => ⟨S800000x3, .i1⟩
  | 26 => ⟨S_, .f32⟩
  | 27 => ⟨S800000x3, .f32⟩
  | 28 => ⟨S800000x3, .f32⟩
  | 29 => ⟨S64x64, .f32⟩
  | 30 => ⟨S64x64, .f32⟩
  | 31 => ⟨S3x64, .f32⟩
  | 32 => ⟨S800000x64, .f32⟩
  | 33 => ⟨S800000x3, .f32⟩
  | 34 => ⟨S_, .f32⟩
  | 35 => ⟨S50000x64, .f32⟩
  | 36 => ⟨S800000x1, .i32⟩
  | 37 => ⟨S50000x64, .f32⟩
  | 38 => ⟨S_, .f32⟩
  | 39 => ⟨S50000x3, .f32⟩
  | 40 => ⟨S800000x1, .i32⟩
  | 41 => ⟨S50000x3, .f32⟩
  | 42 => ⟨S_, .f32⟩
  | 43 => ⟨S800000x1, .f32⟩
  | 44 => ⟨S_, .f32⟩
  | 45 => ⟨S50000x1, .f32⟩
  | 46 => ⟨S800000x1, .i32⟩
  | 47 => ⟨S50000x1, .f32⟩
  | 48 => ⟨S64x64, .f32⟩
  | 49 => ⟨S64x64, .f32⟩
  | 50 => ⟨S50000x64, .f32⟩
  | 51 => ⟨S50000x3, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S2000x3, .f32⟩
  | .local _ .vmem, ⟨5, _⟩ => ⟨S2000x3, .f32⟩
  | .local _ .vmem, ⟨6, _⟩ => ⟨S2000x3, .f32⟩
  | .local _ .vmem, ⟨7, _⟩ => ⟨S2000x3, .f32⟩
  | .local _ .vmem, ⟨8, _⟩ => ⟨S2000x3, .f32⟩
  | .local _ .vmem, ⟨9, _⟩ => ⟨S2000x3, .f32⟩
  | .local _ .vmem, ⟨10, _⟩ => ⟨S2000x3, .f32⟩
  | .local _ .vmem, ⟨11, _⟩ => ⟨S2000x3, .f32⟩
  | .local _ .vmem, ⟨12, _⟩ => ⟨S64x64, .f32⟩
  | .local _ .vmem, ⟨13, _⟩ => ⟨S64x64, .f32⟩
  | .local _ .vmem, ⟨14, _⟩ => ⟨S3x64, .f32⟩
  | .local _ .vmem, ⟨15, _⟩ => ⟨S64, .f32⟩
  | .local _ .vmem, ⟨16, _⟩ => ⟨S64x64, .f32⟩
  | .local _ .vmem, ⟨17, _⟩ => ⟨S64, .f32⟩
  | .local _ .vmem, ⟨18, _⟩ => ⟨S64x64, .f32⟩
  | .local _ .vmem, ⟨19, _⟩ => ⟨S64, .f32⟩
  | .local _ .vmem, ⟨20, _⟩ => ⟨S64x1, .f32⟩
  | .local _ .vmem, ⟨21, _⟩ => ⟨S2000x64, .f32⟩
  | .local _ .vmem, ⟨22, _⟩ => ⟨S2000x64, .f32⟩
  | .local _ .vmem, ⟨23, _⟩ => ⟨S2000x3, .f32⟩
  | .local _ .vmem, ⟨24, _⟩ => ⟨S2000x3, .f32⟩
  | .local _ .vmem, ⟨25, _⟩ => ⟨S2000x64, .f32⟩
  | .local _ .vmem, ⟨26, _⟩ => ⟨S2000x64, .f32⟩
  | .local _ .vmem, ⟨27, _⟩ => ⟨S2000x64, .f32⟩
  | .local _ .vmem, ⟨28, _⟩ => ⟨S2000x64, .f32⟩
  | .local _ .vmem, ⟨29, _⟩ => ⟨S2000x3, .f32⟩
  | .local _ .vmem, ⟨30, _⟩ => ⟨S2000x3, .f32⟩
  | .local _ .vmem, ⟨31, _⟩ => ⟨S2000x1, .f32⟩
  | .local _ .vmem, ⟨32, _⟩ => ⟨S2000x1, .f32⟩
  | .local _ .vmem, ⟨33, _⟩ => ⟨S64x64, .f32⟩
  | .local _ .vmem, ⟨34, _⟩ => ⟨S64x64, .f32⟩
  | .local _ .vmem, ⟨35, _⟩ => ⟨S64, .f32⟩
  | .local _ .vmem, ⟨36, _⟩ => ⟨S64x64, .f32⟩
  | .local _ .vmem, ⟨37, _⟩ => ⟨S64, .f32⟩
  | .local _ .vmem, ⟨38, _⟩ => ⟨S2000x64, .f32⟩
  | .local _ .vmem, ⟨39, _⟩ => ⟨S2000x64, .f32⟩
  | .local _ .vmem, ⟨40, _⟩ => ⟨S2000x3, .f32⟩
  | .local _ .vmem, ⟨41, _⟩ => ⟨S2000x3, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_call0_c : Ref sig .tc := ⟨.hbm, 19, rfl⟩
abbrev main_call0_v0 : Ref sig .tc := ⟨.hbm, 20, rfl⟩
abbrev main_call0_v1 : Ref sig .tc := ⟨.hbm, 21, rfl⟩
abbrev main_call0_c_0 : Ref sig .tc := ⟨.hbm, 22, rfl⟩
abbrev main_call0_v2 : Ref sig .tc := ⟨.hbm, 23, rfl⟩
abbrev main_call0_v3 : Ref sig .tc := ⟨.hbm, 24, rfl⟩
abbrev main_call0_v4 : Ref sig .tc := ⟨.hbm, 25, rfl⟩
abbrev main_call0_v5 : Ref sig .tc := ⟨.hbm, 26, rfl⟩
abbrev main_call0_c_1 : Ref sig .tc := ⟨.hbm, 27, rfl⟩
abbrev main_call0_c_2 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_v9 : Ref sig .tc := ⟨.hbm, 32, rfl⟩
abbrev main_call0_v10 : Ref sig .tc := ⟨.hbm, 33, rfl⟩
abbrev main_call0_v11 : Ref sig .tc := ⟨.hbm, 34, rfl⟩
abbrev main_call0_c_3 : Ref sig .tc := ⟨.hbm, 35, rfl⟩
abbrev main_call0_v12 : Ref sig .tc := ⟨.hbm, 36, rfl⟩
abbrev main_call0_v13 : Ref sig .tc := ⟨.hbm, 37, rfl⟩
abbrev main_call0_v14 : Ref sig .tc := ⟨.hbm, 38, rfl⟩
abbrev main_call0_cst : Ref sig .tc := ⟨.hbm, 39, rfl⟩
abbrev main_call0_v15 : Ref sig .tc := ⟨.hbm, 40, rfl⟩
abbrev main_v4 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v5 : Ref sig .tc := ⟨.hbm, 64, rfl⟩
abbrev main_call2_c : Ref sig .tc := ⟨.hbm, 65, rfl⟩
abbrev main_call2_v0 : Ref sig .tc := ⟨.hbm, 66, rfl⟩
abbrev main_call2_v1 : Ref sig .tc := ⟨.hbm, 67, rfl⟩
abbrev main_call2_c_0 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_c_1 : Ref sig .tc := ⟨.hbm, 73, rfl⟩
abbrev main_call2_c_2 : Ref sig .tc := ⟨.hbm, 74, rfl⟩
abbrev main_call2_v6 : Ref sig .tc := ⟨.hbm, 75, rfl⟩
abbrev main_call2_v7 : Ref sig .tc := ⟨.hbm, 76, rfl⟩
abbrev main_call2_v8 : Ref sig .tc := ⟨.hbm, 77, rfl⟩
abbrev main_call2_v9 : Ref sig .tc := ⟨.hbm, 78, rfl⟩
abbrev main_call2_v10 : Ref sig .tc := ⟨.hbm, 79, rfl⟩
abbrev main_call2_v11 : Ref sig .tc := ⟨.hbm, 80, rfl⟩
abbrev main_call2_c_3 : Ref sig .tc := ⟨.hbm, 81, rfl⟩
abbrev main_call2_v12 : Ref sig .tc := ⟨.hbm, 82, rfl⟩
abbrev main_call2_v13 : Ref sig .tc := ⟨.hbm, 83, rfl⟩
abbrev main_call2_v14 : Ref sig .tc := ⟨.hbm, 84, rfl⟩
abbrev main_call2_cst : Ref sig .tc := ⟨.hbm, 85, rfl⟩
abbrev main_call2_v15 : Ref sig .tc := ⟨.hbm, 86, rfl⟩
abbrev main_v6 : Ref sig .tc := ⟨.hbm, 87, rfl⟩
abbrev main_call3_c : Ref sig .tc := ⟨.hbm, 88, rfl⟩
abbrev main_call3_v0 : Ref sig .tc := ⟨.hbm, 89, rfl⟩
abbrev main_call3_v1 : Ref sig .tc := ⟨.hbm, 90, rfl⟩
abbrev main_call3_c_0 : Ref sig .tc := ⟨.hbm, 91, rfl⟩
abbrev main_call3_v2 : Ref sig .tc := ⟨.hbm, 92, rfl⟩
abbrev main_call3_v3 : Ref sig .tc := ⟨.hbm, 93, rfl⟩
abbrev main_call3_v4 : Ref sig .tc := ⟨.hbm, 94, rfl⟩
abbrev main_call3_v5 : Ref sig .tc := ⟨.hbm, 95, rfl⟩
abbrev main_call3_c_1 : Ref sig .tc := ⟨.hbm, 96, rfl⟩
abbrev main_call3_c_2 : Ref sig .tc := ⟨.hbm, 97, rfl⟩
abbrev main_call3_v6 : Ref sig .tc := ⟨.hbm, 98, rfl⟩
abbrev main_call3_v7 : Ref sig .tc := ⟨.hbm, 99, rfl⟩
abbrev main_call3_v8 : Ref sig .tc := ⟨.hbm, 100, rfl⟩
abbrev main_call3_v9 : Ref sig .tc := ⟨.hbm, 101, rfl⟩
abbrev main_call3_v10 : Ref sig .tc := ⟨.hbm, 102, rfl⟩
abbrev main_call3_v11 : Ref sig .tc := ⟨.hbm, 103, rfl⟩
abbrev main_call3_c_3 : Ref sig .tc := ⟨.hbm, 104, rfl⟩
abbrev main_call3_v12 : Ref sig .tc := ⟨.hbm, 105, rfl⟩
abbrev main_call3_v13 : Ref sig .tc := ⟨.hbm, 106, rfl⟩
abbrev main_call3_v14 : Ref sig .tc := ⟨.hbm, 107, rfl⟩
abbrev main_call3_cst : Ref sig .tc := ⟨.hbm, 108, rfl⟩
abbrev main_call3_v15 : Ref sig .tc := ⟨.hbm, 109, rfl⟩
abbrev main_v7 : Ref sig .tc := ⟨.hbm, 110, rfl⟩
abbrev main_call4_c : Ref sig .tc := ⟨.hbm, 111, rfl⟩
abbrev main_call4_v0 : Ref sig .tc := ⟨.hbm, 112, rfl⟩
abbrev main_call4_v1 : Ref sig .tc := ⟨.hbm, 113, rfl⟩
abbrev main_call4_c_0 : Ref sig .tc := ⟨.hbm, 114, rfl⟩
abbrev main_call4_v2 : Ref sig .tc := ⟨.hbm, 115, rfl⟩
abbrev main_call4_v3 : Ref sig .tc := ⟨.hbm, 116, rfl⟩
abbrev main_call4_v4 : Ref sig .tc := ⟨.hbm, 117, rfl⟩
abbrev main_call4_v5 : Ref sig .tc := ⟨.hbm, 118, rfl⟩
abbrev main_call4_c_1 : Ref sig .tc := ⟨.hbm, 119, rfl⟩
abbrev main_call4_c_2 : Ref sig .tc := ⟨.hbm, 120, rfl⟩
abbrev main_call4_v6 : Ref sig .tc := ⟨.hbm, 121, rfl⟩
abbrev main_call4_v7 : Ref sig .tc := ⟨.hbm, 122, rfl⟩
abbrev main_call4_v8 : Ref sig .tc := ⟨.hbm, 123, rfl⟩
abbrev main_call4_v9 : Ref sig .tc := ⟨.hbm, 124, rfl⟩
abbrev main_call4_v10 : Ref sig .tc := ⟨.hbm, 125, rfl⟩
abbrev main_call4_v11 : Ref sig .tc := ⟨.hbm, 126, rfl⟩
abbrev main_call4_c_3 : Ref sig .tc := ⟨.hbm, 127, rfl⟩
abbrev main_call4_v12 : Ref sig .tc := ⟨.hbm, 128, rfl⟩
abbrev main_call4_v13 : Ref sig .tc := ⟨.hbm, 129, rfl⟩
abbrev main_call4_v14 : Ref sig .tc := ⟨.hbm, 130, rfl⟩
abbrev main_call4_cst : Ref sig .tc := ⟨.hbm, 131, rfl⟩
abbrev main_call4_v15 : Ref sig .tc := ⟨.hbm, 132, rfl⟩
abbrev main_v8 : Ref sig .tc := ⟨.hbm, 133, rfl⟩
abbrev main_call5_c : Ref sig .tc := ⟨.hbm, 134, rfl⟩
abbrev main_call5_v0 : Ref sig .tc := ⟨.hbm, 135, rfl⟩
abbrev main_call5_v1 : Ref sig .tc := ⟨.hbm, 136, rfl⟩
abbrev main_call5_c_0 : Ref sig .tc := ⟨.hbm, 137, rfl⟩
abbrev main_call5_v2 : Ref sig .tc := ⟨.hbm, 138, rfl⟩
abbrev main_call5_v3 : Ref sig .tc := ⟨.hbm, 139, rfl⟩
abbrev main_call5_v4 : Ref sig .tc := ⟨.hbm, 140, rfl⟩
abbrev main_call5_v5 : Ref sig .tc := ⟨.hbm, 141, rfl⟩
abbrev main_call5_c_1 : Ref sig .tc := ⟨.hbm, 142, rfl⟩
abbrev main_call5_c_2 : Ref sig .tc := ⟨.hbm, 143, rfl⟩
abbrev main_call5_v6 : Ref sig .tc := ⟨.hbm, 144, rfl⟩
abbrev main_call5_v7 : Ref sig .tc := ⟨.hbm, 145, rfl⟩
abbrev main_call5_v8 : Ref sig .tc := ⟨.hbm, 146, rfl⟩
abbrev main_call5_v9 : Ref sig .tc := ⟨.hbm, 147, rfl⟩
abbrev main_call5_v10 : Ref sig .tc := ⟨.hbm, 148, rfl⟩
abbrev main_call5_v11 : Ref sig .tc := ⟨.hbm, 149, rfl⟩
abbrev main_call5_c_3 : Ref sig .tc := ⟨.hbm, 150, rfl⟩
abbrev main_call5_v12 : Ref sig .tc := ⟨.hbm, 151, rfl⟩
abbrev main_call5_v13 : Ref sig .tc := ⟨.hbm, 152, rfl⟩
abbrev main_call5_v14 : Ref sig .tc := ⟨.hbm, 153, rfl⟩
abbrev main_call5_cst : Ref sig .tc := ⟨.hbm, 154, rfl⟩
abbrev main_call5_v15 : Ref sig .tc := ⟨.hbm, 155, rfl⟩
abbrev main_v9 : Ref sig .tc := ⟨.hbm, 156, rfl⟩
abbrev main_v10 : Ref sig .tc := ⟨.hbm, 157, rfl⟩
abbrev main_v11 : Ref sig .tc := ⟨.hbm, 158, rfl⟩
abbrev main_v12 : Ref sig .tc := ⟨.hbm, 159, rfl⟩
abbrev main_v13_0 : Ref sig .tc := ⟨.hbm, 160, rfl⟩
abbrev main_v13_1 : Ref sig .tc := ⟨.hbm, 161, rfl⟩
abbrev main_cst : Ref sig .tc := ⟨.hbm, 162, rfl⟩
abbrev main_v14 : Ref sig .tc := ⟨.hbm, 163, rfl⟩
abbrev main_v15 : Ref sig .tc := ⟨.hbm, 164, rfl⟩
abbrev main_v16 : Ref sig .tc := ⟨.hbm, 165, rfl⟩
abbrev main_cst_0 : Ref sig .tc := ⟨.hbm, 166, rfl⟩
abbrev main_v17 : Ref sig .tc := ⟨.hbm, 167, rfl⟩
abbrev main_v18 : Ref sig .tc := ⟨.hbm, 168, rfl⟩
abbrev main_v19 : Ref sig .tc := ⟨.hbm, 169, rfl⟩
abbrev main_cst_1 : Ref sig .tc := ⟨.hbm, 170, rfl⟩
abbrev main_v20 : Ref sig .tc := ⟨.hbm, 171, rfl⟩
abbrev main_cst_2 : Ref sig .tc := ⟨.hbm, 172, rfl⟩
abbrev main_v21 : Ref sig .tc := ⟨.hbm, 173, rfl⟩
abbrev main_v22 : Ref sig .tc := ⟨.hbm, 174, rfl⟩
abbrev main_v23 : Ref sig .tc := ⟨.hbm, 175, rfl⟩
abbrev main_v24 : Ref sig .tc := ⟨.hbm, 176, rfl⟩
abbrev main_v25 : Ref sig .tc := ⟨.hbm, 177, rfl⟩
abbrev main_v26_0 : Ref sig .tc := ⟨.hbm, 178, rfl⟩
abbrev main_v26_1 : Ref sig .tc := ⟨.hbm, 179, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg15_1 : Ref sig .tc := ⟨.vmem, 22, rfl⟩
abbrev cc0_stg16_0 : Ref sig .tc := ⟨.vmem, 23, rfl⟩
abbrev cc0_stg16_1 : Ref sig .tc := ⟨.vmem, 24, rfl⟩
abbrev cc1_stg0_0 : Ref sig .tc := ⟨.vmem, 25, rfl⟩
abbrev cc1_stg0_1 : Ref sig .tc := ⟨.vmem, 26, rfl⟩
abbrev cc1_stg1_0 : Ref sig .tc := ⟨.vmem, 27, rfl⟩
abbrev cc1_stg1_1 : Ref sig .tc := ⟨.vmem, 28, rfl⟩
abbrev cc1_stg2_0 : Ref sig .tc := ⟨.vmem, 29, rfl⟩
abbrev cc1_stg2_1 : Ref sig .tc := ⟨.vmem, 30, rfl⟩
abbrev cc1_stg3_0 : Ref sig .tc := ⟨.vmem, 31, rfl⟩
abbrev cc1_stg3_1 : Ref sig .tc := ⟨.vmem, 32, rfl⟩
abbrev cc1_stg4_0 : Ref sig .tc := ⟨.vmem, 33, rfl⟩
abbrev cc1_stg5_0 : Ref sig .tc := ⟨.vmem, 34, rfl⟩
abbrev cc1_stg6_0 : Ref sig .tc := ⟨.vmem, 35, rfl⟩
abbrev cc1_stg7_0 : Ref sig .tc := ⟨.vmem, 36, rfl⟩
abbrev cc1_stg8_0 : Ref sig .tc := ⟨.vmem, 37, rfl⟩
abbrev cc1_stg9_0 : Ref sig .tc := ⟨.vmem, 38, rfl⟩
abbrev cc1_stg9_1 : Ref sig .tc := ⟨.vmem, 39, rfl⟩
abbrev cc1_stg10_0 : Ref sig .tc := ⟨.vmem, 40, rfl⟩
abbrev cc1_stg10_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem15_1 : DmaSem sig := 22
abbrev cc0_sem16_0 : DmaSem sig := 23
abbrev cc0_sem16_1 : DmaSem sig := 24
abbrev cc1_sem0_0 : DmaSem sig := 25
abbrev cc1_sem0_1 : DmaSem sig := 26
abbrev cc1_sem1_0 : DmaSem sig := 27
abbrev cc1_sem1_1 : DmaSem sig := 28
abbrev cc1_sem2_0 : DmaSem sig := 29
abbrev cc1_sem2_1 : DmaSem sig := 30
abbrev cc1_sem3_0 : DmaSem sig := 31
abbrev cc1_sem3_1 : DmaSem sig := 32
abbrev cc1_sem4_0 : DmaSem sig := 33
abbrev cc1_sem5_0 : DmaSem sig := 34
abbrev cc1_sem6_0 : DmaSem sig := 35
abbrev cc1_sem7_0 : DmaSem sig := 36
abbrev cc1_sem8_0 : DmaSem sig := 37
abbrev cc1_sem9_0 : DmaSem sig := 38
abbrev cc1_sem9_1 : DmaSem sig := 39
abbrev cc1_sem10_0 : DmaSem sig := 40
abbrev cc1_sem10_1 : DmaSem sig := 41

abbrev nD : Nat := 1
abbrev τ : Topo := Topo.v7x

variable {F : FTy → Type} [FloatOps F]

abbrev grid0 : Pipeline.Grid := ⟨1, ![400], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2000x3 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x3 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2000x3 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2000x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S2000x64 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2000x3 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S2000x1 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S64x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S2000x64 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S2000x3 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S800000x1 : S_.BroadcastsInDim S800000x1 (![] : Fin 0 → Fin S800000x1.rank)
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  reducesTo_S800000x1_S800000_d1 : S800000x1.ReducesTo [1] S800000
  h_S_ : 0 < S_.numel
  bcast_S800000_S800000x64_0 : S800000.BroadcastsInDim S800000x64 (![0] : Fin 1 → Fin S800000x64.rank)
  bcast_S_S800000x64 : S_.BroadcastsInDim S800000x64 (![] : Fin 0 → Fin S800000x64.rank)
  bcast_S800000_S800000x3_0 : S800000.BroadcastsInDim S800000x3 (![0] : Fin 1 → Fin S800000x3.rank)
  bcast_S_S800000x3 : S_.BroadcastsInDim S800000x3 (![] : Fin 0 → Fin S800000x3.rank)
  slices_S131x64_S64x64_0_0 : S131x64.Slices ![0, 0] S64x64
  slices_S131x64_S64x64_64_0 : S131x64.Slices ![64, 0] S64x64
  slices_S131x64_S3x64_128_0 : S131x64.Slices ![128, 0] S3x64
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  inb_S2000x3_S2000x3_0_0 : ∀ a, (![0, 0] : Fin 2 → Nat) a + S2000x3.size a ≤ S2000x3.size a
  h_S2000x3 : 0 < S2000x3.numel
  shapeCasts_S2000x3_S2000x3 : S2000x3.ShapeCasts S2000x3
  reduces_S2000x3_S2000 : S2000x3.Reduces [1] S2000
  shapeCasts_S2000_S2000x1 : S2000.ShapeCasts S2000x1
  broadcasts_S2000x1_S2000x3 : S2000x1.Broadcasts S2000x3
  concatenates_S2000x1_S2000x1_S2000x1_S2000x3_d1 : Shape.Concatenates [S2000x1, S2000x1, S2000x1] S2000x3 1
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S3x64_S3x64_0_0 : ∀ a, (![0, 0] : Fin 2 → Nat) a + S3x64.size a ≤ S3x64.size a
  h_S3x64 : 0 < S3x64.numel
  shapeCasts_S3x64_S3x64 : S3x64.ShapeCasts S3x64
  inb_S64_S64_0 : ∀ a, (![0] : Fin 1 → Nat) a + S64.size a ≤ S64.size a
  h_S64 : 0 < S64.numel
  shapeCasts_S64_S1x64 : S64.ShapeCasts S1x64
  broadcasts_S1x64_S2000x64 : S1x64.Broadcasts S2000x64
  inb_S64x1_S64x1_0_0 : ∀ a, (![0, 0] : Fin 2 → Nat) a + S64x1.size a ≤ S64x1.size a
  h_S64x1 : 0 < S64x1.numel
  bcast_S_S50000x64 : S_.BroadcastsInDim S50000x64 (![] : Fin 0 → Fin S50000x64.rank)
  bcast_S_S50000x3 : S_.BroadcastsInDim S50000x3 (![] : Fin 0 → Fin S50000x3.rank)
  bcast_S_S50000x1 : S_.BroadcastsInDim S50000x1 (![] : Fin 0 → Fin S50000x1.rank)
  slices_S128x64_S64x64_0_0 : S128x64.Slices ![0, 0] S64x64
  slices_S128x64_S64x64_64_0 : S128x64.Slices ![64, 0] S64x64
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  gather_S50000x64_S800000x1_S800000x64_1_0_n_n_0_1_164_wf : GatherDims.WF S50000x64 S800000x1 S800000x64 [1] [0] [] [0] [] 1 ![1, 64]
  gather_S50000x3_S800000x1_S800000x3_1_0_n_n_0_1_13_wf : GatherDims.WF S50000x3 S800000x1 S800000x3 [1] [0] [] [0] [] 1 ![1, 3]
  dot_S2000x64_S64x64_S2000x64_1_0_0_1_n_n_wf : DotDims.WF S2000x64 S64x64 S2000x64 [1] [0] [0] [1] [] []
  dot_S2000x3_S3x64_S2000x64_1_0_0_1_n_n_wf : DotDims.WF S2000x3 S3x64 S2000x64 [1] [0] [0] [1] [] []
  dot_S2000x64_S64x1_S2000x1_1_0_0_1_n_n_wf : DotDims.WF S2000x64 S64x1 S2000x1 [1] [0] [0] [1] [] []
  scatter_S50000x64_S800000x1_S800000x64_1_0_0_1_wf : ScatterDims.WF S50000x64 S800000x1 S800000x64 [1] [0] [0] 1
  scatter_S50000x3_S800000x1_S800000x3_1_0_0_1_wf : ScatterDims.WF S50000x3 S800000x1 S800000x3 [1] [0] [0] 1
  scatter_S50000x1_S800000x1_S800000x1_1_0_0_1_wf : ScatterDims.WF S50000x1 S800000x1 S800000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S800000x64.size a
  hwx0_0 : ∀ i : grid0.Coords, EltTy.bits .f32 = 32 ∨ (Rect.block (s := S800000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S800000x64.size a
  hwx0_1 : ∀ i : grid0.Coords, EltTy.bits .f32 = 32 ∨ (Rect.block (s := S800000x64) S2000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x3.size a ≤ S800000x3.size a
  hwx0_2 : ∀ i : grid0.Coords, EltTy.bits .f32 = 32 ∨ (Rect.block (s := S800000x3) S2000x3.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x3.size a ≤ S800000x3.size a
  hwx0_3 : ∀ i : grid0.Coords, EltTy.bits .f32 = 32 ∨ (Rect.block (s := S800000x3) S2000x3.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2000x3.size a ≤ S800000x3.size a
  hwx0_4 : ∀ i : grid0.Coords, EltTy.bits .f32 = 32 ∨ (Rect.block (s := S800000x3) S2000x3.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x3.size a ≤ S800000x3.size a
  hwx0_5 : ∀ i : grid0.Coords, EltTy.bits .f32 = 32 ∨ (Rect.block (s := S800000x3) S2000x3.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S64x64.size a ≤ S64x64.size a
  hwx0_6 : ∀ i : grid0.Coords, EltTy.bits .f32 = 32 ∨ (Rect.block (s := S64x64) S64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64x64.size a ≤ S64x64.size a
  hwx0_7 : ∀ i : grid0.Coords, EltTy.bits .f32 = 32 ∨ (Rect.block (s := S64x64) S64x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x64.size a ≤ S3x64.size a
  hwx0_8 : ∀ i : grid0.Coords, EltTy.bits .f32 = 32 ∨ (Rect.block (s := S3x64) S3x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S64.size a ≤ S64.size a
  hwx0_9 : ∀ i : grid0.Coords, EltTy.bits .f32 = 32 ∨ (Rect.block (s := S64) S64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x64.size a ≤ S64x64.size a
  hwx0_10 : ∀ i : grid0.Coords, EltTy.bits .f32 = 32 ∨ (Rect.block (s := S64x64) S64x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S64.size a ≤ S64.size a
  hwx0_11 : ∀ i : grid0.Coords, EltTy.bits .f32 = 32 ∨ (Rect.block (s := S64) S64.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S64x64.size a ≤ S64x64.size a
  hwx0_12 : ∀ i : grid0.Coords, EltTy.bits .f32 = 32 ∨ (Rect.block (s := S64x64) S64x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64.size a ≤ S64.size a
  hwx0_13 : ∀ i : grid0.Coords, EltTy.bits .f32 = 32 ∨ (Rect.block (s := S64) S64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64x1.size a ≤ S64x1.size a
  hwx0_14 : ∀ i : grid0.Coords, EltTy.bits .f32 = 32 ∨ (Rect.block (s := S64x1) S64x1.size (cc0_transform_14 i) (hinb0_14 i)).WholeWords (EltTy.packing .f32)
  hstage0_15 : ∀ j, (stage0_15 j).IsWhole
  nbuf0_15 : grid0.bufCount reads0_15 false = 2
  hreads0_15 : ∀ i i' : grid0.Coords, (∀ a, reads0_15 a = true → i a = i' a) → cc0_transform_15 i = cc0_transform_15 i'
  hinb0_15 : ∀ (i : grid0.Coords) a, (cc0_transform_15 i a + 1) * S2000x64.size a ≤ S800000x64.size a
  hwx0_15 : ∀ i : grid0.Coords, EltTy.bits .f32 = 32 ∨ (Rect.block (s := S800000x64) S2000x64.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S2000x3.size a ≤ S800000x3.size a
  hwx0_16 : ∀ i : grid0.Coords, EltTy.bits .f32 = 32 ∨ (Rect.block (s := S800000x3) S2000x3.size (cc0_transform_16 i) (hinb0_16 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x64.size a ≤ S50000x64.size a
  hwx1_1 : ∀ i : grid1.Coords, EltTy.bits .f32 = 32 ∨ (Rect.block (s := S50000x64) S2000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x3.size a ≤ S50000x3.size a
  hwx1_2 : ∀ i : grid1.Coords, EltTy.bits .f32 = 32 ∨ (Rect.block (s := S50000x3) S2000x3.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .f32 = 32 ∨ (Rect.block (s := S50000x1) S2000x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x64.size a ≤ S64x64.size a
  hwx1_5 : ∀ i : grid1.Coords, EltTy.bits .f32 = 32 ∨ (Rect.block (s := S64x64) S64x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S64x64.size a ≤ S64x64.size a
  hwx1_7 : ∀ i : grid1.Coords, EltTy.bits .f32 = 32 ∨ (Rect.block (s := S64x64) S64x64.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S64.size a ≤ S64.size a
  hwx1_8 : ∀ i : grid1.Coords, EltTy.bits .f32 = 32 ∨ (Rect.block (s := S64) S64.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S2000x64.size a ≤ S50000x64.size a
  hwx1_9 : ∀ i : grid1.Coords, EltTy.bits .f32 = 32 ∨ (Rect.block (s := S50000x64) S2000x64.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S2000x3.size a ≤ S50000x3.size a
  hwx1_10 : ∀ i : grid1.Coords, EltTy.bits .f32 = 32 ∨ (Rect.block (s := S50000x3) S2000x3.size (cc1_transform_10 i) (hinb1_10 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def dot_S2000x3_S3x64_S2000x64_1_0_0_1_n_n : DotDims S2000x3 S3x64 S2000x64 where
  lhsContracting := [1]
  rhsContracting := [0]
  lhsNonContracting := [0]
  rhsNonContracting := [1]
  lhsBatch := []
  rhsBatch := []
  wf := dot_S2000x3_S3x64_S2000x64_1_0_0_1_n_n_wf
def dot_S2000x64_S64x1_S2000x1_1_0_0_1_n_n : DotDims S2000x64 S64x1 S2000x1 where
  lhsContracting := [1]
  rhsContracting := [0]
  lhsNonContracting := [0]
  rhsNonContracting := [1]
  lhsBatch := []
  rhsBatch := []
  wf := dot_S2000x64_S64x1_S2000x1_1_0_0_1_n_n_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf

abbrev win0_0 : Pipeline.Window sig grid0 :=
  Pipeline.Window.ofSpec (Memref.whole main_v4) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v5) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S2000x3.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S2000x3.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2000x3.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v9) S2000x3.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v10) S64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v11) S64x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S3x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg5) S64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg6) S64x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg7) S64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S64x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg13) S64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S64x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v13_0) S2000x64.size cc0_transform_15 reads0_15 true false 2 stage0_15 sem0_15
    hrank0 hreads0_15 hinb0_15 nbuf0_15 (Memref.isWhole_whole _) hwx0_15 hstage0_15

abbrev win0_16 : Pipeline.Window sig grid0 :=
  Pipeline.Window.ofSpec (Memref.whole main_v13_1) S2000x3.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

abbrev win1_0 : Pipeline.Window sig grid1 :=
  Pipeline.Window.ofSpec (Memref.whole main_arg0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v16) S2000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v19) S2000x3.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v23) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v24) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v25) S64x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S64x64.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v26_0) S2000x64.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v26_1) S2000x3.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

class Facts : Prop extends Facts₀ where

variable [Facts]
-- ==== ReferenceIdeal.lean ====
abbrev S50000x64 : Shape := ⟨2, ![50000, 64]⟩
abbrev S50000x3 : Shape := ⟨2, ![50000, 3]⟩
abbrev S2x800000 : Shape := ⟨2, ![2, 800000]⟩
abbrev S131x64 : Shape := ⟨2, ![131, 64]⟩
abbrev S64 : Shape := ⟨1, ![64]⟩
abbrev S64x64 : Shape := ⟨2, ![64, 64]⟩
abbrev S128x64 : Shape := ⟨2, ![128, 64]⟩
abbrev S64x1 : Shape := ⟨2, ![64, 1]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x3 : Shape := ⟨2, ![800000, 3]⟩
abbrev S800000x64 : Shape := ⟨2, ![800000, 64]⟩
abbrev S800000x131 : Shape := ⟨2, ![800000, 131]⟩
abbrev S1x64 : Shape := ⟨2, ![1, 64]⟩
abbrev S50000x1 : Shape := ⟨2, ![50000, 1]⟩
abbrev S50000x128 : Shape := ⟨2, ![50000, 128]⟩

abbrev nBuf : Space → Nat
  | .hbm => 162
  | .vmem => 0
  | .smem => 0
  | _ => 0

abbrev hbmTy0_0 (i : Nat) : BufTy := match i % 128 with
  | 0 => ⟨S50000x64, .f32⟩
  | 1 => ⟨S50000x3, .f32⟩
  | 2 => ⟨S50000x3, .f32⟩
  | 3 => ⟨S2x800000, .i32⟩
  | 4 => ⟨S131x64, .f32⟩
  | 5 => ⟨S64, .f32⟩
  | 6 => ⟨S64x64, .f32⟩
  | 7 => ⟨S64, .f32⟩
  | 8 => ⟨S128x64, .f32⟩
  | 9 => ⟨S64, .f32⟩
  | 10 => ⟨S64x64, .f32⟩
  | 11 => ⟨S64, .f32⟩
  | 12 => ⟨S64x64, .f32⟩
  | 13 => ⟨S64, .f32⟩
  | 14 => ⟨S64x1, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x3, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x3, .f32⟩
  | 37 => ⟨S800000x3, .f32⟩
  | 38 => ⟨S_, .i32⟩
  | 39 => ⟨S800000, .i32⟩
  | 40 => ⟨S800000, .i1⟩
  | 41 => ⟨S_, .i32⟩
  | 42 => ⟨S800000, .i32⟩
  | 43 => ⟨S800000, .i32⟩
  | 44 => ⟨S800000, .i32⟩
  | 45 => ⟨S800000x1, .i32⟩
  | 46 => ⟨S800000x3, .f32⟩
  | 47 => ⟨S_, .i32⟩
  | 48 => ⟨S800000, .i32⟩
  | 49 => ⟨S800000, .i1⟩
  | 50 => ⟨S_, .i32⟩
  | 51 => ⟨S800000, .i32⟩
  | 52 => ⟨S800000, .i32⟩
  | 53 => ⟨S800000, .i32⟩
  | 54 => ⟨S800000x1, .i32⟩
  | 55 => ⟨S800000x3, .f32⟩
  | 56 => ⟨S800000x3, .f32⟩
  | 57 => ⟨S800000x3, .f32⟩
  | 58 => ⟨S_, .f32⟩
  | 59 => ⟨S800000, .f32⟩
  | 60 => ⟨S800000x1, .f32⟩
  | 61 => ⟨S800000x1, .f32⟩
  | 62 => ⟨S800000x3, .f32⟩
  | 63 => ⟨S_, .f32⟩
  | 64 => ⟨S800000, .f32⟩
  | 65 => ⟨S800000x1, .f32⟩
  | 66 => ⟨S800000x1, .f32⟩
  | 67 => ⟨S800000x3, .f32⟩
  | 68 => ⟨S800000x3, .f32⟩
  | 69 => ⟨S800000x3, .f32⟩
  | 70 => ⟨S800000x3, .f32⟩
  | 71 => ⟨S800000x3, .f32⟩
  | 72 => ⟨S_, .f32⟩
  | 73 => ⟨S800000, .f32⟩
  | 74 => ⟨S800000x1, .f32⟩
  | 75 => ⟨S800000x3, .f32⟩
  | 76 => ⟨S_, .i32⟩
  | 77 => ⟨S800000, .i32⟩
  | 78 => ⟨S800000, .i1⟩
  | 79 => ⟨S_, .i32⟩
  | 80 => ⟨S800000, .i32⟩
  | 81 => ⟨S800000, .i32⟩
  | 82 => ⟨S800000, .i32⟩
  | 83 => ⟨S800000x1, .i32⟩
  | 84 => ⟨S800000x64, .f32⟩
  | 85 => ⟨S_, .i32⟩
  | 86 => ⟨S800000, .i32⟩
  | 87 => ⟨S800000, .i1⟩
  | 88 => ⟨S_, .i32⟩
  | 89 => ⟨S800000, .i32⟩
  | 90 => ⟨S800000, .i32⟩
  | 91 => ⟨S800000, .i32⟩
  | 92 => ⟨S800000x1, .i32⟩
  | 93 => ⟨S800000x64, .f32⟩
  | 94 => ⟨S800000x131, .f32⟩
  | 95 => ⟨S800000x64, .f32⟩
  | 96 => ⟨S1x64, .f32⟩
  | 97 => ⟨S800000x64, .f32⟩
  | 98 => ⟨S800000x64, .f32⟩
  | 99 => ⟨S_, .f32⟩
  | 100 => ⟨S800000x64, .f32⟩
  | 101 => ⟨S800000x64, .f32⟩
  | 102 => ⟨S800000x64, .f32⟩
  | 103 => ⟨S1x64, .f32⟩
  | 104 => ⟨S800000x64, .f32⟩
  | 105 => ⟨S800000x64, .f32⟩
  | 106 => ⟨S_, .f32⟩
  | 107 => ⟨S800000x64, .f32⟩
  | 108 => ⟨S800000x64, .f32⟩
  | 109 => ⟨S800000x64, .f32⟩
  | 110 => ⟨S1x64, .f32⟩
  | 111 => ⟨S800000x64, .f32⟩
  | 112 => ⟨S800000x64, .f32⟩
  | 113 => ⟨S_, .f32⟩
  | 114 => ⟨S800000x64, .f32⟩
  | 115 => ⟨S800000x64, .f32⟩
  | 116 => ⟨S800000x1, .f32⟩
  | 117 => ⟨S800000x3, .f32⟩
  | 118 => ⟨S800000x3, .f32⟩
  | 119 => ⟨S_, .f32⟩
  | 120 => ⟨S_, .f32⟩
  | 121 => ⟨S_, .f32⟩
  | 122 => ⟨S800000x3, .f32⟩
  | 123 => ⟨S800000x3, .f32⟩
  | 124 => ⟨S_, .f32⟩
  | 125 => ⟨S800000x3, .f32⟩
  | 126 => ⟨S800000x3, .f32⟩
  | 127 => ⟨S_, .f32⟩
  | _ => ⟨S50000x64, .f32⟩

abbrev hbmTy0_1 (i : Nat) : BufTy := match i % 128 with
  | 0 => ⟨S50000x3, .f32⟩
  | 1 => ⟨S800000x1, .i32⟩
  | 2 => ⟨S50000x3, .f32⟩
  | 3 => ⟨S_, .f32⟩
  | 4 => ⟨S800000x1, .f32⟩
  | 5 => ⟨S_, .f32⟩
  | 6 => ⟨S50000x1, .f32⟩
  | 7 => ⟨S800000x1, .i32⟩
  | 8 => ⟨S50000x1, .f32⟩
  | 9 => ⟨S_, .f32⟩
  | 10 => ⟨S_, .f32⟩
  | 11 => ⟨S50000x1, .f32⟩
  | 12 => ⟨S50000x1, .f32⟩
  | 13 => ⟨S50000x3, .f32⟩
  | 14 => ⟨S50000x3, .f32⟩
  | 15 => ⟨S_, .f32⟩
  | 16 => ⟨S50000x3, .f32⟩
  | 17 => ⟨S50000x3, .f32⟩
  | 18 => ⟨S_, .f32⟩
  | 19 => ⟨S50000x64, .f32⟩
  | 20 => ⟨S800000x1, .i32⟩
  | 21 => ⟨S50000x64, .f32⟩
  | 22 => ⟨S50000x128, .f32⟩
  | 23 => ⟨S50000x64, .f32⟩
  | 24 => ⟨S1x64, .f32⟩
  | 25 => ⟨S50000x64, .f32⟩
  | 26 => ⟨S50000x64, .f32⟩
  | 27 => ⟨S_, .f32⟩
  | 28 => ⟨S50000x64, .f32⟩
  | 29 => ⟨S50000x64, .f32⟩
  | 30 => ⟨S50000x64, .f32⟩
  | 31 => ⟨S1x64, .f32⟩
  | 32 => ⟨S50000x64, .f32⟩
  | 33 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_c_1 : Ref sig .tc := ⟨.hbm, 28, rfl⟩
abbrev main_v11 : Ref sig .tc := ⟨.hbm, 29, rfl⟩
abbrev main_v12 : Ref sig .tc := ⟨.hbm, 30, rfl⟩
abbrev main_c_2 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_c_3 : Ref sig .tc := ⟨.hbm, 38, rfl⟩
abbrev main_v19 : Ref sig .tc := ⟨.hbm, 39, rfl⟩
abbrev main_v20 : Ref sig .tc := ⟨.hbm, 40, rfl⟩
abbrev main_c_4 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_c_5 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_cst : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_7 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_cst_8 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_c_9 : Ref sig .tc := ⟨.hbm, 76, rfl⟩
abbrev main_v50 : Ref sig .tc := ⟨.hbm, 77, rfl⟩
abbrev main_v51 : Ref sig .tc := ⟨.hbm, 78, rfl⟩
abbrev main_c_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_c_11 : Ref sig .tc := ⟨.hbm, 85, rfl⟩
abbrev main_v57 : Ref sig .tc := ⟨.hbm, 86, rfl⟩
abbrev main_v58 : Ref sig .tc := ⟨.hbm, 87, rfl⟩
abbrev main_c_12 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_call0_cst : Ref sig .tc := ⟨.hbm, 99, rfl⟩
abbrev main_call0_v0 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_call1_cst : Ref sig .tc := ⟨.hbm, 106, rfl⟩
abbrev main_call1_v0 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_call2_cst : Ref sig .tc := ⟨.hbm, 113, rfl⟩
abbrev main_call2_v0 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_13 : Ref sig .tc := ⟨.hbm, 119, rfl⟩
abbrev main_cst_14 : Ref sig .tc := ⟨.hbm, 120, rfl⟩
abbrev main_call3_v0 : Ref sig .tc := ⟨.hbm, 121, rfl⟩
abbrev main_call3_v1 : Ref sig .tc := ⟨.hbm, 122, rfl⟩
abbrev main_call3_v2 : Ref sig .tc := ⟨.hbm, 123, rfl⟩
abbrev main_call3_v3 : Ref sig .tc := ⟨.hbm, 124, rfl⟩
abbrev main_call3_v4 : Ref sig .tc := ⟨.hbm, 125, rfl⟩
abbrev main_v83 : Ref sig .tc := ⟨.hbm, 126, rfl⟩
abbrev main_cst_15 : Ref sig .tc := ⟨.hbm, 127, rfl⟩
abbrev main_v84 : Ref sig .tc := ⟨.hbm, 128, rfl⟩
abbrev main_v85 : Ref sig .tc := ⟨.hbm, 129, rfl⟩
abbrev main_v86 : Ref sig .tc := ⟨.hbm, 130, rfl⟩
abbrev main_cst_16 : Ref sig .tc := ⟨.hbm, 131, rfl⟩
abbrev main_v87 : Ref sig .tc := ⟨.hbm, 132, rfl⟩
abbrev main_cst_17 : Ref sig .tc := ⟨.hbm, 133, rfl⟩
abbrev main_v88 : Ref sig .tc := ⟨.hbm, 134, rfl⟩
abbrev main_v89 : Ref sig .tc := ⟨.hbm, 135, rfl⟩
abbrev main_v90 : Ref sig .tc := ⟨.hbm, 136, rfl⟩
abbrev main_cst_18 : Ref sig .tc := ⟨.hbm, 137, rfl⟩
abbrev main_call4_v0 : Ref sig .tc := ⟨.hbm, 138, rfl⟩
abbrev main_call4_v1 : Ref sig .tc := ⟨.hbm, 139, rfl⟩
abbrev main_v91 : Ref sig .tc := ⟨.hbm, 140, rfl⟩
abbrev main_v92 : Ref sig .tc := ⟨.hbm, 141, rfl⟩
abbrev main_v93 : Ref sig .tc := ⟨.hbm, 142, rfl⟩
abbrev main_cst_19 : Ref sig .tc := ⟨.hbm, 143, rfl⟩
abbrev main_v94 : Ref sig .tc := ⟨.hbm, 144, rfl⟩
abbrev main_v95 : Ref sig .tc := ⟨.hbm, 145, rfl⟩
abbrev main_cst_20 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_v99 : Ref sig .tc := ⟨.hbm, 150, rfl⟩
abbrev main_v100 : Ref sig .tc := ⟨.hbm, 151, rfl⟩
abbrev main_v101 : Ref sig .tc := ⟨.hbm, 152, rfl⟩
abbrev main_v102 : Ref sig .tc := ⟨.hbm, 153, rfl⟩
abbrev main_v103 : Ref sig .tc := ⟨.hbm, 154, rfl⟩
abbrev main_call5_cst : Ref sig .tc := ⟨.hbm, 155, rfl⟩
abbrev main_call5_v0 : Ref sig .tc := ⟨.hbm, 156, rfl⟩
abbrev main_v104 : Ref sig .tc := ⟨.hbm, 157, rfl⟩
abbrev main_v105 : Ref sig .tc := ⟨.hbm, 158, rfl⟩
abbrev main_v106 : Ref sig .tc := ⟨.hbm, 159, rfl⟩
abbrev main_v107 : Ref sig .tc := ⟨.hbm, 160, rfl⟩
abbrev main_v108 : Ref sig .tc := ⟨.hbm, 161, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  reducesTo_S800000x3_S800000_d1 : S800000x3.ReducesTo [1] S800000
  h_S_ : 0 < S_.numel
  bcast_S800000x1_S800000x3_0_1 : S800000x1.BroadcastsInDim S800000x3 (![0, 1] : Fin 2 → Fin S800000x3.rank)
  concatenates_S800000x1_S800000x1_S800000x1_S800000x3_d1 : Shape.Concatenates [S800000x1, S800000x1, S800000x1] S800000x3 1
  concatenates_S800000x64_S800000x64_S800000x3_S800000x131_d1 : Shape.Concatenates [S800000x64, S800000x64, S800000x3] S800000x131 1
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  bcast_S_S800000x64 : S_.BroadcastsInDim S800000x64 (![] : Fin 0 → Fin S800000x64.rank)
  bcast_S_S800000x3 : S_.BroadcastsInDim S800000x3 (![] : Fin 0 → Fin S800000x3.rank)
  bcast_S_S50000x3 : S_.BroadcastsInDim S50000x3 (![] : Fin 0 → Fin S50000x3.rank)
  bcast_S_S800000x1 : S_.BroadcastsInDim S800000x1 (![] : Fin 0 → Fin S800000x1.rank)
  bcast_S_S50000x1 : S_.BroadcastsInDim S50000x1 (![] : Fin 0 → Fin S50000x1.rank)
  bcast_S50000x1_S50000x3_0_1 : S50000x1.BroadcastsInDim S50000x3 (![0, 1] : Fin 2 → Fin S50000x3.rank)
  bcast_S_S50000x64 : S_.BroadcastsInDim S50000x64 (![] : Fin 0 → Fin S50000x64.rank)
  concatenates_S50000x64_S50000x64_S50000x128_d1 : Shape.Concatenates [S50000x64, S50000x64] S50000x128 1
  bcast_S1x64_S50000x64_0_1 : S1x64.BroadcastsInDim S50000x64 (![0, 1] : Fin 2 → Fin S50000x64.rank)
  gather_S50000x3_S800000x1_S800000x3_1_0_n_n_0_1_13_wf : GatherDims.WF S50000x3 S800000x1 S800000x3 [1] [0] [] [0] [] 1 ![1, 3]
  gather_S50000x64_S800000x1_S800000x64_1_0_n_n_0_1_164_wf : GatherDims.WF S50000x64 S800000x1 S800000x64 [1] [0] [] [0] [] 1 ![1, 64]
  dot_S800000x131_S131x64_S800000x64_1_0_0_1_n_n_wf : DotDims.WF S800000x131 S131x64 S800000x64 [1] [0] [0] [1] [] []
  dot_S800000x64_S64x64_S800000x64_1_0_0_1_n_n_wf : DotDims.WF S800000x64 S64x64 S800000x64 [1] [0] [0] [1] [] []
  dot_S800000x64_S64x1_S800000x1_1_0_0_1_n_n_wf : DotDims.WF S800000x64 S64x1 S800000x1 [1] [0] [0] [1] [] []
  scatter_S50000x3_S800000x1_S800000x3_1_0_0_1_wf : ScatterDims.WF S50000x3 S800000x1 S800000x3 [1] [0] [0] 1
  scatter_S50000x1_S800000x1_S800000x1_1_0_0_1_wf : ScatterDims.WF S50000x1 S800000x1 S800000x1 [1] [0] [0] 1
  scatter_S50000x64_S800000x1_S800000x64_1_0_0_1_wf : ScatterDims.WF S50000x64 S800000x1 S800000x64 [1] [0] [0] 1
  dot_S50000x128_S128x64_S50000x64_1_0_0_1_n_n_wf : DotDims.WF S50000x128 S128x64 S50000x64 [1] [0] [0] [1] [] []
  dot_S50000x64_S64x64_S50000x64_1_0_0_1_n_n_wf : DotDims.WF S50000x64 S64x64 S50000x64 [1] [0] [0] [1] [] []

variable [Facts₀]

def gather_S50000x3_S800000x1_S800000x3_1_0_n_n_0_1_13 : GatherDims S50000x3 S800000x1 S800000x3 where
  offsetDims := [1]
  collapsedSliceDims := [0]
  operandBatchingDims := []
  startIndicesBatchingDims := []
  startIndexMap := [0]
  indexVectorDim := 1
  sliceSizes := ![1, 3]
  wf := gather_S50000x3_S800000x1_S800000x3_1_0_n_n_0_1_13_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x131_S131x64_S800000x64_1_0_0_1_n_n : DotDims S800000x131 S131x64 S800000x64 where
  lhsContracting := [1]
  rhsContracting := [0]
  lhsNonContracting := [0]
  rhsNonContracting := [1]
  lhsBatch := []
  rhsBatch := []
  wf := dot_S800000x131_S131x64_S800000x64_1_0_0_1_n_n_wf
def dot_S800000x64_S64x64_S800000x64_1_0_0_1_n_n : DotDims S800000x64 S64x64 S800000x64 where
  lhsContracting := [1]
  rhsContracting := [0]
  lhsNonContracting := [0]
  rhsNonContracting := [1]
  lhsBatch := []
  rhsBatch := []
  wf := dot_S800000x64_S64x64_S800000x64_1_0_0_1_n_n_wf
def dot_S800000x64_S64x1_S800000x1_1_0_0_1_n_n : DotDims S800000x64 S64x1 S800000x1 where
  lhsContracting := [1]
  rhsContracting := [0]
  lhsNonContracting := [0]
  rhsNonContracting := [1]
  lhsBatch := []
  rhsBatch := []
  wf := dot_S800000x64_S64x1_S800000x1_1_0_0_1_n_n_wf
def scatter_S50000x3_S800000x1_S800000x3_1_0_0_1 : ScatterDims S50000x3 S800000x1 S800000x3 where
  updateWindowDims := [1]
  insertedWindowDims := [0]
  scatterDimsToOperandDims := [0]
  indexVectorDim := 1
  wf := scatter_S50000x3_S800000x1_S800000x3_1_0_0_1_wf
def scatter_S50000x1_S800000x1_S800000x1_1_0_0_1 : ScatterDims S50000x1 S800000x1 S800000x1 where
  updateWindowDims := [1]
  insertedWindowDims := [0]
  scatterDimsToOperandDims := [0]
  indexVectorDim := 1
  wf := scatter_S50000x1_S800000x1_S800000x1_1_0_0_1_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf

class Facts : Prop extends Facts₀ where

variable [Facts]
-- ==== Proof.LibNary3.lean ====
/-
  A general fact about a host operation that joins THREE buffers (a `stablehlo.concatenate` of three operands, printed
  `nary ![x, a, b] …`): its result holds the operation's function of the three operands' contents, each AT ITS OWN
  REFERENCE. The library states this for a literal family of four references; this is the same statement for three.
-/
import Idealize.ShloMosaic.Lib.StableHlo.Run

noncomputable section

namespace Idealize.ShloMosaic.StableHlo

variable {τ : Topo} {sig : RefSig} {Val : EltTy → Type}

/-- `nary` over a literal family of three references: the result with each operand's contents at its own reference —
    `Fin.cons (F ↑x) (Fin.cons (F ↑a) (Fin.cons (F ↑b) _))` in place of `fun k => F ↑(![x, a, b] k)` —, so that the
    operands' own contents can go on being read. -/
theorem nary3_result {x a b y : Ref sig .tc}
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

end Idealize.ShloMosaic.StableHlo

end
-- ==== Proof.RefRunBase.lean ====
/-
  Reading the reference program's host operations chunk by chunk: general facts, at any buffer contents before a chunk.
-/
import proofs.«425614_j2473901163257_4_alg».proof.Proof.RunP
import proofs.«425614_j2473901163257_4_alg».proof.Proof.ReadP
import proofs.«425614_j2473901163257_4_alg».proof.Proof.LibNary3
import Idealize.ShloMosaic.Lib.StableHlo.Run

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- A value stored at a buffer's type and read back at the same type is unchanged: the two transports along the
    buffer's type equation cancel. -/
theorem ofBuf_toBuf {T : BufTy} (x : TRef sig T) (v : T.Contents (Elt F)) : x.ofBuf (x.toBuf v) = v := by
  obtain ⟨r, h, _, _⟩ := x; subst h; rfl

/-- A chunk none of whose operations writes buffer `b` leaves `b`'s contents as they were. -/
theorem after_skip (l : List (HloOp τ sig (Elt F))) (V : Valuation τ sig (Elt F)) (b : Ref sig .tc)
    (h : l.Forall fun op => Proc.devRef (τ := τ) .tc b ∉ op.writes) :
    StableHlo.after l V (Proc.devRef .tc b) = V (Proc.devRef .tc b) :=
  StableHlo.after_of_forall_not_mem l V (List.forall_iff_forall_mem.mp h)

/-- "No operation of the chunk writes this buffer": each operation writes exactly its result buffer, and the
    references are told apart by deciding. -/
macro "not_written" : tactic => `(tactic| (
  simp only [ops_c1, ops_c2, ops_c3, ops_c4, ops_c5, ops_c6, ops_c7, ops_c8, ops_c9,
    List.Forall, StableHlo.nullary_writes, StableHlo.unary_writes, StableHlo.binary_writes, StableHlo.ternary_writes,
    StableHlo.quaternary_writes, StableHlo.reshape_writes, StableHlo.nary_writes, Finset.mem_singleton]
  (repeat' apply And.intro) <;> (apply StableHlo.devRef_ne_of_ne; decide)))

/-- Walks a buffer's contents back through every chunk that does not write it, stopping at the first that does
    (or at the contents the run starts from). -/
macro "walk_back" : tactic => `(tactic| repeat (refine Eq.trans (after_skip _ _ _ ?_) ?_; · not_written))

/-- Reads a chunk's result buffer: every operation's result at its own buffer is its function's value (an operand of a
    joined array is named by its place in the literal family of the joined buffers: once that place is read off, the
    operand's own contents are read the same way), and the typed references' transports cancel. -/
macro "read_chunk" : tactic => `(tactic| (
  after_results_simp
  try (simp only [Matrix.cons_val_zero, Matrix.cons_val_one, Matrix.cons_val_two, Matrix.head_cons, Matrix.tail_cons]
       try simp only [Matrix.head_cons, Matrix.tail_cons]
       try after_results_simp)
  try simp only [ofBuf_toBuf]
  try simp only [TRef.ofBuf, TRef.toBuf, cast_eq]))

/-- The same reading one rewrite at a time, outermost operation first: at a chunk that joins buffers the joined
    operands sit inside the operation's list of pieces, and each is read at its own reference (three pieces: the
    three-reference form of the join's result). -/
macro "read_chunk_rw" : tactic => `(tactic| (
  simp only [StableHlo.after_cons, StableHlo.after_nil]
  repeat (first
    | rw [nullary_result] | rw [unary_result] | rw [binary_result] | rw [ternary_result] | rw [quaternary_result]
    | rw [reshape_result] | rw [nary3_result] | rw [nary4_result] | rw [nary_result]
    | (rw [nullary_result_ne]; rotate_left; decide)
    | (rw [unary_result_ne]; rotate_left; decide)
    | (rw [binary_result_ne]; rotate_left; decide)
    | (rw [ternary_result_ne]; rotate_left; decide)
    | (rw [quaternary_result_ne]; rotate_left; decide)
    | (rw [reshape_result_ne]; rotate_left; decide)
    | (rw [nary_result_ne]; rotate_left; decide))
  try simp only [ofBuf_toBuf]
  try simp only [TRef.ofBuf, TRef.toBuf, cast_eq]))

end Cert.ReferenceIdeal.RefRun

end
-- ==== Proof.RefRunA.lean ====
/-
  The reference's host operations, chunks one to five: the edge list's two rows; the position and velocity differences of
  every edge's endpoints; the three radial features; the two endpoint feature rows. Each chunk's result is the generated
  stage of the same name, given that the buffers the chunk reads hold their stages.
-/
import proofs.«425614_j2473901163257_4_alg».proof.Proof.RunP
import proofs.«425614_j2473901163257_4_alg».proof.Proof.ReadP
import proofs.«425614_j2473901163257_4_alg».proof.Proof.RefRunBase
import Idealize.ShloMosaic.Lib.StableHlo.Run

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- After the first chunk the row-index vector holds its stage. -/
theorem c1_v1 (W : Valuation τ sig (Elt F)) (x3 : (⟨S2x800000, .i32⟩ : BufTy).Contents (Elt F))
    (h3 : W (Proc.devRef .tc main_arg3) = x3) :
    StableHlo.after (ops_c1 (F := F)) W (Proc.devRef .tc main_v1) = val_main_v1 (F := F) x3 := by
  read_chunk
  rw [h3]
  rfl
/-- After the first chunk the column-index vector holds its stage. -/
theorem c1_v3 (W : Valuation τ sig (Elt F)) (x3 : (⟨S2x800000, .i32⟩ : BufTy).Contents (Elt F))
    (h3 : W (Proc.devRef .tc main_arg3) = x3) :
    StableHlo.after (ops_c1 (F := F)) W (Proc.devRef .tc main_v3) = val_main_v3 (F := F) x3 := by
  read_chunk
  rw [h3]
  rfl
/-- After the second chunk Δx of every edge holds its stage. -/
theorem c2_v18 (W : Valuation τ sig (Elt F)) (x1 : (⟨S50000x3, .f32⟩ : BufTy).Contents (Elt F)) (x3 : (⟨S2x800000, .i32⟩ : BufTy).Contents (Elt F))
    (hv1 : W (Proc.devRef .tc main_v1) = val_main_v1 (F := F) x3) (hv3 : W (Proc.devRef .tc main_v3) = val_main_v3 (F := F) x3) (h1 : W (Proc.devRef .tc main_arg1) = x1) :
    StableHlo.after (ops_c2 (F := F)) W (Proc.devRef .tc main_v18) = val_main_v18 (F := F) x1 x3 := by
  read_chunk
  rw [hv1, hv3, h1]
  rfl
/-- After the third chunk Δv of every edge holds its stage. -/
theorem c3_v33 (W : Valuation τ sig (Elt F)) (x2 : (⟨S50000x3, .f32⟩ : BufTy).Contents (Elt F)) (x3 : (⟨S2x800000, .i32⟩ : BufTy).Contents (Elt F))
    (hv1 : W (Proc.devRef .tc main_v1) = val_main_v1 (F := F) x3) (hv3 : W (Proc.devRef .tc main_v3) = val_main_v3 (F := F) x3) (h2 : W (Proc.devRef .tc main_arg2) = x2) :
    StableHlo.after (ops_c3 (F := F)) W (Proc.devRef .tc main_v33) = val_main_v33 (F := F) x2 x3 := by
  read_chunk
  rw [hv1, hv3, h2]
  rfl
set_option maxHeartbeats 4000000 in
/-- After the fourth chunk the radial features of every edge hold their stage. -/
theorem c4_v49 (W : Valuation τ sig (Elt F)) (x1 : (⟨S50000x3, .f32⟩ : BufTy).Contents (Elt F)) (x2 : (⟨S50000x3, .f32⟩ : BufTy).Contents (Elt F)) (x3 : (⟨S2x800000, .i32⟩ : BufTy).Contents (Elt F))
    (hv18 : W (Proc.devRef .tc main_v18) = val_main_v18 (F := F) x1 x3) (hv33 : W (Proc.devRef .tc main_v33) = val_main_v33 (F := F) x2 x3) :
    StableHlo.after (ops_c4 (F := F)) W (Proc.devRef .tc main_v49) = val_main_v49 (F := F) x1 x2 x3 := by
  read_chunk_rw
  rw [hv18, hv33]
  rfl
/-- After the fifth chunk the receiving endpoints' feature rows hold their stage. -/
theorem c5_v56 (W : Valuation τ sig (Elt F)) (x0 : (⟨S50000x64, .f32⟩ : BufTy).Contents (Elt F)) (x3 : (⟨S2x800000, .i32⟩ : BufTy).Contents (Elt F))
    (hv1 : W (Proc.devRef .tc main_v1) = val_main_v1 (F := F) x3) (h0 : W (Proc.devRef .tc main_arg0) = x0) :
    StableHlo.after (ops_c5 (F := F)) W (Proc.devRef .tc main_v56) = val_main_v56 (F := F) x0 x3 := by
  read_chunk
  rw [hv1, h0]
  rfl
/-- After the fifth chunk the sending endpoints' feature rows hold their stage. -/
theorem c5_v63 (W : Valuation τ sig (Elt F)) (x0 : (⟨S50000x64, .f32⟩ : BufTy).Contents (Elt F)) (x3 : (⟨S2x800000, .i32⟩ : BufTy).Contents (Elt F))
    (hv3 : W (Proc.devRef .tc main_v3) = val_main_v3 (F := F) x3) (h0 : W (Proc.devRef .tc main_arg0) = x0) :
    StableHlo.after (ops_c5 (F := F)) W (Proc.devRef .tc main_v63) = val_main_v63 (F := F) x0 x3 := by
  read_chunk
  rw [hv3, h0]
  rfl

end Cert.ReferenceIdeal.RefRun

end
-- ==== Proof.RefRunB.lean ====
/-
  The reference's host operations, chunks six to nine: the two-layer message of every edge; the gated, clipped shift of every
  edge; the per-node sums of the shifts over the clamped edge counts; the per-node sums of the messages through the node
  layers. Each chunk's result is the generated stage of the same name, given that the buffers the chunk reads hold theirs.
-/
import proofs.«425614_j2473901163257_4_alg».proof.Proof.RunP
import proofs.«425614_j2473901163257_4_alg».proof.Proof.ReadP
import proofs.«425614_j2473901163257_4_alg».proof.Proof.RefRunBase
import Idealize.ShloMosaic.Lib.StableHlo.Run

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- After the sixth chunk the message array holds its stage. -/
theorem c6_v74 (W : Valuation τ sig (Elt F)) (x0 : (⟨S50000x64, .f32⟩ : BufTy).Contents (Elt F)) (x1 : (⟨S50000x3, .f32⟩ : BufTy).Contents (Elt F)) (x2 : (⟨S50000x3, .f32⟩ : BufTy).Contents (Elt F)) (x3 : (⟨S2x800000, .i32⟩ : BufTy).Contents (Elt F)) (x4 : (⟨S131x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F))
    (hv56 : W (Proc.devRef .tc main_v56) = val_main_v56 (F := F) x0 x3) (hv63 : W (Proc.devRef .tc main_v63) = val_main_v63 (F := F) x0 x3) (hv49 : W (Proc.devRef .tc main_v49) = val_main_v49 (F := F) x1 x2 x3) (h4 : W (Proc.devRef .tc main_arg4) = x4) (h5 : W (Proc.devRef .tc main_arg5) = x5) (h6 : W (Proc.devRef .tc main_arg6) = x6) (h7 : W (Proc.devRef .tc main_arg7) = x7) :
    StableHlo.after (ops_c6 (F := F)) W (Proc.devRef .tc main_v74) = val_main_v74 (F := F) x0 x1 x2 x3 x4 x5 x6 x7 := by
  read_chunk
  have hv49' : W (Proc.devRef .tc (Matrix.vecHead (Matrix.vecTail ![main_v63, main_v49]))) = val_main_v49 (F := F) x1 x2 x3 := hv49
  rw [hv56, hv63, hv49', h4, h5, h6, h7]
  rfl
/-- After the seventh chunk the shift array holds its stage. -/
theorem c7_v83 (W : Valuation τ sig (Elt F)) (x0 : (⟨S50000x64, .f32⟩ : BufTy).Contents (Elt F)) (x1 : (⟨S50000x3, .f32⟩ : BufTy).Contents (Elt F)) (x2 : (⟨S50000x3, .f32⟩ : BufTy).Contents (Elt F)) (x3 : (⟨S2x800000, .i32⟩ : BufTy).Contents (Elt F)) (x4 : (⟨S131x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x12 : (⟨S64x64, .f32⟩ : BufTy).Contents (Elt F)) (x13 : (⟨S64, .f32⟩ : BufTy).Contents (Elt F)) (x14 : (⟨S64x1, .f32⟩ : BufTy).Contents (Elt F))
    (hv74 : W (Proc.devRef .tc main_v74) = val_main_v74 (F := F) x0 x1 x2 x3 x4 x5 x6 x7) (hv18 : W (Proc.devRef .tc main_v18) = val_main_v18 (F := F) x1 x3) (h12 : W (Proc.devRef .tc main_arg12) = x12) (h13 : W (Proc.devRef .tc main_arg13) = x13) (h14 : W (Proc.devRef .tc main_arg14) = x14) :
    StableHlo.after (ops_c7 (F := F)) W (Proc.devRef .tc main_v83) = val_main_v83 (F := F) x0 x1 x2 x3 x4 x5 x6 x7 x12 x13 x14 := by
  read_chunk
  rw [hv74, hv18, h12, h13, h14]
  rfl
/-- After the eighth chunk the coordinate update holds its stage. -/
theorem c8_v95 (W : Valuation τ sig (Elt F)) (x0 : (⟨S50000x64, .f32⟩ : BufTy).Contents (Elt F)) (x1 : (⟨S50000x3, .f32⟩ : BufTy).Contents (Elt F)) (x2 : (⟨S50000x3, .f32⟩ : BufTy).Contents (Elt F)) (x3 : (⟨S2x800000, .i32⟩ : BufTy).Contents (Elt F)) (x4 : (⟨S131x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x12 : (⟨S64x64, .f32⟩ : BufTy).Contents (Elt F)) (x13 : (⟨S64, .f32⟩ : BufTy).Contents (Elt F)) (x14 : (⟨S64x1, .f32⟩ : BufTy).Contents (Elt F))
    (hv83 : W (Proc.devRef .tc main_v83) = val_main_v83 (F := F) x0 x1 x2 x3 x4 x5 x6 x7 x12 x13 x14) (hv1 : W (Proc.devRef .tc main_v1) = val_main_v1 (F := F) x3) :
    StableHlo.after (ops_c8 (F := F)) W (Proc.devRef .tc main_v95) = val_main_v95 (F := F) x0 x1 x2 x3 x4 x5 x6 x7 x12 x13 x14 := by
  read_chunk
  rw [hv83, hv1]
  rfl
/-- After the ninth chunk the new node features hold their stage. -/
theorem c9_v108 (W : Valuation τ sig (Elt F)) (x0 : (⟨S50000x64, .f32⟩ : BufTy).Contents (Elt F)) (x1 : (⟨S50000x3, .f32⟩ : BufTy).Contents (Elt F)) (x2 : (⟨S50000x3, .f32⟩ : BufTy).Contents (Elt F)) (x3 : (⟨S2x800000, .i32⟩ : BufTy).Contents (Elt F)) (x4 : (⟨S131x64, .f32⟩ : BufTy).Contents (Elt F)) (x5 : (⟨S64, .f32⟩ : BufTy).Contents (Elt F)) (x6 : (⟨S64x64, .f32⟩ : BufTy).Contents (Elt F)) (x7 : (⟨S64, .f32⟩ : BufTy).Contents (Elt F)) (x8 : (⟨S128x64, .f32⟩ : BufTy).Contents (Elt F)) (x9 : (⟨S64, .f32⟩ : BufTy).Contents (Elt F)) (x10 : (⟨S64x64, .f32⟩ : BufTy).Contents (Elt F)) (x11 : (⟨S64, .f32⟩ : BufTy).Contents (Elt F))
    (hv74 : W (Proc.devRef .tc main_v74) = val_main_v74 (F := F) x0 x1 x2 x3 x4 x5 x6 x7) (hv1 : W (Proc.devRef .tc main_v1) = val_main_v1 (F := F) x3) (h0 : W (Proc.devRef .tc main_arg0) = x0) (h8 : W (Proc.devRef .tc main_arg8) = x8) (h9 : W (Proc.devRef .tc main_arg9) = x9) (h10 : W (Proc.devRef .tc main_arg10) = x10) (h11 : W (Proc.devRef .tc main_arg11) = x11) :
    StableHlo.after (ops_c9 (F := F)) W (Proc.devRef .tc main_v108) = val_main_v108 (F := F) x0 x1 x2 x3 x4 x5 x6 x7 x8 x9 x10 x11 := by
  read_chunk_rw
  rw [hv74, hv1, h0, h8, h9, h10, h11]
  rfl

end Cert.ReferenceIdeal.RefRun

end
-- ==== Proof.RefRun.lean ====
/-
  The reference program's run, read stage by stage. Its operation list is nine consecutive chunks; the contents after the
  whole list are the contents after the ninth chunk from those after the eighth, and so on. A buffer a chunk does not write
  keeps its contents, so each stage a later chunk needs is carried to it unchanged, and each chunk's result is the generated
  stage of the same name. The two results therefore end at the generated stages `val_main_v108` and `val_main_v95` of the
  argument arrays, and no operation writes an argument.
-/
import proofs.«425614_j2473901163257_4_alg».proof.Proof.RunP
import proofs.«425614_j2473901163257_4_alg».proof.Proof.ReadP
import proofs.«425614_j2473901163257_4_alg».proof.Proof.RefRunBase
import proofs.«425614_j2473901163257_4_alg».proof.Proof.RefRunA
import proofs.«425614_j2473901163257_4_alg».proof.Proof.RefRunB
import Idealize.ShloMosaic.Lib.StableHlo.Run

noncomputable section

namespace Cert.ReferenceIdeal.RefRun

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-- The contents after two lists run one after the other. -/
theorem after_app : ∀ (l₁ l₂ : List (HloOp τ sig (Elt F))) (V : Valuation τ sig (Elt F)),
    StableHlo.after (l₁ ++ l₂) V = StableHlo.after l₂ (StableHlo.after l₁ V)
  | [], _, _ => rfl
  | op :: l₁, l₂, V => by rw [List.cons_append, StableHlo.after_cons, StableHlo.after_cons, after_app l₁ l₂]

variable (V : Valuation τ sig (Elt F))

/-- The contents after the first k chunks. -/
abbrev w1 : Valuation τ sig (Elt F) := StableHlo.after (ops_c1 (F := F)) V
abbrev w2 : Valuation τ sig (Elt F) := StableHlo.after (ops_c2 (F := F)) (w1 V)
abbrev w3 : Valuation τ sig (Elt F) := StableHlo.after (ops_c3 (F := F)) (w2 V)
abbrev w4 : Valuation τ sig (Elt F) := StableHlo.after (ops_c4 (F := F)) (w3 V)
abbrev w5 : Valuation τ sig (Elt F) := StableHlo.after (ops_c5 (F := F)) (w4 V)
abbrev w6 : Valuation τ sig (Elt F) := StableHlo.after (ops_c6 (F := F)) (w5 V)
abbrev w7 : Valuation τ sig (Elt F) := StableHlo.after (ops_c7 (F := F)) (w6 V)
abbrev w8 : Valuation τ sig (Elt F) := StableHlo.after (ops_c8 (F := F)) (w7 V)
abbrev w9 : Valuation τ sig (Elt F) := StableHlo.after (ops_c9 (F := F)) (w8 V)

/-- The contents after the whole list are those after the ninth chunk. -/
theorem after_ops : StableHlo.after (ops (F := F)) V = w9 V := by
  rw [ops_eq_chunks]
  simp only [after_app]

theorem s_v1 : w1 V (Proc.devRef .tc main_v1) = val_main_v1 (F := F) (V (Proc.devRef .tc main_arg3)) := c1_v1 V _ rfl
theorem s_v3 : w1 V (Proc.devRef .tc main_v3) = val_main_v3 (F := F) (V (Proc.devRef .tc main_arg3)) := c1_v3 V _ rfl
theorem s_v18 : w2 V (Proc.devRef .tc main_v18) = val_main_v18 (F := F) (V (Proc.devRef .tc main_arg1)) (V (Proc.devRef .tc main_arg3)) :=
  c2_v18 (w1 V) _ _ (s_v1 V) (s_v3 V) (by walk_back; rfl)
theorem s_v33 : w3 V (Proc.devRef .tc main_v33) = val_main_v33 (F := F) (V (Proc.devRef .tc main_arg2)) (V (Proc.devRef .tc main_arg3)) :=
  c3_v33 (w2 V) _ _ (by walk_back; exact s_v1 V) (by walk_back; exact s_v3 V) (by walk_back; rfl)
theorem s_v49 : w4 V (Proc.devRef .tc main_v49) = val_main_v49 (F := F) (V (Proc.devRef .tc main_arg1)) (V (Proc.devRef .tc main_arg2)) (V (Proc.devRef .tc main_arg3)) :=
  c4_v49 (w3 V) _ _ _ (by walk_back; exact s_v18 V) (s_v33 V)
theorem s_v56 : w5 V (Proc.devRef .tc main_v56) = val_main_v56 (F := F) (V (Proc.devRef .tc main_arg0)) (V (Proc.devRef .tc main_arg3)) :=
  c5_v56 (w4 V) _ _ (by walk_back; exact s_v1 V) (by walk_back; rfl)
theorem s_v63 : w5 V (Proc.devRef .tc main_v63) = val_main_v63 (F := F) (V (Proc.devRef .tc main_arg0)) (V (Proc.devRef .tc main_arg3)) :=
  c5_v63 (w4 V) _ _ (by walk_back; exact s_v3 V) (by walk_back; rfl)
theorem s_v74 : w6 V (Proc.devRef .tc main_v74) = val_main_v74 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) :=
  c6_v74 (w5 V) _ _ _ _ _ _ _ _ (s_v56 V) (s_v63 V) (by walk_back; exact s_v49 V) (by walk_back; rfl) (by walk_back; rfl) (by walk_back; rfl) (by walk_back; rfl)
theorem s_v83 : w7 V (Proc.devRef .tc main_v83) = val_main_v83 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg12)) (V (Proc.devRef .tc main_arg13)) (V (Proc.devRef .tc main_arg14)) :=
  c7_v83 (w6 V) _ _ _ _ _ _ _ _ _ _ _ (s_v74 V) (by walk_back; exact s_v18 V) (by walk_back; rfl) (by walk_back; rfl) (by walk_back; rfl)
theorem s_v95 : w8 V (Proc.devRef .tc main_v95) = val_main_v95 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg12)) (V (Proc.devRef .tc main_arg13)) (V (Proc.devRef .tc main_arg14)) :=
  c8_v95 (w7 V) _ _ _ _ _ _ _ _ _ _ _ (s_v83 V) (by walk_back; exact s_v1 V)
set_option maxHeartbeats 4000000 in
theorem s_v108 : w9 V (Proc.devRef .tc main_v108) = val_main_v108 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) :=
  c9_v108 (w8 V) _ _ _ _ _ _ _ _ _ _ _ _ (by walk_back; exact s_v74 V) (by walk_back; exact s_v1 V) (by walk_back; rfl) (by walk_back; rfl) (by walk_back; rfl) (by walk_back; rfl) (by walk_back; rfl)

/-- After the whole list the new node features are at their generated stage of the argument arrays. -/
theorem v108_val : StableHlo.after (ops (F := F)) V (Proc.devRef .tc main_v108) = val_main_v108 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) := by
  rw [after_ops]; exact s_v108 V
/-- After the whole list the coordinate update is at its generated stage of the argument arrays. -/
theorem v95_val : StableHlo.after (ops (F := F)) V (Proc.devRef .tc main_v95) = val_main_v95 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg12)) (V (Proc.devRef .tc main_arg13)) (V (Proc.devRef .tc main_arg14)) := by
  rw [after_ops]; walk_back; exact s_v95 V

set_option maxHeartbeats 20000000 in
/-- On every device, for any float values, from any memory with zero counters: every weakly fair execution of @main
    terminates with the two results at their generated stages of the launched argument arrays and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v108) = val_main_v108 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_v95) = val_main_v95 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun _ h c => ⟨(h c main_v108).trans (v108_val (launchContents m c)),
      (h c main_v95).trans (v95_val (launchContents m c)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl),
      (h c main_arg12).trans (by after_results_simp <;> rfl),
      (h c main_arg13).trans (by after_results_simp <;> rfl),
      (h c main_arg14).trans (by after_results_simp <;> rfl)⟩)
    (run_seq scopedRefs_eq scopedSems_eq defs main (fun _ => ops) main_eq (fun _ => ops_sub) m ρ)

end Cert.ReferenceIdeal.RefRun

end
-- ==== Proof.Spec.lean ====
/-
  The mathematics of one message-passing layer, row by row, over the extended reals.

  An EDGE e with endpoints (row, col) sees the two endpoint feature rows hr, hc (64 numbers each), the position rows cr, cc and the
  velocity rows vr, vc (3 numbers each). From Δx = cr − cc and Δv = vr − vc it forms three radial features
  (|Δx|, |Δv|, Σ (Δx/|Δx|)·(Δv/|Δv|)), feeds [hr, hc, radial] (131 numbers) through two dense layers with max(·,0) after each
  (the message m, 64 numbers), and from m a scalar gate s = max(m·C₁ + c₁, 0)·c that scales Δx, clipped to [lo, hi] (the shift t).
  A NODE n sees its own feature row h, the sum of its edges' messages agg, the sum of its edges' shifts seg and its edge count cnt;
  its new features are a dense layer on [h, agg] (128 numbers) with max(·,0), then a second dense layer; its coordinate update is
  seg / max(cnt, 1) · 1.

  The first dense layer of each stage is written twice: JOINED (one sum over the joined 131, or 128, inputs against the whole
  weight matrix) and SPLIT (one sum per piece against the matching rows of the weight matrix, the partial sums added). The two
  are the same number: a finite sum over a range cut in pieces is the sum of the pieces' sums, which needs only that addition
  of extended reals is associative and commutative (no finiteness).
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-! ## Rows, matrices and vectors of an array -/

/-- Row `r` of a rank-2 array. -/
def row {a b : Nat} (x : FVec Ideal (⟨2, ![a, b]⟩ : Shape) .f32) (r : Fin a) : Fin b → EReal := fun k => x (ix2 r k)
/-- A rank-2 array as a matrix. -/
def mat {a b : Nat} (x : FVec Ideal (⟨2, ![a, b]⟩ : Shape) .f32) : Fin a → Fin b → EReal := fun k j => x (ix2 k j)
/-- A rank-1 array as a vector. -/
def vec {n : Nat} (x : FVec Ideal (⟨1, ![n]⟩ : Shape) .f32) : Fin n → EReal := fun k => x (ix1 k)
/-- An [n, 1] array as a vector. -/
def col {n : Nat} (x : FVec Ideal (⟨2, ![n, 1]⟩ : Shape) .f32) : Fin n → EReal := fun k => x (ix2 k (0 : Fin 1))

/-! ## The scalar pieces -/

/-- max(x, 0). -/
def relu (x : EReal) : EReal := max x 0
/-- The clip bounds −100 and 100, as the programs carry them. -/
def lo : EReal := Ideal.ofBits .f32 0xC2C80000#32
def hi : EReal := Ideal.ofBits .f32 0x42C80000#32
/-- The literal 1.0. -/
def one : EReal := Ideal.ofBits .f32 0x3F800000#32

/-- Euclidean length of a 3-vector. -/
def len3 (d : Fin 3 → EReal) : EReal := Ideal.sqrt (∑ k, d k * d k)

/-- The three radial features of an edge from Δx and Δv. -/
def radial (dx dv : Fin 3 → EReal) : Fin 3 → EReal := fun a =>
  match a with
  | ⟨0, _⟩ => len3 dx
  | ⟨1, _⟩ => len3 dv
  | ⟨2, _⟩ => ∑ k, Ideal.div (dx k) (len3 dx) * Ideal.div (dv k) (len3 dv)

/-- A dense layer x·W + b at output j. -/
def lin {n o : Nat} (x : Fin n → EReal) (w : Fin n → Fin o → EReal) (b : Fin o → EReal) (j : Fin o) : EReal :=
  (∑ k, x k * w k j) + b j

/-! ## The edge stage -/

/-- [hr, hc, rad] joined: 64 + 64 + 3 inputs. -/
def join131 (hr hc : Fin 64 → EReal) (rad : Fin 3 → EReal) (k : Fin 131) : EReal :=
  if h : k.val < 64 then hr ⟨k.val, h⟩
  else if h2 : k.val < 128 then hc ⟨k.val - 64, by omega⟩
  else rad ⟨k.val - 128, by have := k.isLt; omega⟩

/-- The first edge layer before its max(·,0), JOINED form. -/
def epreR (hr hc : Fin 64 → EReal) (rad : Fin 3 → EReal) (w : Fin 131 → Fin 64 → EReal) (b : Fin 64 → EReal) (j : Fin 64) : EReal :=
  (∑ k : Fin 131, join131 hr hc rad k * w k j) + b j

/-- The first edge layer before its max(·,0), SPLIT form: three partial products, added left to right, then the bias. -/
def epreK (hr hc : Fin 64 → EReal) (rad : Fin 3 → EReal) (wr wc : Fin 64 → Fin 64 → EReal) (wrad : Fin 3 → Fin 64 → EReal)
    (b : Fin 64 → EReal) (j : Fin 64) : EReal :=
  (((∑ k, hr k * wr k j) + (∑ k, hc k * wc k j)) + (∑ k, rad k * wrad k j)) + b j

/-- The message from the first layer's pre-activation p: max(max(p,0)·W₂ + b₂, 0). -/
def msg (p : Fin 64 → EReal) (w2 : Fin 64 → Fin 64 → EReal) (b2 : Fin 64 → EReal) (j : Fin 64) : EReal :=
  relu (lin (fun k => relu (p k)) w2 b2 j)

/-- The gate from the message: max(m·C₁ + c₁, 0)·c. -/
def gate (m : Fin 64 → EReal) (cw1 : Fin 64 → Fin 64 → EReal) (cb1 : Fin 64 → EReal) (cw : Fin 64 → EReal) : EReal :=
  ∑ k, relu (lin m cw1 cb1 k) * cw k

/-- The shift: Δx scaled by the gate, clipped. -/
def shift (dx : Fin 3 → EReal) (s : EReal) (a : Fin 3) : EReal := min hi (max lo (dx a * s))

/-- Δ of two rows. -/
def diff3 (p q : Fin 3 → EReal) : Fin 3 → EReal := fun k => p k - q k

/-- The message of an edge, JOINED form. -/
def edgeMR (hr hc : Fin 64 → EReal) (cr cc vr vc : Fin 3 → EReal) (w1 : Fin 131 → Fin 64 → EReal) (b1 : Fin 64 → EReal)
    (w2 : Fin 64 → Fin 64 → EReal) (b2 : Fin 64 → EReal) : Fin 64 → EReal :=
  msg (epreR hr hc (radial (diff3 cr cc) (diff3 vr vc)) w1 b1) w2 b2
/-- The message of an edge, SPLIT form. -/
def edgeMK (hr hc : Fin 64 → EReal) (cr cc vr vc : Fin 3 → EReal) (wr wc : Fin 64 → Fin 64 → EReal) (wrad : Fin 3 → Fin 64 → EReal)
    (b1 : Fin 64 → EReal) (w2 : Fin 64 → Fin 64 → EReal) (b2 : Fin 64 → EReal) : Fin 64 → EReal :=
  msg (epreK hr hc (radial (diff3 cr cc) (diff3 vr vc)) wr wc wrad b1) w2 b2
/-- The shift of an edge from its message. -/
def edgeT (m : Fin 64 → EReal) (cr cc : Fin 3 → EReal) (cw1 : Fin 64 → Fin 64 → EReal) (cb1 : Fin 64 → EReal) (cw : Fin 64 → EReal) :
    Fin 3 → EReal :=
  shift (diff3 cr cc) (gate m cw1 cb1 cw)

/-! ## The node stage -/

/-- [h, agg] joined: 64 + 64 inputs. -/
def join128 (h agg : Fin 64 → EReal) (k : Fin 128) : EReal :=
  if hk : k.val < 64 then h ⟨k.val, hk⟩ else agg ⟨k.val - 64, by have := k.isLt; omega⟩

/-- The first node layer before its max(·,0), JOINED form. -/
def npreR (h agg : Fin 64 → EReal) (w : Fin 128 → Fin 64 → EReal) (b : Fin 64 → EReal) (j : Fin 64) : EReal :=
  (∑ k : Fin 128, join128 h agg k * w k j) + b j
/-- The first node layer before its max(·,0), SPLIT form. -/
def npreK (h agg : Fin 64 → EReal) (wh wa : Fin 64 → Fin 64 → EReal) (b : Fin 64 → EReal) (j : Fin 64) : EReal :=
  ((∑ k, h k * wh k j) + (∑ k, agg k * wa k j)) + b j

/-- The node's new features from the first layer's pre-activation. -/
def nodeH (p : Fin 64 → EReal) (w2 : Fin 64 → Fin 64 → EReal) (b2 : Fin 64 → EReal) (j : Fin 64) : EReal :=
  lin (fun k => relu (p k)) w2 b2 j

/-- The node's coordinate update: seg / max(cnt, 1) · 1. -/
def nodeC (seg : Fin 3 → EReal) (cnt : EReal) (a : Fin 3) : EReal := Ideal.div (seg a) (max cnt one) * one

/-! ## Joined = split -/

/-- A sum over 64 + 67 terms is the sum over the first 64 plus the sum over the last 67. -/
theorem sum131 (f : Fin 131 → EReal) :
    ∑ k : Fin 131, f k = (∑ k : Fin 64, f ⟨k.val, by omega⟩) + ((∑ k : Fin 64, f ⟨k.val + 64, by omega⟩) + ∑ k : Fin 3, f ⟨k.val + 128, by omega⟩) := by
  have h1 := Fin.sum_univ_add (M := EReal) (a := 64) (b := 67) (fun i => f ⟨i.val, i.isLt⟩)
  have h2 := Fin.sum_univ_add (M := EReal) (a := 64) (b := 3) (fun i : Fin (64 + 3) => f ⟨i.val + 64, by have := i.isLt; omega⟩)
  have e0 : ∑ k : Fin 131, f k = ∑ i : Fin (64 + 67), f ⟨i.val, i.isLt⟩ := rfl
  rw [e0, h1]
  refine congrArg₂ (· + ·) (Finset.sum_congr rfl fun k _ => congrArg f (Fin.ext rfl)) ?_
  have e1 : (∑ i : Fin 67, f ⟨(Fin.natAdd 64 i).val, (Fin.natAdd 64 i).isLt⟩) = ∑ i : Fin (64 + 3), f ⟨i.val + 64, by have := i.isLt; omega⟩ :=
    Finset.sum_congr rfl fun i _ => congrArg f (Fin.ext (by simp [Fin.natAdd]; omega))
  rw [e1, h2]
  refine congrArg₂ (· + ·) (Finset.sum_congr rfl fun k _ => congrArg f (Fin.ext (by simp))) (Finset.sum_congr rfl fun k _ => congrArg f (Fin.ext (by simp [Fin.natAdd]; omega)))

/-- A sum over 64 + 64 terms is the sum over the first 64 plus the sum over the last 64. -/
theorem sum128 (f : Fin 128 → EReal) :
    ∑ k : Fin 128, f k = (∑ k : Fin 64, f ⟨k.val, by omega⟩) + ∑ k : Fin 64, f ⟨k.val + 64, by omega⟩ := by
  have h1 := Fin.sum_univ_add (M := EReal) (a := 64) (b := 64) (fun i => f ⟨i.val, i.isLt⟩)
  have e0 : ∑ k : Fin 128, f k = ∑ i : Fin (64 + 64), f ⟨i.val, i.isLt⟩ := rfl
  rw [e0, h1]
  refine congrArg₂ (· + ·) (Finset.sum_congr rfl fun k _ => congrArg f (Fin.ext rfl)) (Finset.sum_congr rfl fun k _ => congrArg f (Fin.ext (by simp [Fin.natAdd]; omega)))

/-- The joined first edge layer is the split one over the matching rows of the weight matrix. -/
theorem epreR_eq_epreK (hr hc : Fin 64 → EReal) (rad : Fin 3 → EReal) (w : Fin 131 → Fin 64 → EReal) (b : Fin 64 → EReal)
    (wr wc : Fin 64 → Fin 64 → EReal) (wrad : Fin 3 → Fin 64 → EReal)
    (hwr : ∀ k j, wr k j = w ⟨k.val, by omega⟩ j) (hwc : ∀ k j, wc k j = w ⟨k.val + 64, by omega⟩ j)
    (hwrad : ∀ k j, wrad k j = w ⟨k.val + 128, by omega⟩ j) :
    epreK hr hc rad wr wc wrad b = epreR hr hc rad w b := by
  funext j
  unfold epreK epreR
  rw [sum131, ← add_assoc]
  refine congrArg (· + b j) (congrArg₂ (· + ·) (congrArg₂ (· + ·) ?_ ?_) ?_)
  · refine Finset.sum_congr rfl fun k _ => ?_
    rw [hwr]; unfold join131; rw [dif_pos (show (⟨k.val, by omega⟩ : Fin 131).val < 64 from k.isLt)]
  · refine Finset.sum_congr rfl fun k _ => ?_
    rw [hwc]; unfold join131
    rw [dif_neg (show ¬ (⟨k.val + 64, by omega⟩ : Fin 131).val < 64 by show ¬ k.val + 64 < 64; omega),
      dif_pos (show (⟨k.val + 64, by omega⟩ : Fin 131).val < 128 by show k.val + 64 < 128; omega)]
    exact congrArg (fun t => hc t * _) (Fin.ext (by show k.val + 64 - 64 = k.val; omega))
  · refine Finset.sum_congr rfl fun k _ => ?_
    rw [hwrad]; unfold join131
    rw [dif_neg (show ¬ (⟨k.val + 128, by omega⟩ : Fin 131).val < 64 by show ¬ k.val + 128 < 64; omega),
      dif_neg (show ¬ (⟨k.val + 128, by omega⟩ : Fin 131).val < 128 by show ¬ k.val + 128 < 128; omega)]
    exact congrArg (fun t => rad t * _) (Fin.ext (by show k.val + 128 - 128 = k.val; omega))

/-- The joined first node layer is the split one over the matching rows of the weight matrix. -/
theorem npreR_eq_npreK (h agg : Fin 64 → EReal) (w : Fin 128 → Fin 64 → EReal) (b : Fin 64 → EReal)
    (wh wa : Fin 64 → Fin 64 → EReal)
    (hwh : ∀ k j, wh k j = w ⟨k.val, by omega⟩ j) (hwa : ∀ k j, wa k j = w ⟨k.val + 64, by omega⟩ j) :
    npreK h agg wh wa b = npreR h agg w b := by
  funext j
  unfold npreK npreR
  rw [sum128]
  refine congrArg (· + b j) (congrArg₂ (· + ·) ?_ ?_)
  · refine Finset.sum_congr rfl fun k _ => ?_
    rw [hwh]; unfold join128; rw [dif_pos (show (⟨k.val, by omega⟩ : Fin 128).val < 64 from k.isLt)]
  · refine Finset.sum_congr rfl fun k _ => ?_
    rw [hwa]; unfold join128
    rw [dif_neg (show ¬ (⟨k.val + 64, by omega⟩ : Fin 128).val < 64 by show ¬ k.val + 64 < 64; omega)]
    exact congrArg (fun t => agg t * _) (Fin.ext (by show k.val + 64 - 64 = k.val; omega))

/-! ## Whole arrays: every row by the row functions above -/

/-- A rank-2 array of extended reals. -/
abbrev A (a b : Nat) := FVec Ideal (⟨2, ![a, b]⟩ : Shape) .f32
/-- A rank-1 array of extended reals. -/
abbrev V1 (n : Nat) := FVec Ideal (⟨1, ![n]⟩ : Shape) .f32

/-- Every edge's message, JOINED form, from the gathered endpoint rows. -/
def EdgeMR (hr hc : A 800000 64) (cr cc vr vc : A 800000 3) (w1 : A 131 64) (b1 : V1 64) (w2 : A 64 64) (b2 : V1 64) : A 800000 64 :=
  fun i => edgeMR (row hr (i 0)) (row hc (i 0)) (row cr (i 0)) (row cc (i 0)) (row vr (i 0)) (row vc (i 0)) (mat w1) (vec b1) (mat w2) (vec b2) (i 1)
/-- Every edge's message, SPLIT form. -/
def EdgeMK (hr hc : A 800000 64) (cr cc vr vc : A 800000 3) (wr wc : A 64 64) (wrad : A 3 64) (b1 : V1 64) (w2 : A 64 64) (b2 : V1 64) : A 800000 64 :=
  fun i => edgeMK (row hr (i 0)) (row hc (i 0)) (row cr (i 0)) (row cc (i 0)) (row vr (i 0)) (row vc (i 0)) (mat wr) (mat wc) (mat wrad) (vec b1) (mat w2) (vec b2) (i 1)
/-- Every edge's shift from the messages. -/
def EdgeT (m : A 800000 64) (cr cc : A 800000 3) (cw1 : A 64 64) (cb1 : V1 64) (cw : A 64 1) : A 800000 3 :=
  fun i => edgeT (row m (i 0)) (row cr (i 0)) (row cc (i 0)) (mat cw1) (vec cb1) (col cw) (i 1)
/-- Every node's new features, JOINED form, from its own row and its summed messages. -/
def NodeHR (h agg : A 50000 64) (w1 : A 128 64) (b1 : V1 64) (w2 : A 64 64) (b2 : V1 64) : A 50000 64 :=
  fun i => nodeH (npreR (row h (i 0)) (row agg (i 0)) (mat w1) (vec b1)) (mat w2) (vec b2) (i 1)
/-- Every node's new features, SPLIT form. -/
def NodeHK (h agg : A 50000 64) (wh wa : A 64 64) (b1 : V1 64) (w2 : A 64 64) (b2 : V1 64) : A 50000 64 :=
  fun i => nodeH (npreK (row h (i 0)) (row agg (i 0)) (mat wh) (mat wa) (vec b1)) (mat w2) (vec b2) (i 1)
/-- Every node's coordinate update from its summed shifts and its edge count. -/
def NodeC (seg : A 50000 3) (cnt : A 50000 1) : A 50000 3 :=
  fun i => nodeC (row seg (i 0)) (cnt (ix2 (i 0) (0 : Fin 1))) (i 1)

/-- The split messages over the three row ranges of the joined weight matrix are the joined messages. -/
theorem EdgeMK_eq_EdgeMR (hr hc : A 800000 64) (cr cc vr vc : A 800000 3) (w1 : A 131 64) (b1 : V1 64) (w2 : A 64 64) (b2 : V1 64)
    (wr wc : A 64 64) (wrad : A 3 64)
    (hwr : ∀ (k : Fin 64) (j : Fin 64), wr (ix2 k j) = w1 (ix2 (⟨k.val, by omega⟩ : Fin 131) j))
    (hwc : ∀ (k : Fin 64) (j : Fin 64), wc (ix2 k j) = w1 (ix2 (⟨k.val + 64, by omega⟩ : Fin 131) j))
    (hwrad : ∀ (k : Fin 3) (j : Fin 64), wrad (ix2 k j) = w1 (ix2 (⟨k.val + 128, by omega⟩ : Fin 131) j)) :
    EdgeMK hr hc cr cc vr vc wr wc wrad b1 w2 b2 = EdgeMR hr hc cr cc vr vc w1 b1 w2 b2 := by
  funext i
  unfold EdgeMK EdgeMR edgeMK edgeMR
  rw [epreR_eq_epreK _ _ _ (mat w1) (vec b1) (mat wr) (mat wc) (mat wrad) (fun k j => hwr k j) (fun k j => hwc k j) (fun k j => hwrad k j)]

/-- The split node features over the two row ranges of the joined weight matrix are the joined ones. -/
theorem NodeHK_eq_NodeHR (h agg : A 50000 64) (w1 : A 128 64) (b1 : V1 64) (w2 : A 64 64) (b2 : V1 64) (wh wa : A 64 64)
    (hwh : ∀ (k : Fin 64) (j : Fin 64), wh (ix2 k j) = w1 (ix2 (⟨k.val, by omega⟩ : Fin 128) j))
    (hwa : ∀ (k : Fin 64) (j : Fin 64), wa (ix2 k j) = w1 (ix2 (⟨k.val + 64, by omega⟩ : Fin 128) j)) :
    NodeHK h agg wh wa b1 w2 b2 = NodeHR h agg w1 b1 w2 b2 := by
  funext i
  unfold NodeHK NodeHR
  rw [npreR_eq_npreK _ _ (mat w1) (vec b1) (mat wh) (mat wa) (fun k j => hwh k j) (fun k j => hwa k j)]

end Cert.Spec

end
-- ==== Proof.EdgeBlockOps.lean ====
/-
  The operations of the edge stage read at one entry, over variable blocks of the literal block shapes:
  a product of a [2000, K] block with a [K, N] block into a zero accumulator is the sum over the K inner
  positions of the products of the row's and the column's entries; the sum along the 3 lanes of a
  [2000, 3] block is the sum of the row's three entries; a [2000] vector viewed as a [2000, 1] column,
  a column spread over 3 lanes, a 64-vector viewed as a [1, 64] row and spread over 2000 rows, and three
  columns laid side by side each read the one entry they were made from.
-/
import proofs.«425614_j2473901163257_4_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.EdgeBlockOps

open Cert.KernelIdeal Cert.KernelIdeal.Gen Idealize.ShloMosaic Idealize.ShloMosaic.ValueIdx

/-! ## The three products -/

/-! ### [2000, 64] times [64, 64] -/

/-- The left operand's row coordinate is the output's row. -/
theorem lhsA_0 (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- The left operand's column coordinate is the inner position. -/
theorem lhsA_1 (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- The right operand's row coordinate is the inner position. -/
theorem rhsA_0 (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- The right operand's column coordinate is the output's column. -/
theorem rhsA_1 (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- Entry (r, j) of a [2000, 64] block times a [64, 64] block, into zero: the sum over the 64 inner positions. -/
theorem mmA_apply (l : FVec Ideal S2000x64 .f32) (w : FVec Ideal S64x64 .f32) (r : Fin 2000) (j : Fin 64) :
    matmul dot_S2000x64_S64x64_S2000x64_1_0_0_1_n_n none l w (constant (F := Ideal) S2000x64 .f32 0x00000000#32) (ix2 r j)
      = ∑ k : Fin 64, l (ix2 r k) * w (ix2 k j) := by
  simp only [matmul]
  rw [Ideal.matmul_constant_zero_apply, ← Equiv.sum_comp (ValueIdx.contrEquiv1 dot_S2000x64_S64x64_S2000x64_1_0_0_1_n_n 64 rfl rfl).symm]
  refine Finset.sum_congr rfl fun k _ => ?_
  have hk := ValueIdx.contrEquiv1_symm_val dot_S2000x64_S64x64_S2000x64_1_0_0_1_n_n 64 rfl rfl k
  have el : dot_S2000x64_S64x64_S2000x64_1_0_0_1_n_n.lhsIdx (ix2 r j) ((ValueIdx.contrEquiv1 dot_S2000x64_S64x64_S2000x64_1_0_0_1_n_n 64 rfl rfl).symm k) = ix2 r k := funext fun a => Fin.ext (by
    match a with
    | ⟨0, _⟩ => exact lhsA_0 _ _
    | ⟨1, _⟩ => exact (lhsA_1 _ _).trans hk)
  have er : dot_S2000x64_S64x64_S2000x64_1_0_0_1_n_n.rhsIdx (ix2 r j) ((ValueIdx.contrEquiv1 dot_S2000x64_S64x64_S2000x64_1_0_0_1_n_n 64 rfl rfl).symm k) = ix2 k j := funext fun a => Fin.ext (by
    match a with
    | ⟨0, _⟩ => exact (rhsA_0 _ _).trans hk
    | ⟨1, _⟩ => exact rhsA_1 _ _)
  rw [el, er]

/-! ### [2000, 3] times [3, 64] -/

/-- The left operand's row coordinate is the output's row. -/
theorem lhsB_0 (i : S2000x64.Idx) (q : dot_S2000x3_S3x64_S2000x64_1_0_0_1_n_n.contr.Idx) :
    (dot_S2000x3_S3x64_S2000x64_1_0_0_1_n_n.lhsIdx i q 0).val = (i 0).val := by
  unfold DotDims.lhsIdx
  rw [dif_neg (show ¬(0 : Fin S2000x3.rank) ∈ dot_S2000x3_S3x64_S2000x64_1_0_0_1_n_n.lhsBatch by decide), dif_pos (show (0 : Fin S2000x3.rank) ∈ dot_S2000x3_S3x64_S2000x64_1_0_0_1_n_n.lhsNonContracting by decide)]
  rfl
/-- The left operand's column coordinate is the inner position. -/
theorem lhsB_1 (i : S2000x64.Idx) (q : dot_S2000x3_S3x64_S2000x64_1_0_0_1_n_n.contr.Idx) :
    (dot_S2000x3_S3x64_S2000x64_1_0_0_1_n_n.lhsIdx i q 1).val = (q ⟨0, by decide⟩).val :=
  dot_S2000x3_S3x64_S2000x64_1_0_0_1_n_n.lhsIdx_val_of_single rfl i q
/-- The right operand's row coordinate is the inner position. -/
theorem rhsB_0 (i : S2000x64.Idx) (q : dot_S2000x3_S3x64_S2000x64_1_0_0_1_n_n.contr.Idx) :
    (dot_S2000x3_S3x64_S2000x64_1_0_0_1_n_n.rhsIdx i q 0).val = (q ⟨0, by decide⟩).val :=
  dot_S2000x3_S3x64_S2000x64_1_0_0_1_n_n.rhsIdx_val_of_single rfl i q
/-- The right operand's column coordinate is the output's column. -/
theorem rhsB_1 (i : S2000x64.Idx) (q : dot_S2000x3_S3x64_S2000x64_1_0_0_1_n_n.contr.Idx) :
    (dot_S2000x3_S3x64_S2000x64_1_0_0_1_n_n.rhsIdx i q 1).val = (i 1).val := by
  unfold DotDims.rhsIdx
  rw [dif_neg (show ¬(1 : Fin S3x64.rank) ∈ dot_S2000x3_S3x64_S2000x64_1_0_0_1_n_n.rhsBatch by decide), dif_pos (show (1 : Fin S3x64.rank) ∈ dot_S2000x3_S3x64_S2000x64_1_0_0_1_n_n.rhsNonContracting by decide)]
  rfl

/-- Entry (r, j) of a [2000, 3] block times a [3, 64] block, into zero: the sum over the 3 inner positions. -/
theorem mmB_apply (l : FVec Ideal S2000x3 .f32) (w : FVec Ideal S3x64 .f32) (r : Fin 2000) (j : Fin 64) :
    matmul dot_S2000x3_S3x64_S2000x64_1_0_0_1_n_n none l w (constant (F := Ideal) S2000x64 .f32 0x00000000#32) (ix2 r j)
      = ∑ k : Fin 3, l (ix2 r k) * w (ix2 k j) := by
  simp only [matmul]
  rw [Ideal.matmul_constant_zero_apply, ← Equiv.sum_comp (ValueIdx.contrEquiv1 dot_S2000x3_S3x64_S2000x64_1_0_0_1_n_n 3 rfl rfl).symm]
  refine Finset.sum_congr rfl fun k _ => ?_
  have hk := ValueIdx.contrEquiv1_symm_val dot_S2000x3_S3x64_S2000x64_1_0_0_1_n_n 3 rfl rfl k
  have el : dot_S2000x3_S3x64_S2000x64_1_0_0_1_n_n.lhsIdx (ix2 r j) ((ValueIdx.contrEquiv1 dot_S2000x3_S3x64_S2000x64_1_0_0_1_n_n 3 rfl rfl).symm k) = ix2 r k := funext fun a => Fin.ext (by
    match a with
    | ⟨0, _⟩ => exact lhsB_0 _ _
    | ⟨1, _⟩ => exact (lhsB_1 _ _).trans hk)
  have er : dot_S2000x3_S3x64_S2000x64_1_0_0_1_n_n.rhsIdx (ix2 r j) ((ValueIdx.contrEquiv1 dot_S2000x3_S3x64_S2000x64_1_0_0_1_n_n 3 rfl rfl).symm k) = ix2 k j := funext fun a => Fin.ext (by
    match a with
    | ⟨0, _⟩ => exact (rhsB_0 _ _).trans hk
    | ⟨1, _⟩ => exact rhsB_1 _ _)
  rw [el, er]

/-! ### [2000, 64] times [64, 1] -/

/-- The left operand's row coordinate is the output's row. -/
theorem lhsC_0 (i : S2000x1.Idx) (q : dot_S2000x64_S64x1_S2000x1_1_0_0_1_n_n.contr.Idx) :
    (dot_S2000x64_S64x1_S2000x1_1_0_0_1_n_n.lhsIdx i q 0).val = (i 0).val := by
  unfold DotDims.lhsIdx
  rw [dif_neg (show ¬(0 : Fin S2000x64.rank) ∈ dot_S2000x64_S64x1_S2000x1_1_0_0_1_n_n.lhsBatch by decide), dif_pos (show (0 : Fin S2000x64.rank) ∈ dot_S2000x64_S64x1_S2000x1_1_0_0_1_n_n.lhsNonContracting by decide)]
  rfl
/-- The left operand's column coordinate is the inner position. -/
theorem lhsC_1 (i : S2000x1.Idx) (q : dot_S2000x64_S64x1_S2000x1_1_0_0_1_n_n.contr.Idx) :
    (dot_S2000x64_S64x1_S2000x1_1_0_0_1_n_n.lhsIdx i q 1).val = (q ⟨0, by decide⟩).val :=
  dot_S2000x64_S64x1_S2000x1_1_0_0_1_n_n.lhsIdx_val_of_single rfl i q
/-- The right operand's row coordinate is the inner position. -/
theorem rhsC_0 (i : S2000x1.Idx) (q : dot_S2000x64_S64x1_S2000x1_1_0_0_1_n_n.contr.Idx) :
    (dot_S2000x64_S64x1_S2000x1_1_0_0_1_n_n.rhsIdx i q 0).val = (q ⟨0, by decide⟩).val :=
  dot_S2000x64_S64x1_S2000x1_1_0_0_1_n_n.rhsIdx_val_of_single rfl i q
/-- The right operand's column coordinate is the output's column. -/
theorem rhsC_1 (i : S2000x1.Idx) (q : dot_S2000x64_S64x1_S2000x1_1_0_0_1_n_n.contr.Idx) :
    (dot_S2000x64_S64x1_S2000x1_1_0_0_1_n_n.rhsIdx i q 1).val = (i 1).val := by
  unfold DotDims.rhsIdx
  rw [dif_neg (show ¬(1 : Fin S64x1.rank) ∈ dot_S2000x64_S64x1_S2000x1_1_0_0_1_n_n.rhsBatch by decide), dif_pos (show (1 : Fin S64x1.rank) ∈ dot_S2000x64_S64x1_S2000x1_1_0_0_1_n_n.rhsNonContracting by decide)]
  rfl

/-- Entry (r, u) of a [2000, 64] block times a [64, 1] column, into zero: the sum over the 64 inner positions. -/
theorem mmC_apply (l : FVec Ideal S2000x64 .f32) (w : FVec Ideal S64x1 .f32) (r : Fin 2000) (u : Fin 1) :
    matmul dot_S2000x64_S64x1_S2000x1_1_0_0_1_n_n none l w (constant (F := Ideal) S2000x1 .f32 0x00000000#32) (ix2 r u)
      = ∑ k : Fin 64, l (ix2 r k) * w (ix2 k u) := by
  simp only [matmul]
  rw [Ideal.matmul_constant_zero_apply, ← Equiv.sum_comp (ValueIdx.contrEquiv1 dot_S2000x64_S64x1_S2000x1_1_0_0_1_n_n 64 rfl rfl).symm]
  refine Finset.sum_congr rfl fun k _ => ?_
  have hk := ValueIdx.contrEquiv1_symm_val dot_S2000x64_S64x1_S2000x1_1_0_0_1_n_n 64 rfl rfl k
  have el : dot_S2000x64_S64x1_S2000x1_1_0_0_1_n_n.lhsIdx (ix2 r u) ((ValueIdx.contrEquiv1 dot_S2000x64_S64x1_S2000x1_1_0_0_1_n_n 64 rfl rfl).symm k) = ix2 r k := funext fun a => Fin.ext (by
    match a with
    | ⟨0, _⟩ => exact lhsC_0 _ _
    | ⟨1, _⟩ => exact (lhsC_1 _ _).trans hk)
  have er : dot_S2000x64_S64x1_S2000x1_1_0_0_1_n_n.rhsIdx (ix2 r u) ((ValueIdx.contrEquiv1 dot_S2000x64_S64x1_S2000x1_1_0_0_1_n_n 64 rfl rfl).symm k) = ix2 k u := funext fun a => Fin.ext (by
    match a with
    | ⟨0, _⟩ => exact (rhsC_0 _ _).trans hk
    | ⟨1, _⟩ => exact rhsC_1 _ _)
  rw [el, er]

/-! ## The sum along the three lanes -/

/-- The lane sum of a [2000, 3] block at row r is the sum of the row's three entries. -/
theorem laneSum_apply (v : FVec Ideal S2000x3 .f32) (h : S2000x3.Reduces [1] S2000) (hφ : FKind.Formats .f32)
    (hacc : (0x00000000#32 : BitVec 32) = 0x00000000#32) (r : Fin 2000) :
    multiReduction (F := Ideal) .add [1] S2000 v 0x00000000#32 h hφ hacc (ix1 r) = ∑ k : Fin 3, v (ix2 r k) := by
  refine (Ideal.multiReduction_add_single v 0x00000000#32 h hφ hacc (ix1 r)).trans ?_
  refine Finset.sum_congr rfl fun k _ => congrArg v (funext fun a => Fin.ext ?_)
  rw [h.lift_val]
  match a with
  | ⟨0, _⟩ => rfl
  | ⟨1, _⟩ => rfl

/-! ## Columns and rows -/

/-- A [2000] vector viewed as a [2000, 1] column reads, at (r, u), the vector at r. -/
theorem colCast_apply {α : Type} (x : S2000.Idx → α) (h : S2000.ShapeCasts S2000x1) (r : Fin 2000) (u : Fin 1) :
    shapeCast S2000x1 x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A [2000, 1] column spread over 3 lanes reads, at (r, a), the column at r. -/
theorem colSpread_apply {α : Type} (x : S2000x1.Idx → α) (h : S2000x1.Broadcasts S2000x3) (r : Fin 2000) (a : Fin 3) :
    broadcastTo S2000x3 x h (ix2 r a) = x (ix2 r (0 : Fin 1)) := by
  refine broadcastTo_apply x h (ix2 r a) (ix2 r (0 : Fin 1)) fun ax => ?_
  match ax with
  | ⟨0, _⟩ =>
    show r.val = if (2000 : Nat) = 1 then 0 else r.val
    rw [if_neg (by decide)]
  | ⟨1, _⟩ => rfl

/-- A 64-vector viewed as a [1, 64] row and spread over 2000 rows reads, at (r, j), the vector at j. -/
theorem rowSpread_apply {α : Type} (x : S64.Idx → α) (hc : S64.ShapeCasts S1x64) (hb : S1x64.Broadcasts S2000x64) (r : Fin 2000) (j : Fin 64) :
    broadcastTo S2000x64 (shapeCast S1x64 x hc) hb (ix2 r j) = x (ix1 j) :=
  (broadcastTo_1b_ab_apply _ hb r j).trans (shapeCast_a_1a_apply x hc 0 j)

/-! ## Three columns side by side -/

/-- Three [2000, 1] columns laid side by side read, in lane 0, the first column. -/
theorem cat3_apply_0 {α : Type} (c0 c1 c2 : S2000x1.Idx → α) (h : Shape.Concatenates [S2000x1, S2000x1, S2000x1] S2000x3 1) (r : Fin 2000) :
    concatenate S2000x3 1 [⟨S2000x1, c0⟩, ⟨S2000x1, c1⟩, ⟨S2000x1, c2⟩] h (ix2 r (0 : Fin 3)) = c0 (ix2 r (0 : Fin 1)) := by
  refine concatenate_apply_piece (1 : Fin S2000x3.rank) [⟨S2000x1, c0⟩, ⟨S2000x1, c1⟩, ⟨S2000x1, c2⟩] h (ix2 r (0 : Fin 3)) 0 (by show 0 < 3; omega) S2000x1 c0 rfl rfl 0 rfl (ix2 r (0 : Fin 1)) (fun b hb => ?_) rfl
  match b with
  | ⟨0, _⟩ => rfl
  | ⟨1, _⟩ => exact absurd rfl hb
/-- … in lane 1, the second column. -/
theorem cat3_apply_1 {α : Type} (c0 c1 c2 : S2000x1.Idx → α) (h : Shape.Concatenates [S2000x1, S2000x1, S2000x1] S2000x3 1) (r : Fin 2000) :
    concatenate S2000x3 1 [⟨S2000x1, c0⟩, ⟨S2000x1, c1⟩, ⟨S2000x1, c2⟩] h (ix2 r (1 : Fin 3)) = c1 (ix2 r (0 : Fin 1)) := by
  refine concatenate_apply_piece (1 : Fin S2000x3.rank) [⟨S2000x1, c0⟩, ⟨S2000x1, c1⟩, ⟨S2000x1, c2⟩] h (ix2 r (1 : Fin 3)) 1 (by show 1 < 3; omega) S2000x1 c1 rfl rfl 1 rfl (ix2 r (0 : Fin 1)) (fun b hb => ?_) rfl
  match b with
  | ⟨0, _⟩ => rfl
  | ⟨1, _⟩ => exact absurd rfl hb
/-- … and in lane 2, the third column. -/
theorem cat3_apply_2 {α : Type} (c0 c1 c2 : S2000x1.Idx → α) (h : Shape.Concatenates [S2000x1, S2000x1, S2000x1] S2000x3 1) (r : Fin 2000) :
    concatenate S2000x3 1 [⟨S2000x1, c0⟩, ⟨S2000x1, c1⟩, ⟨S2000x1, c2⟩] h (ix2 r (2 : Fin 3)) = c2 (ix2 r (0 : Fin 1)) := by
  refine concatenate_apply_piece (1 : Fin S2000x3.rank) [⟨S2000x1, c0⟩, ⟨S2000x1, c1⟩, ⟨S2000x1, c2⟩] h (ix2 r (2 : Fin 3)) 2 (by show 2 < 3; omega) S2000x1 c2 rfl rfl 2 rfl (ix2 r (0 : Fin 1)) (fun b hb => ?_) rfl
  match b with
  | ⟨0, _⟩ => rfl
  | ⟨1, _⟩ => exact absurd rfl hb

end Cert.KernelIdeal.EdgeBlockOps

end
-- ==== Proof.EdgeBlock.lean ====
/-
  The edge stage's two stored blocks, entry by entry. Every operation of the body is read at one entry (r, ·) of a
  [2000, ·] block and depends only on row r of the loaded blocks: Δx and Δv are the differences of the rows; the three
  radial lanes are |Δx|, |Δv| and the lane sum of (Δx/|Δx|)·(Δv/|Δv|); the first layer is the sum of the three partial
  products (two endpoint rows against their 64 weight rows, the radial lanes against their 3) plus the bias; the
  message is max(max(·, 0)·W₂ + b₂, 0); the shift is Δx times the gate of the message, clipped between the two bounds
  as the body carries them. The sums come out in the order the row-by-row specification writes them, so no law beyond
  the reading of each operation at an entry is used.
-/
import proofs.«425614_j2473901163257_4_alg».proof.Proof.Gen.KernelIdeal.Frame
import proofs.«425614_j2473901163257_4_alg».proof.Proof.Spec
import proofs.«425614_j2473901163257_4_alg».proof.Proof.EdgeBlockOps
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.EdgeBlock

open Cert.KernelIdeal Cert.KernelIdeal.Gen Cert.Spec Idealize.ShloMosaic Idealize.ShloMosaic.ValueIdx
open Cert.KernelIdeal.EdgeBlockOps

/-! ## Δ of two position (or velocity) blocks -/

/-- Entry (r, a) of the difference of two [2000, 3] blocks is the difference of the two rows' entries. -/
theorem pay1_apply (v4 v6 : Vec Ideal S2000x3 .f32) (r : Fin 2000) (a : Fin 3) :
    k0_pay1 (F := Ideal) v4 v6 (ix2 r a) = diff3 (row v4 r) (row v6 r) a := by
  unfold k0_pay1
  rw [shapeCast_self, shapeCast_self]
  rfl

/-! ## The radial features -/

/-- The length column of a [2000, 3] block d — the square root of the lane sum of d·d, as a column — reads at row r the
    Euclidean length of d's row r. -/
theorem norm_apply (d : FVec Ideal S2000x3 .f32) (h : S2000x3.Reduces [1] S2000) (hφ : FKind.Formats .f32)
    (hacc : (0x00000000#32 : BitVec 32) = 0x00000000#32) (hc : S2000.ShapeCasts S2000x1) (r : Fin 2000) (u : Fin 1) :
    sqrt (shapeCast S2000x1 (multiReduction (F := Ideal) .add [1] S2000 (mulf d d) 0x00000000#32 h hφ hacc) hc) (ix2 r u)
      = len3 (fun k => d (ix2 r k)) := by
  show Ideal.sqrt (shapeCast S2000x1 (multiReduction (F := Ideal) .add [1] S2000 (mulf d d) 0x00000000#32 h hφ hacc) hc (ix2 r u)) = _
  unfold len3
  refine congrArg Ideal.sqrt ?_
  exact (colCast_apply _ hc r u).trans (laneSum_apply _ h hφ hacc r)

/-- The third radial column — the lane sum of (dx / |dx|)·(dv / |dv|) with the two length columns spread over the lanes — reads
    at row r the sum over the three lanes of the quotients' products. -/
theorem dot_apply (dx dv : FVec Ideal S2000x3 .f32) (nx nv : FVec Ideal S2000x1 .f32) (h : S2000x3.Reduces [1] S2000) (hφ : FKind.Formats .f32)
    (hacc : (0x00000000#32 : BitVec 32) = 0x00000000#32) (hc : S2000.ShapeCasts S2000x1) (hb : S2000x1.Broadcasts S2000x3) (r : Fin 2000) (u : Fin 1) :
    shapeCast S2000x1 (multiReduction (F := Ideal) .add [1] S2000 (mulf (divf dx (broadcastTo S2000x3 nx hb)) (divf dv (broadcastTo S2000x3 nv hb))) 0x00000000#32 h hφ hacc) hc (ix2 r u)
      = ∑ k : Fin 3, Ideal.div (dx (ix2 r k)) (nx (ix2 r (0 : Fin 1))) * Ideal.div (dv (ix2 r k)) (nv (ix2 r (0 : Fin 1))) := by
  refine ((colCast_apply _ hc r u).trans (laneSum_apply _ h hφ hacc r)).trans ?_
  refine Finset.sum_congr rfl fun k _ => ?_
  show Ideal.div (dx (ix2 r k)) (broadcastTo S2000x3 nx hb (ix2 r k)) * Ideal.div (dv (ix2 r k)) (broadcastTo S2000x3 nv hb (ix2 r k)) = _
  rw [colSpread_apply, colSpread_apply]

/-- Lane 0 of the radial block: |Δx| of the row. -/
theorem pay2_apply_0 (v4 v6 v9 v11 : Vec Ideal S2000x3 .f32) (r : Fin 2000) :
    k0_pay2 (F := Ideal) v4 v6 v9 v11 (ix2 r (0 : Fin 3)) = len3 (diff3 (row v4 r) (row v6 r)) := by
  unfold k0_pay2
  refine (cat3_apply_0 _ _ _ _ r).trans ?_
  refine (norm_apply _ _ _ _ _ r 0).trans ?_
  exact congrArg len3 (funext fun k => pay1_apply v4 v6 r k)

/-- Lane 1 of the radial block: |Δv| of the row. -/
theorem pay2_apply_1 (v4 v6 v9 v11 : Vec Ideal S2000x3 .f32) (r : Fin 2000) :
    k0_pay2 (F := Ideal) v4 v6 v9 v11 (ix2 r (1 : Fin 3)) = len3 (diff3 (row v9 r) (row v11 r)) := by
  unfold k0_pay2
  refine (cat3_apply_1 _ _ _ _ r).trans ?_
  refine (norm_apply _ _ _ _ _ r 0).trans ?_
  exact congrArg len3 (funext fun k => pay1_apply v9 v11 r k)

/-- Lane 2 of the radial block: the sum over the lanes of (Δx / |Δx|)·(Δv / |Δv|) of the row. -/
theorem pay2_apply_2 (v4 v6 v9 v11 : Vec Ideal S2000x3 .f32) (r : Fin 2000) :
    k0_pay2 (F := Ideal) v4 v6 v9 v11 (ix2 r (2 : Fin 3))
      = ∑ k : Fin 3, Ideal.div (diff3 (row v4 r) (row v6 r) k) (len3 (diff3 (row v4 r) (row v6 r)))
          * Ideal.div (diff3 (row v9 r) (row v11 r) k) (len3 (diff3 (row v9 r) (row v11 r))) := by
  unfold k0_pay2
  refine (cat3_apply_2 _ _ _ _ r).trans ?_
  refine (dot_apply _ _ _ _ _ _ _ _ _ r 0).trans ?_
  refine Finset.sum_congr rfl fun k _ => ?_
  rw [norm_apply, norm_apply]
  exact congrArg₂ (· * ·)
    (congrArg₂ Ideal.div (pay1_apply v4 v6 r k) (congrArg len3 (funext fun c => pay1_apply v4 v6 r c)))
    (congrArg₂ Ideal.div (pay1_apply v9 v11 r k) (congrArg len3 (funext fun c => pay1_apply v9 v11 r c)))

/-- The radial block at (r, a): the a-th radial feature of the row's Δx and Δv. -/
theorem pay2_apply (v4 v6 v9 v11 : Vec Ideal S2000x3 .f32) (r : Fin 2000) (a : Fin 3) :
    k0_pay2 (F := Ideal) v4 v6 v9 v11 (ix2 r a) = radial (diff3 (row v4 r) (row v6 r)) (diff3 (row v9 r) (row v11 r)) a := by
  match a with
  | ⟨0, _⟩ => exact pay2_apply_0 v4 v6 v9 v11 r
  | ⟨1, _⟩ => exact pay2_apply_1 v4 v6 v9 v11 r
  | ⟨2, _⟩ => exact pay2_apply_2 v4 v6 v9 v11 r

/-! ## The two endpoint products -/

/-- Entry (r, j) of hr·Wr + hc·Wc: the two sums over the 64 features of the two endpoint rows. -/
theorem pay3_apply (v0 v2 : Vec Ideal S2000x64 .f32) (v30 v33 : Vec Ideal S64x64 .f32) (r : Fin 2000) (j : Fin 64) :
    k0_pay3 (F := Ideal) v0 v2 v30 v33 (ix2 r j)
      = (∑ k, row v0 r k * mat v30 k j) + (∑ k, row v2 r k * mat v33 k j) := by
  unfold k0_pay3
  rw [shapeCast_self, shapeCast_self, shapeCast_self, shapeCast_self]
  exact congrArg₂ (· + ·) (mmA_apply v0 v30 r j) (mmA_apply v2 v33 r j)

/-! ## The message block -/

/-- The zero the two max(·, 0) steps compare with is the extended real 0. -/
theorem zeroSplat_apply {s : Shape} (i : s.Idx) :
    broadcast s (Scalar.ofBits (F := Ideal) .f32 0x00000000#32) i = (0 : EReal) :=
  Ideal.ofBits_zero_f32

/-- Entry (r, j) of the message block, from the radial block v29 and the endpoint products v36: the message of the first layer's
    pre-activation ((v36 + v29·Wrad) + b₁) of row r. -/
theorem pay4_apply (v29 : FVec Ideal S2000x3 .f32) (v36 : FVec Ideal S2000x64 .f32) (v37 : Vec Ideal S3x64 .f32) (v41 : Vec Ideal S64 .f32)
    (v47 : Vec Ideal S64x64 .f32) (v49 : Vec Ideal S64 .f32) (r : Fin 2000) (j : Fin 64) :
    k0_pay4 (F := Ideal) v29 v36 v37 v41 v47 v49 (ix2 r j)
      = msg (fun c => (v36 (ix2 r c) + ∑ k, v29 (ix2 r k) * mat v37 k c) + vec v41 c) (mat v47) (vec v49) j := by
  unfold k0_pay4
  rw [shapeCast_self]
  unfold msg lin relu
  refine congrArg₂ max (congrArg₂ (· + ·) ((mmA_apply _ v47 r j).trans ?_) (rowSpread_apply v49 _ _ r j)) (zeroSplat_apply _)
  refine Finset.sum_congr rfl fun c _ => congrArg (· * v47 (ix2 c j)) ?_
  exact congrArg₂ max (congrArg₂ (· + ·) (congrArg (v36 (ix2 r c) + ·) (mmB_apply v29 v37 r c)) (rowSpread_apply v41 _ _ r c)) (zeroSplat_apply _)

/-- Entry (r, j) of the message block of the kernel's own radial block and endpoint products: the split-form message of the row. -/
theorem msgBlock_apply (x0 x1 : Vec Ideal S2000x64 .f32) (x2 x3 x4 x5 : Vec Ideal S2000x3 .f32) (x6 x7 : Vec Ideal S64x64 .f32) (x8 : Vec Ideal S3x64 .f32)
    (x9 : Vec Ideal S64 .f32) (x10 : Vec Ideal S64x64 .f32) (x11 : Vec Ideal S64 .f32) (r : Fin 2000) (j : Fin 64) :
    k0_pay4 (F := Ideal) (k0_pay2 x2 x3 x4 x5) (k0_pay3 x0 x1 x6 x7) x8 x9 x10 x11 (ix2 r j)
      = edgeMK (row x0 r) (row x1 r) (row x2 r) (row x3 r) (row x4 r) (row x5 r) (mat x6) (mat x7) (mat x8) (vec x9) (mat x10) (vec x11) j := by
  rw [pay4_apply]
  unfold edgeMK
  refine congrArg (fun p => msg p (mat x10) (vec x11) j) (funext fun c => ?_)
  unfold epreK
  refine congrArg (· + vec x9 c) (congrArg₂ (· + ·) (pay3_apply x0 x1 x6 x7 r c) ?_)
  exact Finset.sum_congr rfl fun k _ => congrArg (· * mat x8 k c) (pay2_apply x2 x3 x4 x5 r k)

/-! ## The shift block -/

/-- Entry (r, a) of the shift block, from the Δx block v8 and the message block: Δx of the row scaled by the gate of the row's
    message, clipped between the two bounds. -/
theorem pay5_apply (v8 v29 : FVec Ideal S2000x3 .f32) (v36 : FVec Ideal S2000x64 .f32) (v37 : Vec Ideal S3x64 .f32) (v41 : Vec Ideal S64 .f32)
    (v47 : Vec Ideal S64x64 .f32) (v49 : Vec Ideal S64 .f32) (v55 : Vec Ideal S64x64 .f32) (v57 : Vec Ideal S64 .f32) (v63 : Vec Ideal S64x1 .f32)
    (r : Fin 2000) (a : Fin 3) :
    k0_pay5 (F := Ideal) v8 v29 v36 v37 v41 v47 v49 v55 v57 v63 (ix2 r a)
      = shift (fun c => v8 (ix2 r c)) (gate (fun c => k0_pay4 (F := Ideal) v29 v36 v37 v41 v47 v49 (ix2 r c)) (mat v55) (vec v57) (col v63)) a := by
  unfold k0_pay5
  unfold shift gate lin relu hi lo
  refine congrArg (min (Ideal.ofBits .f32 0x42C80000#32)) (congrArg (max (Ideal.ofBits .f32 0xC2C80000#32)) (congrArg (v8 (ix2 r a) * ·) ?_))
  refine (colSpread_apply _ _ r a).trans ((mmC_apply _ v63 r 0).trans ?_)
  refine Finset.sum_congr rfl fun k _ => congrArg (· * v63 (ix2 k (0 : Fin 1))) ?_
  exact congrArg₂ max (congrArg₂ (· + ·) (mmA_apply _ v55 r k) (rowSpread_apply v57 _ _ r k)) (zeroSplat_apply _)

/-! ## The two stored blocks -/

/-- Row r, column j of the message block the edge kernel stores: the split-form message of the block's r-th edge. -/
theorem out0_15_apply (x0 x1 : Vec Ideal S2000x64 .f32) (x2 x3 x4 x5 : Vec Ideal S2000x3 .f32) (x6 x7 : Vec Ideal S64x64 .f32) (x8 : Vec Ideal S3x64 .f32) (x9 : Vec Ideal S64 .f32) (x10 : Vec Ideal S64x64 .f32) (x11 : Vec Ideal S64 .f32) (x12 : Vec Ideal S64x64 .f32) (x13 : Vec Ideal S64 .f32) (x14 : Vec Ideal S64x1 .f32) (r : Fin 2000) (j : Fin 64) :
    out0_15 (F := Ideal) x0 x1 x2 x3 x4 x5 x6 x7 x8 x9 x10 x11 x12 x13 x14 (ix2 r j)
      = edgeMK (row x0 r) (row x1 r) (row x2 r) (row x3 r) (row x4 r) (row x5 r) (mat x6) (mat x7) (mat x8) (vec x9) (mat x10) (vec x11) j := by
  have hz : (![0, 0] : Fin 2 → Nat) = fun _ => 0 := by funext a; match a with | ⟨0, _⟩ => rfl | ⟨1, _⟩ => rfl
  have hz1 : (![0] : Fin 1 → Nat) = fun _ => 0 := by funext a; match a with | ⟨0, _⟩ => rfl
  unfold out0_15
  rw [View.canon_unit_zero hz]
  simp only [View.ld_unit_zero (S := S2000x64) hz, View.ld_unit_zero (S := S2000x3) hz, View.ld_unit_zero (S := S64x64) hz,
    View.ld_unit_zero (S := S3x64) hz, View.ld_unit_zero (S := S64) hz1]
  exact msgBlock_apply x0 x1 x2 x3 x4 x5 x6 x7 x8 x9 x10 x11 r j

/-- Row r, column a of the shift block the edge kernel stores: the shift of the block's r-th edge from its message. -/
theorem out0_16_apply (x0 x1 : Vec Ideal S2000x64 .f32) (x2 x3 x4 x5 : Vec Ideal S2000x3 .f32) (x6 x7 : Vec Ideal S64x64 .f32) (x8 : Vec Ideal S3x64 .f32) (x9 : Vec Ideal S64 .f32) (x10 : Vec Ideal S64x64 .f32) (x11 : Vec Ideal S64 .f32) (x12 : Vec Ideal S64x64 .f32) (x13 : Vec Ideal S64 .f32) (x14 : Vec Ideal S64x1 .f32) (r : Fin 2000) (a : Fin 3) :
    out0_16 (F := Ideal) x0 x1 x2 x3 x4 x5 x6 x7 x8 x9 x10 x11 x12 x13 x14 (ix2 r a)
      = edgeT (edgeMK (row x0 r) (row x1 r) (row x2 r) (row x3 r) (row x4 r) (row x5 r) (mat x6) (mat x7) (mat x8) (vec x9) (mat x10) (vec x11))
          (row x2 r) (row x3 r) (mat x12) (vec x13) (col x14) a := by
  have hz : (![0, 0] : Fin 2 → Nat) = fun _ => 0 := by funext a; match a with | ⟨0, _⟩ => rfl | ⟨1, _⟩ => rfl
  have hz1 : (![0] : Fin 1 → Nat) = fun _ => 0 := by funext a; match a with | ⟨0, _⟩ => rfl
  unfold out0_16
  rw [View.canon_unit_zero hz]
  simp only [View.ld_unit_zero (S := S2000x64) hz, View.ld_unit_zero (S := S2000x3) hz, View.ld_unit_zero (S := S64x64) hz,
    View.ld_unit_zero (S := S3x64) hz, View.ld_unit_zero (S := S64) hz1, View.ld_unit_zero (S := S64x1) hz]
  rw [pay5_apply]
  unfold edgeT
  exact congrArg₂ (fun dx m => shift dx (gate m (mat x12) (vec x13) (col x14)) a)
    (funext fun c => pay1_apply x2 x3 r c)
    (funext fun c => msgBlock_apply x0 x1 x2 x3 x4 x5 x6 x7 x8 x9 x10 x11 r c)

end Cert.KernelIdeal.EdgeBlock

end
-- ==== Proof.NodeBlock.lean ====
import proofs.«425614_j2473901163257_4_alg».proof.Proof.Gen.KernelIdeal.Frame
import proofs.«425614_j2473901163257_4_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.NodeBlock

open Cert.KernelIdeal Cert.KernelIdeal.Gen Cert.Spec Idealize.ShloMosaic Idealize.ShloMosaic.ValueIdx

/-! ## A [2000,64] × [64,64] product read at an index -/

/-- The left operand's row coordinate is the output's row. -/
theorem lhs_row (i : S2000x64.Idx) (q : dot_S2000x64_S64x64_S2000x64_1_0_0_1_n_n.contr.Idx) :
    (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- The left operand's column coordinate is the summation index. -/
theorem lhs_col (i : S2000x64.Idx) (q : dot_S2000x64_S64x64_S2000x64_1_0_0_1_n_n.contr.Idx) :
    (dot_S2000x64_S64x64_S2000x64_1_0_0_1_n_n.lhsIdx i q 1).val = (q ⟨0, by decide⟩).val :=
  dot_S2000x64_S64x64_S2000x64_1_0_0_1_n_n.lhsIdx_val_of_single rfl i q
/-- The right operand's row coordinate is the summation index. -/
theorem rhs_row (i : S2000x64.Idx) (q : dot_S2000x64_S64x64_S2000x64_1_0_0_1_n_n.contr.Idx) :
    (dot_S2000x64_S64x64_S2000x64_1_0_0_1_n_n.rhsIdx i q 0).val = (q ⟨0, by decide⟩).val :=
  dot_S2000x64_S64x64_S2000x64_1_0_0_1_n_n.rhsIdx_val_of_single rfl i q
/-- The right operand's column coordinate is the output's column. -/
theorem rhs_col (i : S2000x64.Idx) (q : dot_S2000x64_S64x64_S2000x64_1_0_0_1_n_n.contr.Idx) :
    (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- A product into the zero accumulator, read at row r and column j, is the sum over k of the left operand's (r, k) entry times the right operand's (k, j) entry. -/
theorem matmul_at (lhs : FVec Ideal S2000x64 .f32) (rhs : FVec Ideal S64x64 .f32) (r : Fin 2000) (j : Fin 64) :
    matmul dot_S2000x64_S64x64_S2000x64_1_0_0_1_n_n none lhs rhs (constant (F := Ideal) S2000x64 .f32 0x00000000#32) (ix2 r j)
      = ∑ k : Fin 64, lhs (ix2 r k) * rhs (ix2 k j) := by
  simp only [matmul]
  rw [Ideal.matmul_constant_zero_apply, ← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 r j) ((contrEquiv1 dot_S2000x64_S64x64_S2000x64_1_0_0_1_n_n 64 rfl rfl).symm k) = ix2 r k := funext fun a => Fin.ext (by
    match a with
    | ⟨0, _⟩ => exact lhs_row _ _
    | ⟨1, _⟩ => exact (lhs_col _ _).trans hk)
  have er : dot_S2000x64_S64x64_S2000x64_1_0_0_1_n_n.rhsIdx (ix2 r j) ((contrEquiv1 dot_S2000x64_S64x64_S2000x64_1_0_0_1_n_n 64 rfl rfl).symm k) = ix2 k j := funext fun a => Fin.ext (by
    match a with
    | ⟨0, _⟩ => exact (rhs_row _ _).trans hk
    | ⟨1, _⟩ => exact rhs_col _ _)
  rw [el, er]

/-! ## The layout operations of the node body read at an index -/

/-- A 64-vector viewed as one row and laid over all 2000 rows reads, at (r, j), its j-th entry. -/
theorem bias_at (v : FVec Ideal S64 .f32) (r : Fin 2000) (j : Fin 64) :
    broadcastTo S2000x64 (shapeCast S1x64 v shapeCasts_S64_S1x64) broadcasts_S1x64_S2000x64 (ix2 r j) = v (ix1 j) :=
  (broadcastTo_1b_ab_apply _ broadcasts_S1x64_S2000x64 r j).trans (shapeCast_a_1a_apply v shapeCasts_S64_S1x64 0 j)

/-- A one-column array laid over three columns reads, at (r, a), its r-th entry. -/
theorem col_at (v : FVec Ideal S2000x1 .f32) (r : Fin 2000) (a : Fin 3) :
    broadcastTo S2000x3 v broadcasts_S2000x1_S2000x3 (ix2 r a) = v (ix2 r (0 : Fin 1)) := by
  refine broadcastTo_apply v broadcasts_S2000x1_S2000x3 (ix2 r a) (ix2 r (0 : Fin 1)) fun ax => ?_
  match ax with
  | ⟨0, _⟩ =>
    show r.val = if (2000 : Nat) = 1 then 0 else r.val
    rw [if_neg (by decide)]
  | ⟨1, _⟩ => rfl

/-! ## The two stored values at an index -/

/-- The feature value the body stores, at (r, j): the second dense layer at output j on the max(·,0) of the split first layer of row r. -/
theorem pay1_at (v0 v1 : Vec Ideal S2000x64 .f32) (v3 v6 : Vec Ideal S64x64 .f32) (v10 : Vec Ideal S64 .f32) (v16 : Vec Ideal S64x64 .f32) (v18 : Vec Ideal S64 .f32)
    (r : Fin 2000) (j : Fin 64) :
    k1_pay1 (F := Ideal) v0 v1 v3 v6 v10 v16 v18 (ix2 r j)
      = nodeH (npreK (row v0 r) (row v1 r) (mat v3) (mat v6) (vec v10)) (mat v16) (vec v18) j := by
  unfold k1_pay1
  simp only [shapeCast_self]
  unfold nodeH lin
  refine congrArg₂ (· + ·) ?_ (bias_at v18 r j)
  refine (matmul_at _ v16 r j).trans (Finset.sum_congr rfl fun k _ => ?_)
  refine congrArg₂ (· * ·) ?_ rfl
  show max (_ + _ + _) (Ideal.ofBits .f32 0x00000000#32) = _
  rw [Ideal.ofBits_zero_f32]
  unfold relu npreK
  refine congrArg (max · 0) ?_
  exact congrArg₂ (· + ·) (congrArg₂ (· + ·) (matmul_at v0 v3 r k) (matmul_at v1 v6 r k)) (bias_at v10 r k)

/-- The coordinate value the body stores, at (r, a): the a-th summed shift of row r over its count clamped below by 1, times 1. -/
theorem pay2_at (v23 : Vec Ideal S2000x1 .f32) (v25 : Vec Ideal S2000x3 .f32) (r : Fin 2000) (a : Fin 3) :
    k1_pay2 (F := Ideal) v23 v25 (ix2 r a) = nodeC (row v25 r) (v23 (ix2 r (0 : Fin 1))) a := by
  unfold k1_pay2
  simp only [shapeCast_self]
  unfold nodeC one
  refine congrArg₂ (· * ·) ?_ rfl
  refine congrArg₂ Ideal.div rfl ?_
  exact col_at _ r a

/-- The two zero offsets of a whole rank-2 block. -/
theorem zero2 : (![0, 0] : Fin 2 → Nat) = fun _ => 0 := funext fun a => by match a with | ⟨0, _⟩ => rfl | ⟨1, _⟩ => rfl
/-- The zero offset of a whole rank-1 block. -/
theorem zero1 : (![0] : Fin 1 → Nat) = fun _ => 0 := funext fun a => by match a with | ⟨0, _⟩ => rfl

/-- Row r, column j of the feature block the node kernel stores: the split-form new features of the block's r-th node. -/
theorem out1_9_apply (x0 x1 : Vec Ideal S2000x64 .f32) (x2 : Vec Ideal S2000x3 .f32) (x3 : Vec Ideal S2000x1 .f32) (x4 x5 : Vec Ideal S64x64 .f32) (x6 : Vec Ideal S64 .f32) (x7 : Vec Ideal S64x64 .f32) (x8 : Vec Ideal S64 .f32) (r : Fin 2000) (j : Fin 64) :
    out1_9 (F := Ideal) x0 x1 x2 x3 x4 x5 x6 x7 x8 (ix2 r j)
      = nodeH (npreK (row x0 r) (row x1 r) (mat x4) (mat x5) (vec x6)) (mat x7) (vec x8) j := by
  unfold out1_9
  rw [View.canon_unit_zero zero2]
  simp only [View.ld_unit_zero (S := S2000x64) zero2, View.ld_unit_zero (S := S64x64) zero2, View.ld_unit_zero (S := S64) zero1]
  exact pay1_at x0 x1 x4 x5 x6 x7 x8 r j

/-- Row r, column a of the coordinate block the node kernel stores: the r-th node's summed shifts over its clamped count. -/
theorem out1_10_apply (x0 x1 : Vec Ideal S2000x64 .f32) (x2 : Vec Ideal S2000x3 .f32) (x3 : Vec Ideal S2000x1 .f32) (x4 x5 : Vec Ideal S64x64 .f32) (x6 : Vec Ideal S64 .f32) (x7 : Vec Ideal S64x64 .f32) (x8 : Vec Ideal S64 .f32) (r : Fin 2000) (a : Fin 3) :
    out1_10 (F := Ideal) x0 x1 x2 x3 x4 x5 x6 x7 x8 (ix2 r a) = nodeC (row x2 r) (x3 (ix2 r (0 : Fin 1))) a := by
  unfold out1_10
  rw [View.canon_unit_zero zero2]
  simp only [View.ld_unit_zero (S := S2000x1) zero2, View.ld_unit_zero (S := S2000x3) zero2]
  exact pay2_at x3 x2 r a

end Cert.KernelIdeal.NodeBlock

end
-- ==== Proof.RegionArrNode.lean ====
import proofs.«425614_j2473901163257_4_alg».proof.Proof.Gen.KernelIdeal.Frame
import proofs.«425614_j2473901163257_4_alg».proof.Proof.Spec
import proofs.«425614_j2473901163257_4_alg».proof.Proof.NodeBlock
import Idealize.ShloMosaic.Lib.Pipeline.Value
import Idealize.ShloMosaic.Lib.ValueIdx

noncomputable section

open scoped BigOperators

namespace Cert.KernelIdeal.RegionArr

open Cert.KernelIdeal Cert.KernelIdeal.Gen Cert.Spec Idealize.ShloMosaic Idealize.ShloMosaic.ValueIdx
open Idealize.ShloMosaic.TcCoe Idealize.SL.Sem
open Idealize.ShloMosaic.Pipeline (Dat Cfg Window)

-- the TensorCore's buffer contents when the node region is entered: every statement below holds at any such contents
variable (V : (c : Dev nD) → (b : Ref sig .tc) → Buf (Elt Ideal) ((c : Thread nD τ).loc b))

/-! ## The node region: block indices over its 25 points -/

/-- The row-block windows (the four row inputs and the two outputs) sit at block (t, 0) at point t. -/
theorem node_idx_rows : ∀ t : Fin cfg1.N,
    (win1_0.index t (0 : Fin 2) = t.val ∧ win1_0.index t (1 : Fin 2) = 0)
    ∧ (win1_1.index t (0 : Fin 2) = t.val ∧ win1_1.index t (1 : Fin 2) = 0)
    ∧ (win1_2.index t (0 : Fin 2) = t.val ∧ win1_2.index t (1 : Fin 2) = 0)
    ∧ (win1_3.index t (0 : Fin 2) = t.val ∧ win1_3.index t (1 : Fin 2) = 0)
    ∧ (win1_9.index t (0 : Fin 2) = t.val ∧ win1_9.index t (1 : Fin 2) = 0)
    ∧ (win1_10.index t (0 : Fin 2) = t.val ∧ win1_10.index t (1 : Fin 2) = 0) :=
  (by decide +kernel : ∀ t : Fin grid1.N, _)

/-- The weight and bias windows sit at block 0 on every axis at every point. -/
theorem node_idx_whole : ∀ t : Fin cfg1.N,
    (win1_4.index t (0 : Fin 2) = 0 ∧ win1_4.index t (1 : Fin 2) = 0)
    ∧ (win1_5.index t (0 : Fin 2) = 0 ∧ win1_5.index t (1 : Fin 2) = 0)
    ∧ win1_6.index t (0 : Fin 1) = 0
    ∧ (win1_7.index t (0 : Fin 2) = 0 ∧ win1_7.index t (1 : Fin 2) = 0)
    ∧ win1_8.index t (0 : Fin 1) = 0 :=
  (by decide +kernel : ∀ t : Fin grid1.N, _)

/-- The region has 25 points. -/
theorem node_N : cfg1.N = 25 := by decide +kernel

/-! ## Each input block read off its array -/

/-- Row r of the own-feature block at point t is row 2000 t + r of the feature array. -/
theorem node_blk0 (c : Dev nD) (t : Fin cfg1.N) (r : Fin 2000) (h : 2000 * t.val + r.val < 50000) :
    row (iblk1 (F := Ideal) V c 0 t : Vec Ideal S2000x64 .f32) r = row (V c main_arg0 : A 50000 64) ⟨2000 * t.val + r.val, h⟩ := by
  funext k
  show (iblk1 (F := Ideal) V c 0 t : Vec Ideal S2000x64 .f32) (ix2 r k) = _
  unfold iblk1
  rw [View.read_apply]
  show (V c main_arg0 : A 50000 64) (((cfg1.win 0).blk t).view.emb (ix2 r k)) = _
  refine congrArg (V c main_arg0 : A 50000 64) (funext fun a => Fin.ext ?_)
  match a with
  | ⟨0, _⟩ => show win1_0.index t (0 : Fin 2) * 2000 + 1 * r.val = 2000 * t.val + r.val; rw [(node_idx_rows t).1.1]; omega
  | ⟨1, _⟩ => show win1_0.index t (1 : Fin 2) * 64 + 1 * k.val = k.val; rw [(node_idx_rows t).1.2]; omega

/-- Row r of the summed-message block at point t is row 2000 t + r of the summed-message array. -/
theorem node_blk1 (c : Dev nD) (t : Fin cfg1.N) (r : Fin 2000) (h : 2000 * t.val + r.val < 50000) :
    row (iblk1 (F := Ideal) V c 1 t : Vec Ideal S2000x64 .f32) r = row (V c main_v16 : A 50000 64) ⟨2000 * t.val + r.val, h⟩ := by
  funext k
  show (iblk1 (F := Ideal) V c 1 t : Vec Ideal S2000x64 .f32) (ix2 r k) = _
  unfold iblk1
  rw [View.read_apply]
  show (V c main_v16 : A 50000 64) (((cfg1.win 1).blk t).view.emb (ix2 r k)) = _
  refine congrArg (V c main_v16 : A 50000 64) (funext fun a => Fin.ext ?_)
  match a with
  | ⟨0, _⟩ => show win1_1.index t (0 : Fin 2) * 2000 + 1 * r.val = 2000 * t.val + r.val; rw [(node_idx_rows t).2.1.1]; omega
  | ⟨1, _⟩ => show win1_1.index t (1 : Fin 2) * 64 + 1 * k.val = k.val; rw [(node_idx_rows t).2.1.2]; omega

/-- Row r of the summed-shift block at point t is row 2000 t + r of the summed-shift array. -/
theorem node_blk2 (c : Dev nD) (t : Fin cfg1.N) (r : Fin 2000) (h : 2000 * t.val + r.val < 50000) :
    row (iblk1 (F := Ideal) V c 2 t : Vec Ideal S2000x3 .f32) r = row (V c main_v19 : A 50000 3) ⟨2000 * t.val + r.val, h⟩ := by
  funext k
  show (iblk1 (F := Ideal) V c 2 t : Vec Ideal S2000x3 .f32) (ix2 r k) = _
  unfold iblk1
  rw [View.read_apply]
  show (V c main_v19 : A 50000 3) (((cfg1.win 2).blk t).view.emb (ix2 r k)) = _
  refine congrArg (V c main_v19 : A 50000 3) (funext fun a => Fin.ext ?_)
  match a with
  | ⟨0, _⟩ => show win1_2.index t (0 : Fin 2) * 2000 + 1 * r.val = 2000 * t.val + r.val; rw [(node_idx_rows t).2.2.1.1]; omega
  | ⟨1, _⟩ => show win1_2.index t (1 : Fin 2) * 3 + 1 * k.val = k.val; rw [(node_idx_rows t).2.2.1.2]; omega

/-- Row r of the edge-count block at point t is row 2000 t + r of the edge-count array. -/
theorem node_blk3 (c : Dev nD) (t : Fin cfg1.N) (r : Fin 2000) (h : 2000 * t.val + r.val < 50000) :
    row (iblk1 (F := Ideal) V c 3 t : Vec Ideal S2000x1 .f32) r = row (V c main_v23 : A 50000 1) ⟨2000 * t.val + r.val, h⟩ := by
  funext k
  show (iblk1 (F := Ideal) V c 3 t : Vec Ideal S2000x1 .f32) (ix2 r k) = _
  unfold iblk1
  rw [View.read_apply]
  show (V c main_v23 : A 50000 1) (((cfg1.win 3).blk t).view.emb (ix2 r k)) = _
  refine congrArg (V c main_v23 : A 50000 1) (funext fun a => Fin.ext ?_)
  match a with
  | ⟨0, _⟩ => show win1_3.index t (0 : Fin 2) * 2000 + 1 * r.val = 2000 * t.val + r.val; rw [(node_idx_rows t).2.2.2.1.1]; omega
  | ⟨1, _⟩ => show win1_3.index t (1 : Fin 2) * 1 + 1 * k.val = k.val; rw [(node_idx_rows t).2.2.2.1.2]; omega

/-- The own-feature weight block is the whole weight array at every point. -/
theorem node_blk4 (c : Dev nD) (t : Fin cfg1.N) :
    (iblk1 (F := Ideal) V c 4 t : Vec Ideal S64x64 .f32) = (V c main_v24 : A 64 64) := by
  funext y
  unfold iblk1
  rw [View.read_apply]
  show (V c main_v24 : A 64 64) (((cfg1.win 4).blk t).view.emb y) = _
  refine congrArg (V c main_v24 : A 64 64) (funext fun a => Fin.ext ?_)
  match a with
  | ⟨0, _⟩ => show win1_4.index t (0 : Fin 2) * 64 + 1 * (y 0).val = (y 0).val; rw [(node_idx_whole t).1.1]; omega
  | ⟨1, _⟩ => show win1_4.index t (1 : Fin 2) * 64 + 1 * (y 1).val = (y 1).val; rw [(node_idx_whole t).1.2]; omega

/-- The summed-message weight block is the whole weight array at every point. -/
theorem node_blk5 (c : Dev nD) (t : Fin cfg1.N) :
    (iblk1 (F := Ideal) V c 5 t : Vec Ideal S64x64 .f32) = (V c main_v25 : A 64 64) := by
  funext y
  unfold iblk1
  rw [View.read_apply]
  show (V c main_v25 : A 64 64) (((cfg1.win 5).blk t).view.emb y) = _
  refine congrArg (V c main_v25 : A 64 64) (funext fun a => Fin.ext ?_)
  match a with
  | ⟨0, _⟩ => show win1_5.index t (0 : Fin 2) * 64 + 1 * (y 0).val = (y 0).val; rw [(node_idx_whole t).2.1.1]; omega
  | ⟨1, _⟩ => show win1_5.index t (1 : Fin 2) * 64 + 1 * (y 1).val = (y 1).val; rw [(node_idx_whole t).2.1.2]; omega

/-- The first bias block is the whole bias vector at every point. -/
theorem node_blk6 (c : Dev nD) (t : Fin cfg1.N) :
    (iblk1 (F := Ideal) V c 6 t : Vec Ideal S64 .f32) = (V c main_arg9 : V1 64) := by
  funext y
  unfold iblk1
  rw [View.read_apply]
  show (V c main_arg9 : V1 64) (((cfg1.win 6).blk t).view.emb y) = _
  refine congrArg (V c main_arg9 : V1 64) (funext fun a => Fin.ext ?_)
  match a with
  | ⟨0, _⟩ => show win1_6.index t (0 : Fin 1) * 64 + 1 * (y 0).val = (y 0).val; rw [(node_idx_whole t).2.2.1]; omega

/-- The second layer's weight block is the whole weight array at every point. -/
theorem node_blk7 (c : Dev nD) (t : Fin cfg1.N) :
    (iblk1 (F := Ideal) V c 7 t : Vec Ideal S64x64 .f32) = (V c main_arg10 : A 64 64) := by
  funext y
  unfold iblk1
  rw [View.read_apply]
  show (V c main_arg10 : A 64 64) (((cfg1.win 7).blk t).view.emb y) = _
  refine congrArg (V c main_arg10 : A 64 64) (funext fun a => Fin.ext ?_)
  match a with
  | ⟨0, _⟩ => show win1_7.index t (0 : Fin 2) * 64 + 1 * (y 0).val = (y 0).val; rw [(node_idx_whole t).2.2.2.1.1]; omega
  | ⟨1, _⟩ => show win1_7.index t (1 : Fin 2) * 64 + 1 * (y 1).val = (y 1).val; rw [(node_idx_whole t).2.2.2.1.2]; omega

/-- The second bias block is the whole bias vector at every point. -/
theorem node_blk8 (c : Dev nD) (t : Fin cfg1.N) :
    (iblk1 (F := Ideal) V c 8 t : Vec Ideal S64 .f32) = (V c main_arg11 : V1 64) := by
  funext y
  unfold iblk1
  rw [View.read_apply]
  show (V c main_arg11 : V1 64) (((cfg1.win 8).blk t).view.emb y) = _
  refine congrArg (V c main_arg11 : V1 64) (funext fun a => Fin.ext ?_)
  match a with
  | ⟨0, _⟩ => show win1_8.index t (0 : Fin 1) * 64 + 1 * (y 0).val = (y 0).val; rw [(node_idx_whole t).2.2.2.2]; omega

/-! ## What each point writes back, and the cover -/

/-- The point index is below 25. -/
theorem node_t_lt (t : Fin cfg1.N) : t.val < 25 := Nat.lt_of_lt_of_eq t.isLt node_N

/-- Point t writes back rows 2000 t … 2000 t + 1999 of the split-form new features. -/
theorem node_h_flushed (c : Dev nD) (t : Fin cfg1.N) :
    (dat1 (F := Ideal) V c).flushed 9 t
      = ((cfg1.win 9).blk t).view.read (Elt Ideal)
          (NodeHK (V c main_arg0) (V c main_v16) (V c main_v24) (V c main_v25) (V c main_arg9) (V c main_arg10) (V c main_arg11)) := by
  show (cfg1.win 9).cut (grid1.coords t) ((dat1 V c).after 9 t) = _
  rw [after1_9]
  refine funext fun (y : S2000x64.Idx) => ?_
  obtain ⟨r, j, rfl⟩ : ∃ (r : Fin 2000) (j : Fin 64), y = ix2 r j := ⟨y 0, y 1, eq_ix2 y⟩
  rw [View.read_apply]
  have ht := node_t_lt t
  have h : 2000 * t.val + r.val < 50000 := by have := r.isLt; omega
  have hemb : ((cfg1.win 9).blk t).view.emb (ix2 r j) = (ix2 (⟨2000 * t.val + r.val, h⟩ : Fin 50000) j : S50000x64.Idx) := funext fun a => Fin.ext (by
    match a with
    | ⟨0, _⟩ => show win1_9.index t (0 : Fin 2) * 2000 + 1 * r.val = 2000 * t.val + r.val; rw [(node_idx_rows t).2.2.2.2.1.1]; omega
    | ⟨1, _⟩ => show win1_9.index t (1 : Fin 2) * 64 + 1 * j.val = j.val; rw [(node_idx_rows t).2.2.2.2.1.2]; omega)
  refine ((NodeBlock.out1_9_apply (iblk1 V c 0 t) (iblk1 V c 1 t) (iblk1 V c 2 t) (iblk1 V c 3 t) (iblk1 V c 4 t) (iblk1 V c 5 t) (iblk1 V c 6 t) (iblk1 V c 7 t) (iblk1 V c 8 t) r j).trans ?_).trans
    (congrArg (NodeHK (V c main_arg0) (V c main_v16) (V c main_v24) (V c main_v25) (V c main_arg9) (V c main_arg10) (V c main_arg11)) hemb.symm)
  rw [node_blk0 V c t r h, node_blk1 V c t r h, node_blk4 V c t, node_blk5 V c t, node_blk6 V c t, node_blk7 V c t, node_blk8 V c t]
  rfl

/-- The count entry of row r of the edge-count block at point t is that of row 2000 t + r of the edge-count array. -/
theorem node_cnt (c : Dev nD) (t : Fin cfg1.N) (r : Fin 2000) (h : 2000 * t.val + r.val < 50000) :
    (iblk1 (F := Ideal) V c 3 t : Vec Ideal S2000x1 .f32) (ix2 r (0 : Fin 1))
      = (V c main_v23 : A 50000 1) (ix2 (⟨2000 * t.val + r.val, h⟩ : Fin 50000) (0 : Fin 1)) :=
  congrFun (node_blk3 V c t r h) (0 : Fin 1)

/-- Point t writes back rows 2000 t … 2000 t + 1999 of the coordinate updates. -/
theorem node_c_flushed (c : Dev nD) (t : Fin cfg1.N) :
    (dat1 (F := Ideal) V c).flushed 10 t
      = ((cfg1.win 10).blk t).view.read (Elt Ideal) (NodeC (V c main_v19) (V c main_v23)) := by
  show (cfg1.win 10).cut (grid1.coords t) ((dat1 V c).after 10 t) = _
  rw [after1_10]
  refine funext fun (y : S2000x3.Idx) => ?_
  obtain ⟨r, a, rfl⟩ : ∃ (r : Fin 2000) (a : Fin 3), y = ix2 r a := ⟨y 0, y 1, eq_ix2 y⟩
  rw [View.read_apply]
  have ht := node_t_lt t
  have h : 2000 * t.val + r.val < 50000 := by have := r.isLt; omega
  have hemb : ((cfg1.win 10).blk t).view.emb (ix2 r a) = (ix2 (⟨2000 * t.val + r.val, h⟩ : Fin 50000) a : S50000x3.Idx) := funext fun b => Fin.ext (by
    match b with
    | ⟨0, _⟩ => show win1_10.index t (0 : Fin 2) * 2000 + 1 * r.val = 2000 * t.val + r.val; rw [(node_idx_rows t).2.2.2.2.2.1]; omega
    | ⟨1, _⟩ => show win1_10.index t (1 : Fin 2) * 3 + 1 * a.val = a.val; rw [(node_idx_rows t).2.2.2.2.2.2]; omega)
  refine ((NodeBlock.out1_10_apply (iblk1 V c 0 t) (iblk1 V c 1 t) (iblk1 V c 2 t) (iblk1 V c 3 t) (iblk1 V c 4 t) (iblk1 V c 5 t) (iblk1 V c 6 t) (iblk1 V c 7 t) (iblk1 V c 8 t) r a).trans ?_).trans
    (congrArg (NodeC (V c main_v19) (V c main_v23)) hemb.symm)
  rw [node_blk2 V c t r h, node_cnt V c t r h]
  rfl

/-- An index of the feature array is in point t's block iff each coordinate is in the block's range on its axis. -/
theorem node_mem_blk9 (t : Fin cfg1.N) (i : S50000x64.Idx) :
    i ∈ ((cfg1.win 9).blk t).view.set ↔ ∀ a : Fin 2, win1_9.index t a * S2000x64.size a ≤ (i a).val ∧ (i a).val < win1_9.index t a * S2000x64.size a + S2000x64.size a := by
  show i ∈ ((View.whole main_v26_0).slice (win1_9.rect t)).set ↔ _
  rw [View.set_slice_whole, Rect.mem_set_unit]
  exact Iff.rfl

/-- An index of the coordinate array is in point t's block iff each coordinate is in the block's range on its axis. -/
theorem node_mem_blk10 (t : Fin cfg1.N) (i : S50000x3.Idx) :
    i ∈ ((cfg1.win 10).blk t).view.set ↔ ∀ a : Fin 2, win1_10.index t a * S2000x3.size a ≤ (i a).val ∧ (i a).val < win1_10.index t a * S2000x3.size a + S2000x3.size a := by
  show i ∈ ((View.whole main_v26_1).slice (win1_10.rect t)).set ↔ _
  rw [View.set_slice_whole, Rect.mem_set_unit]
  exact Iff.rfl

/-- Row n of the feature array lies in the block of point n / 2000: the 25 blocks of 2000 rows cover the 50000 rows. -/
theorem node_cover9 (i : S50000x64.Idx) : ∃ t : Fin cfg1.N, (cfg1.win 9).flush t = true ∧ i ∈ ((cfg1.win 9).blk t).view.set := by
  have hi0 : (i 0).val < 50000 := (i 0).isLt
  have hi1 : (i 1).val < 64 := (i 1).isLt
  have hq : (i 0).val / 2000 < cfg1.N := by rw [node_N]; omega
  refine ⟨⟨(i 0).val / 2000, hq⟩, flush1_9 _, ?_⟩
  rw [node_mem_blk9]
  obtain ⟨-, -, -, -, ⟨e0, e1⟩, -⟩ := node_idx_rows ⟨(i 0).val / 2000, hq⟩
  intro a
  match a with
  | ⟨0, _⟩ =>
    show win1_9.index ⟨(i 0).val / 2000, hq⟩ (0 : Fin 2) * 2000 ≤ (i 0).val ∧ (i 0).val < win1_9.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win1_9.index ⟨(i 0).val / 2000, hq⟩ (1 : Fin 2) * 64 ≤ (i 1).val ∧ (i 1).val < win1_9.index ⟨(i 0).val / 2000, hq⟩ (1 : Fin 2) * 64 + 64
    rw [e1]; omega

/-- Row n of the coordinate array lies in the block of point n / 2000. -/
theorem node_cover10 (i : S50000x3.Idx) : ∃ t : Fin cfg1.N, (cfg1.win 10).flush t = true ∧ i ∈ ((cfg1.win 10).blk t).view.set := by
  have hi0 : (i 0).val < 50000 := (i 0).isLt
  have hi1 : (i 1).val < 3 := (i 1).isLt
  have hq : (i 0).val / 2000 < cfg1.N := by rw [node_N]; omega
  refine ⟨⟨(i 0).val / 2000, hq⟩, flush1_10 _, ?_⟩
  rw [node_mem_blk10]
  obtain ⟨-, -, -, -, -, e0, e1⟩ := node_idx_rows ⟨(i 0).val / 2000, hq⟩
  intro a
  match a with
  | ⟨0, _⟩ =>
    show win1_10.index ⟨(i 0).val / 2000, hq⟩ (0 : Fin 2) * 2000 ≤ (i 0).val ∧ (i 0).val < win1_10.index ⟨(i 0).val / 2000, hq⟩ (0 : Fin 2) * 2000 + 2000
    rw [e0]; show (i 0).val / 2000 * 2000 ≤ (i 0).val ∧ (i 0).val < (i 0).val / 2000 * 2000 + 2000; omega
  | ⟨1, _⟩ =>
    show win1_10.index ⟨(i 0).val / 2000, hq⟩ (1 : Fin 2) * 3 ≤ (i 1).val ∧ (i 1).val < win1_10.index ⟨(i 0).val / 2000, hq⟩ (1 : Fin 2) * 3 + 3
    rw [e1]; omega

/-! ## The two arrays after the region -/

/-- After the node region the feature array holds every node's split-form new features: block t writes rows 2000 t … 2000 t + 1999,
    the 25 blocks cover the array. -/
theorem node_h (c : Dev nD) :
    (dat1 (F := Ideal) V c).arrAt 9 cfg1.N
      = NodeHK (V c main_arg0) (V c main_v16) (V c main_v24) (V c main_v25) (V c main_arg9) (V c main_arg10) (V c main_arg11) :=
  (dat1 (F := Ideal) V c).arrAt_eq_of_cover 9 _ (fun t _ => node_h_flushed V c t) (node_cover9)

/-- After the node region the coordinate array holds every node's summed shifts over its clamped edge count. -/
theorem node_c (c : Dev nD) :
    (dat1 (F := Ideal) V c).arrAt 10 cfg1.N = NodeC (V c main_v19) (V c main_v23) :=
  (dat1 (F := Ideal) V c).arrAt_eq_of_cover 10 _ (fun t _ => node_c_flushed V c t) (node_cover10)

end Cert.KernelIdeal.RegionArr

end
-- ==== Proof.RegionArrEdge.lean ====
/-
  From blocks to arrays in the edge region.

  The region runs over 400 grid points. Point t reads rows 2000 t … 2000 t + 1999 of the six gathered row arrays
  (two endpoint feature arrays of 64 columns, two position and two velocity arrays of 3 columns) and the nine weight
  arrays whole, and writes rows 2000 t … 2000 t + 1999 of the message array and of the shift array. Since row r of the
  block a point writes is the row function of row r of the blocks it reads, and those are rows 2000 t + r of the arrays,
  what each point writes is its rows of ONE whole-array function (every edge's message; every edge's shift); row e of
  an array lies in block e / 2000, so the 400 blocks cover it and the array ends holding that function.
-/
import proofs.«425614_j2473901163257_4_alg».proof.Proof.Gen.KernelIdeal.Frame
import proofs.«425614_j2473901163257_4_alg».proof.Proof.Spec
import proofs.«425614_j2473901163257_4_alg».proof.Proof.EdgeBlock
import Idealize.ShloMosaic.Lib.Pipeline.Value
import Idealize.ShloMosaic.Lib.ValueIdx

noncomputable section

open scoped BigOperators

namespace Cert.KernelIdeal.RegionArr

open Cert.KernelIdeal Cert.KernelIdeal.Gen Cert.Spec Idealize.ShloMosaic Idealize.ShloMosaic.ValueIdx
open Idealize.ShloMosaic.TcCoe Idealize.SL.Sem
open Idealize.ShloMosaic.Pipeline (Dat Cfg Window)

-- the buffer contents when the region is entered: every statement below holds at any such contents
variable (V : (c : Dev nD) → (b : Ref sig .tc) → Buf (Elt Ideal) ((c : Thread nD τ).loc b))

/-! ## The edge region's index maps over its 400 grid points

Point t of the grid reads block (t, 0) of each of the six gathered row arrays and writes block (t, 0) of the two results;
the nine weight arrays are read whole, at block index zero on every axis. -/

/-- The six gathered row arrays and the two results move with the grid: block index (t, 0) at point t. -/
theorem rows_idx : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_15.index t (0 : Fin 2) = t.val ∧ win0_15.index t (1 : Fin 2) = 0)
    ∧ (win0_16.index t (0 : Fin 2) = t.val ∧ win0_16.index t (1 : Fin 2) = 0) :=
  (by decide +kernel : ∀ t : Fin grid0.N, _)

/-- The nine weight arrays stay put: block index zero on every axis at every point. -/
theorem weights_idx : ∀ t : Fin cfg0.N,
    (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ win0_9.index t (0 : Fin 1) = 0
    ∧ (win0_10.index t (0 : Fin 2) = 0 ∧ win0_10.index t (1 : Fin 2) = 0)
    ∧ win0_11.index t (0 : Fin 1) = 0
    ∧ (win0_12.index t (0 : Fin 2) = 0 ∧ win0_12.index t (1 : Fin 2) = 0)
    ∧ win0_13.index t (0 : Fin 1) = 0
    ∧ (win0_14.index t (0 : Fin 2) = 0 ∧ win0_14.index t (1 : Fin 2) = 0) :=
  (by decide +kernel : ∀ t : Fin grid0.N, _)

/-- The grid has 400 points, so row r of block t is a row of the 800000-row arrays. -/
theorem row_lt (t : Fin cfg0.N) (r : Fin 2000) : 2000 * t.val + r.val < 800000 := by
  have hN : cfg0.N = 400 := N_0
  have ht := t.isLt
  have hr := r.isLt
  omega

/-! ## The row blocks: row r of point t's block is row 2000 t + r of the array

A block's coordinate in its array is the block index times the block size plus one times the coordinate inside the block. -/

/-- Row r of point t's block of the first endpoint's features. -/
theorem row_hr (c : Dev nD) (t : Fin cfg0.N) (r : Fin 2000) :
    row (iblk0 (F := Ideal) V c 0 t : Vec Ideal S2000x64 .f32) r = row (V c main_v4 : A 800000 64) ⟨2000 * t.val + r.val, row_lt t r⟩ := by
  funext k
  show (iblk0 (F := Ideal) V c 0 t : Vec Ideal S2000x64 .f32) (ix2 r k) = _
  unfold iblk0
  rw [View.read_apply]
  show (V c main_v4 : A 800000 64) (((cfg0.win 0).blk t).view.emb (ix2 r k)) = _
  refine congrArg (V c main_v4 : A 800000 64) (funext fun a => Fin.ext ?_)
  match a with
  | ⟨0, _⟩ => show win0_0.index t (0 : Fin 2) * 2000 + 1 * r.val = 2000 * t.val + r.val; rw [(rows_idx t).1.1]; omega
  | ⟨1, _⟩ => show win0_0.index t (1 : Fin 2) * 64 + 1 * k.val = k.val; rw [(rows_idx t).1.2]; omega

/-- Row r of point t's block of the second endpoint's features. -/
theorem row_hc (c : Dev nD) (t : Fin cfg0.N) (r : Fin 2000) :
    row (iblk0 (F := Ideal) V c 1 t : Vec Ideal S2000x64 .f32) r = row (V c main_v5 : A 800000 64) ⟨2000 * t.val + r.val, row_lt t r⟩ := by
  funext k
  show (iblk0 (F := Ideal) V c 1 t : Vec Ideal S2000x64 .f32) (ix2 r k) = _
  unfold iblk0
  rw [View.read_apply]
  show (V c main_v5 : A 800000 64) (((cfg0.win 1).blk t).view.emb (ix2 r k)) = _
  refine congrArg (V c main_v5 : A 800000 64) (funext fun a => Fin.ext ?_)
  match a with
  | ⟨0, _⟩ => show win0_1.index t (0 : Fin 2) * 2000 + 1 * r.val = 2000 * t.val + r.val; rw [(rows_idx t).2.1.1]; omega
  | ⟨1, _⟩ => show win0_1.index t (1 : Fin 2) * 64 + 1 * k.val = k.val; rw [(rows_idx t).2.1.2]; omega

/-- Row r of point t's block of the first endpoint's positions. -/
theorem row_cr (c : Dev nD) (t : Fin cfg0.N) (r : Fin 2000) :
    row (iblk0 (F := Ideal) V c 2 t : Vec Ideal S2000x3 .f32) r = row (V c main_v6 : A 800000 3) ⟨2000 * t.val + r.val, row_lt t r⟩ := by
  funext k
  show (iblk0 (F := Ideal) V c 2 t : Vec Ideal S2000x3 .f32) (ix2 r k) = _
  unfold iblk0
  rw [View.read_apply]
  show (V c main_v6 : A 800000 3) (((cfg0.win 2).blk t).view.emb (ix2 r k)) = _
  refine congrArg (V c main_v6 : A 800000 3) (funext fun a => Fin.ext ?_)
  match a with
  | ⟨0, _⟩ => show win0_2.index t (0 : Fin 2) * 2000 + 1 * r.val = 2000 * t.val + r.val; rw [(rows_idx t).2.2.1.1]; omega
  | ⟨1, _⟩ => show win0_2.index t (1 : Fin 2) * 3 + 1 * k.val = k.val; rw [(rows_idx t).2.2.1.2]; omega

/-- Row r of point t's block of the second endpoint's positions. -/
theorem row_cc (c : Dev nD) (t : Fin cfg0.N) (r : Fin 2000) :
    row (iblk0 (F := Ideal) V c 3 t : Vec Ideal S2000x3 .f32) r = row (V c main_v7 : A 800000 3) ⟨2000 * t.val + r.val, row_lt t r⟩ := by
  funext k
  show (iblk0 (F := Ideal) V c 3 t : Vec Ideal S2000x3 .f32) (ix2 r k) = _
  unfold iblk0
  rw [View.read_apply]
  show (V c main_v7 : A 800000 3) (((cfg0.win 3).blk t).view.emb (ix2 r k)) = _
  refine congrArg (V c main_v7 : A 800000 3) (funext fun a => Fin.ext ?_)
  match a with
  | ⟨0, _⟩ => show win0_3.index t (0 : Fin 2) * 2000 + 1 * r.val = 2000 * t.val + r.val; rw [(rows_idx t).2.2.2.1.1]; omega
  | ⟨1, _⟩ => show win0_3.index t (1 : Fin 2) * 3 + 1 * k.val = k.val; rw [(rows_idx t).2.2.2.1.2]; omega

/-- Row r of point t's block of the first endpoint's velocities. -/
theorem row_vr (c : Dev nD) (t : Fin cfg0.N) (r : Fin 2000) :
    row (iblk0 (F := Ideal) V c 4 t : Vec Ideal S2000x3 .f32) r = row (V c main_v8 : A 800000 3) ⟨2000 * t.val + r.val, row_lt t r⟩ := by
  funext k
  show (iblk0 (F := Ideal) V c 4 t : Vec Ideal S2000x3 .f32) (ix2 r k) = _
  unfold iblk0
  rw [View.read_apply]
  show (V c main_v8 : A 800000 3) (((cfg0.win 4).blk t).view.emb (ix2 r k)) = _
  refine congrArg (V c main_v8 : A 800000 3) (funext fun a => Fin.ext ?_)
  match a with
  | ⟨0, _⟩ => show win0_4.index t (0 : Fin 2) * 2000 + 1 * r.val = 2000 * t.val + r.val; rw [(rows_idx t).2.2.2.2.1.1]; omega
  | ⟨1, _⟩ => show win0_4.index t (1 : Fin 2) * 3 + 1 * k.val = k.val; rw [(rows_idx t).2.2.2.2.1.2]; omega

/-- Row r of point t's block of the second endpoint's velocities. -/
theorem row_vc (c : Dev nD) (t : Fin cfg0.N) (r : Fin 2000) :
    row (iblk0 (F := Ideal) V c 5 t : Vec Ideal S2000x3 .f32) r = row (V c main_v9 : A 800000 3) ⟨2000 * t.val + r.val, row_lt t r⟩ := by
  funext k
  show (iblk0 (F := Ideal) V c 5 t : Vec Ideal S2000x3 .f32) (ix2 r k) = _
  unfold iblk0
  rw [View.read_apply]
  show (V c main_v9 : A 800000 3) (((cfg0.win 5).blk t).view.emb (ix2 r k)) = _
  refine congrArg (V c main_v9 : A 800000 3) (funext fun a => Fin.ext ?_)
  match a with
  | ⟨0, _⟩ => show win0_5.index t (0 : Fin 2) * 2000 + 1 * r.val = 2000 * t.val + r.val; rw [(rows_idx t).2.2.2.2.2.1.1]; omega
  | ⟨1, _⟩ => show win0_5.index t (1 : Fin 2) * 3 + 1 * k.val = k.val; rw [(rows_idx t).2.2.2.2.2.1.2]; omega

/-! ## The weight arrays: every point's block is the whole array -/

/-- The first endpoint's rows of the first layer's weights. -/
theorem whole_wr (c : Dev nD) (t : Fin cfg0.N) :
    (iblk0 (F := Ideal) V c 6 t : Vec Ideal S64x64 .f32) = (V c main_v10 : A 64 64) := by
  funext y
  unfold iblk0
  rw [View.read_apply]
  show (V c main_v10 : A 64 64) (((cfg0.win 6).blk t).view.emb y) = _
  refine congrArg (V c main_v10 : A 64 64) (funext fun a => Fin.ext ?_)
  match a with
  | ⟨0, _⟩ => show win0_6.index t (0 : Fin 2) * 64 + 1 * (y 0).val = (y 0).val; rw [(weights_idx t).1.1]; omega
  | ⟨1, _⟩ => show win0_6.index t (1 : Fin 2) * 64 + 1 * (y 1).val = (y 1).val; rw [(weights_idx t).1.2]; omega

/-- The second endpoint's rows of the first layer's weights. -/
theorem whole_wc (c : Dev nD) (t : Fin cfg0.N) :
    (iblk0 (F := Ideal) V c 7 t : Vec Ideal S64x64 .f32) = (V c main_v11 : A 64 64) := by
  funext y
  unfold iblk0
  rw [View.read_apply]
  show (V c main_v11 : A 64 64) (((cfg0.win 7).blk t).view.emb y) = _
  refine congrArg (V c main_v11 : A 64 64) (funext fun a => Fin.ext ?_)
  match a with
  | ⟨0, _⟩ => show win0_7.index t (0 : Fin 2) * 64 + 1 * (y 0).val = (y 0).val; rw [(weights_idx t).2.1.1]; omega
  | ⟨1, _⟩ => show win0_7.index t (1 : Fin 2) * 64 + 1 * (y 1).val = (y 1).val; rw [(weights_idx t).2.1.2]; omega

/-- The radial features' rows of the first layer's weights. -/
theorem whole_wrad (c : Dev nD) (t : Fin cfg0.N) :
    (iblk0 (F := Ideal) V c 8 t : Vec Ideal S3x64 .f32) = (V c main_v12 : A 3 64) := by
  funext y
  unfold iblk0
  rw [View.read_apply]
  show (V c main_v12 : A 3 64) (((cfg0.win 8).blk t).view.emb y) = _
  refine congrArg (V c main_v12 : A 3 64) (funext fun a => Fin.ext ?_)
  match a with
  | ⟨0, _⟩ => show win0_8.index t (0 : Fin 2) * 3 + 1 * (y 0).val = (y 0).val; rw [(weights_idx t).2.2.1.1]; omega
  | ⟨1, _⟩ => show win0_8.index t (1 : Fin 2) * 64 + 1 * (y 1).val = (y 1).val; rw [(weights_idx t).2.2.1.2]; omega

/-- The first layer's bias. -/
theorem whole_b1 (c : Dev nD) (t : Fin cfg0.N) :
    (iblk0 (F := Ideal) V c 9 t : Vec Ideal S64 .f32) = (V c main_arg5 : V1 64) := by
  funext y
  unfold iblk0
  rw [View.read_apply]
  show (V c main_arg5 : V1 64) (((cfg0.win 9).blk t).view.emb y) = _
  refine congrArg (V c main_arg5 : V1 64) (funext fun a => Fin.ext ?_)
  match a with
  | ⟨0, _⟩ => show win0_9.index t (0 : Fin 1) * 64 + 1 * (y 0).val = (y 0).val; rw [(weights_idx t).2.2.2.1]; omega

/-- The second layer's weights. -/
theorem whole_w2 (c : Dev nD) (t : Fin cfg0.N) :
    (iblk0 (F := Ideal) V c 10 t : Vec Ideal S64x64 .f32) = (V c main_arg6 : A 64 64) := by
  funext y
  unfold iblk0
  rw [View.read_apply]
  show (V c main_arg6 : A 64 64) (((cfg0.win 10).blk t).view.emb y) = _
  refine congrArg (V c main_arg6 : A 64 64) (funext fun a => Fin.ext ?_)
  match a with
  | ⟨0, _⟩ => show win0_10.index t (0 : Fin 2) * 64 + 1 * (y 0).val = (y 0).val; rw [(weights_idx t).2.2.2.2.1.1]; omega
  | ⟨1, _⟩ => show win0_10.index t (1 : Fin 2) * 64 + 1 * (y 1).val = (y 1).val; rw [(weights_idx t).2.2.2.2.1.2]; omega

/-- The second layer's bias. -/
theorem whole_b2 (c : Dev nD) (t : Fin cfg0.N) :
    (iblk0 (F := Ideal) V c 11 t : Vec Ideal S64 .f32) = (V c main_arg7 : V1 64) := by
  funext y
  unfold iblk0
  rw [View.read_apply]
  show (V c main_arg7 : V1 64) (((cfg0.win 11).blk t).view.emb y) = _
  refine congrArg (V c main_arg7 : V1 64) (funext fun a => Fin.ext ?_)
  match a with
  | ⟨0, _⟩ => show win0_11.index t (0 : Fin 1) * 64 + 1 * (y 0).val = (y 0).val; rw [(weights_idx t).2.2.2.2.2.1]; omega

/-- The gate layer's weights. -/
theorem whole_cw1 (c : Dev nD) (t : Fin cfg0.N) :
    (iblk0 (F := Ideal) V c 12 t : Vec Ideal S64x64 .f32) = (V c main_arg12 : A 64 64) := by
  funext y
  unfold iblk0
  rw [View.read_apply]
  show (V c main_arg12 : A 64 64) (((cfg0.win 12).blk t).view.emb y) = _
  refine congrArg (V c main_arg12 : A 64 64) (funext fun a => Fin.ext ?_)
  match a with
  | ⟨0, _⟩ => show win0_12.index t (0 : Fin 2) * 64 + 1 * (y 0).val = (y 0).val; rw [(weights_idx t).2.2.2.2.2.2.1.1]; omega
  | ⟨1, _⟩ => show win0_12.index t (1 : Fin 2) * 64 + 1 * (y 1).val = (y 1).val; rw [(weights_idx t).2.2.2.2.2.2.1.2]; omega

/-- The gate layer's bias. -/
theorem whole_cb1 (c : Dev nD) (t : Fin cfg0.N) :
    (iblk0 (F := Ideal) V c 13 t : Vec Ideal S64 .f32) = (V c main_arg13 : V1 64) := by
  funext y
  unfold iblk0
  rw [View.read_apply]
  show (V c main_arg13 : V1 64) (((cfg0.win 13).blk t).view.emb y) = _
  refine congrArg (V c main_arg13 : V1 64) (funext fun a => Fin.ext ?_)
  match a with
  | ⟨0, _⟩ => show win0_13.index t (0 : Fin 1) * 64 + 1 * (y 0).val = (y 0).val; rw [(weights_idx t).2.2.2.2.2.2.2.1]; omega

/-- The gate's output column. -/
theorem whole_cw (c : Dev nD) (t : Fin cfg0.N) :
    (iblk0 (F := Ideal) V c 14 t : Vec Ideal S64x1 .f32) = (V c main_arg14 : A 64 1) := by
  funext y
  unfold iblk0
  rw [View.read_apply]
  show (V c main_arg14 : A 64 1) (((cfg0.win 14).blk t).view.emb y) = _
  refine congrArg (V c main_arg14 : A 64 1) (funext fun a => Fin.ext ?_)
  match a with
  | ⟨0, _⟩ => show win0_14.index t (0 : Fin 2) * 64 + 1 * (y 0).val = (y 0).val; rw [(weights_idx t).2.2.2.2.2.2.2.2.1]; omega
  | ⟨1, _⟩ => show win0_14.index t (1 : Fin 2) * 1 + 1 * (y 1).val = (y 1).val; rw [(weights_idx t).2.2.2.2.2.2.2.2.2]; omega

/-! ## What a point writes back: its rows of the whole-array functions -/

/-- Point t writes back, as its block of the message array, rows 2000 t … 2000 t + 1999 of every edge's message. -/
theorem flushed_m (c : Dev nD) (t : Fin cfg0.N) :
    (dat0 (F := Ideal) V c).flushed 15 t = ((cfg0.win 15).blk t).view.read (Elt Ideal)
      (EdgeMK (V c main_v4) (V c main_v5) (V c main_v6) (V c main_v7) (V c main_v8) (V c main_v9)
        (V c main_v10) (V c main_v11) (V c main_v12) (V c main_arg5) (V c main_arg6) (V c main_arg7)) := by
  show (cfg0.win 15).cut (grid0.coords t) ((dat0 V c).after 15 t) = _
  rw [after0_15]
  funext y
  obtain ⟨r, j, rfl⟩ : ∃ (r : Fin 2000) (j : Fin 64), y = ix2 r j := ⟨y 0, y 1, eq_ix2 (n0 := 2000) (n1 := 64) y⟩
  rw [View.read_apply]
  -- where the block's element (r, j) sits in the array: row 2000 t + r, column j
  have hemb : ((cfg0.win 15).blk t).view.emb (ix2 r j) = (ix2 ⟨2000 * t.val + r.val, row_lt t r⟩ j : S800000x64.Idx) := by
    funext a; apply Fin.ext
    match a with
    | ⟨0, _⟩ => show win0_15.index t (0 : Fin 2) * 2000 + 1 * r.val = 2000 * t.val + r.val; rw [(rows_idx t).2.2.2.2.2.2.1.1]; omega
    | ⟨1, _⟩ => show win0_15.index t (1 : Fin 2) * 64 + 1 * j.val = j.val; rw [(rows_idx t).2.2.2.2.2.2.1.2]; omega
  show out0_15 (F := Ideal) (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (iblk0 V c 10 t) (iblk0 V c 11 t)
      (iblk0 V c 12 t) (iblk0 V c 13 t) (iblk0 V c 14 t) (ix2 r j)
    = EdgeMK (V c main_v4) (V c main_v5) (V c main_v6) (V c main_v7) (V c main_v8) (V c main_v9)
        (V c main_v10) (V c main_v11) (V c main_v12) (V c main_arg5) (V c main_arg6) (V c main_arg7)
        (((cfg0.win 15).blk t).view.emb (ix2 r j))
  rw [hemb]
  refine (EdgeBlock.out0_15_apply _ _ _ _ _ _ _ _ _ _ _ _ _ _ _ r j).trans ?_
  rw [row_hr V c t r, row_hc V c t r, row_cr V c t r, row_cc V c t r, row_vr V c t r, row_vc V c t r,
    whole_wr V c t, whole_wc V c t, whole_wrad V c t, whole_b1 V c t, whole_w2 V c t, whole_b2 V c t]
  rfl

/-- Point t writes back, as its block of the shift array, rows 2000 t … 2000 t + 1999 of every edge's shift; a row of the
    whole message array is that edge's message. -/
theorem flushed_t (c : Dev nD) (t : Fin cfg0.N) :
    (dat0 (F := Ideal) V c).flushed 16 t = ((cfg0.win 16).blk t).view.read (Elt Ideal)
      (EdgeT (EdgeMK (V c main_v4) (V c main_v5) (V c main_v6) (V c main_v7) (V c main_v8) (V c main_v9)
          (V c main_v10) (V c main_v11) (V c main_v12) (V c main_arg5) (V c main_arg6) (V c main_arg7))
        (V c main_v6) (V c main_v7) (V c main_arg12) (V c main_arg13) (V c main_arg14)) := by
  show (cfg0.win 16).cut (grid0.coords t) ((dat0 V c).after 16 t) = _
  rw [after0_16]
  funext y
  obtain ⟨r, a, rfl⟩ : ∃ (r : Fin 2000) (a : Fin 3), y = ix2 r a := ⟨y 0, y 1, eq_ix2 (n0 := 2000) (n1 := 3) y⟩
  rw [View.read_apply]
  -- where the block's element (r, a) sits in the array: row 2000 t + r, column a
  have hemb : ((cfg0.win 16).blk t).view.emb (ix2 r a) = (ix2 ⟨2000 * t.val + r.val, row_lt t r⟩ a : S800000x3.Idx) := by
    funext b; apply Fin.ext
    match b with
    | ⟨0, _⟩ => show win0_16.index t (0 : Fin 2) * 2000 + 1 * r.val = 2000 * t.val + r.val; rw [(rows_idx t).2.2.2.2.2.2.2.1]; omega
    | ⟨1, _⟩ => show win0_16.index t (1 : Fin 2) * 3 + 1 * a.val = a.val; rw [(rows_idx t).2.2.2.2.2.2.2.2]; omega
  show out0_16 (F := Ideal) (iblk0 V c 0 t) (iblk0 V c 1 t) (iblk0 V c 2 t) (iblk0 V c 3 t) (iblk0 V c 4 t) (iblk0 V c 5 t)
      (iblk0 V c 6 t) (iblk0 V c 7 t) (iblk0 V c 8 t) (iblk0 V c 9 t) (iblk0 V c 10 t) (iblk0 V c 11 t)
      (iblk0 V c 12 t) (iblk0 V c 13 t) (iblk0 V c 14 t) (ix2 r a)
    = EdgeT (EdgeMK (V c main_v4) (V c main_v5) (V c main_v6) (V c main_v7) (V c main_v8) (V c main_v9)
          (V c main_v10) (V c main_v11) (V c main_v12) (V c main_arg5) (V c main_arg6) (V c main_arg7))
        (V c main_v6) (V c main_v7) (V c main_arg12) (V c main_arg13) (V c main_arg14)
        (((cfg0.win 16).blk t).view.emb (ix2 r a))
  rw [hemb]
  refine (EdgeBlock.out0_16_apply _ _ _ _ _ _ _ _ _ _ _ _ _ _ _ r a).trans ?_
  rw [row_hr V c t r, row_hc V c t r, row_cr V c t r, row_cc V c t r, row_vr V c t r, row_vc V c t r,
    whole_wr V c t, whole_wc V c t, whole_wrad V c t, whole_b1 V c t, whole_w2 V c t, whole_b2 V c t,
    whole_cw1 V c t, whole_cb1 V c t, whole_cw V c t]
  rfl

/-! ## The 400 blocks cover the arrays: row e is in block e / 2000 -/

/-- An index of the message array is in point t's block iff each coordinate is in the block's range on its axis. -/
theorem mem_blk_m (t : Fin cfg0.N) (i : S800000x64.Idx) :
    i ∈ ((cfg0.win 15).blk t).view.set ↔ ∀ a : Fin 2, win0_15.index t a * S2000x64.size a ≤ (i a).val ∧ (i a).val < win0_15.index t a * S2000x64.size a + S2000x64.size a := by
  show i ∈ ((View.whole main_v13_0).slice (win0_15.rect t)).set ↔ _
  rw [View.set_slice_whole, Rect.mem_set_unit]
  exact Iff.rfl

/-- An index of the shift array is in point t's block iff each coordinate is in the block's range on its axis. -/
theorem mem_blk_t (t : Fin cfg0.N) (i : S800000x3.Idx) :
    i ∈ ((cfg0.win 16).blk t).view.set ↔ ∀ a : Fin 2, win0_16.index t a * S2000x3.size a ≤ (i a).val ∧ (i a).val < win0_16.index t a * S2000x3.size a + S2000x3.size a := by
  show i ∈ ((View.whole main_v13_1).slice (win0_16.rect t)).set ↔ _
  rw [View.set_slice_whole, Rect.mem_set_unit]
  exact Iff.rfl

/-- Every index of the message array is in the block of the point its row names. -/
theorem covered_m (i : S800000x64.Idx) :
    ∃ t : Fin cfg0.N, (cfg0.win 15).flush t = true ∧ i ∈ ((cfg0.win 15).blk t).view.set := by
  have hN : cfg0.N = 400 := N_0
  have hi0 : (i 0).val < 800000 := (i 0).isLt
  have hi1 : (i 1).val < 64 := (i 1).isLt
  have ht : (i 0).val / 2000 < cfg0.N := by omega
  refine ⟨⟨(i 0).val / 2000, ht⟩, flush0_15 _, ?_⟩
  rw [mem_blk_m]
  have e0 : win0_15.index ⟨(i 0).val / 2000, ht⟩ (0 : Fin 2) = (i 0).val / 2000 := (rows_idx ⟨(i 0).val / 2000, ht⟩).2.2.2.2.2.2.1.1
  have e1 : win0_15.index ⟨(i 0).val / 2000, ht⟩ (1 : Fin 2) = 0 := (rows_idx ⟨(i 0).val / 2000, ht⟩).2.2.2.2.2.2.1.2
  intro a
  match a with
  | ⟨0, _⟩ =>
    show win0_15.index ⟨(i 0).val / 2000, ht⟩ (0 : Fin 2) * 2000 ≤ (i 0).val ∧ (i 0).val < win0_15.index ⟨(i 0).val / 2000, ht⟩ (0 : Fin 2) * 2000 + 2000
    rw [e0]; omega
  | ⟨1, _⟩ =>
    show win0_15.index ⟨(i 0).val / 2000, ht⟩ (1 : Fin 2) * 64 ≤ (i 1).val ∧ (i 1).val < win0_15.index ⟨(i 0).val / 2000, ht⟩ (1 : Fin 2) * 64 + 64
    rw [e1]; omega

/-- Every index of the shift array is in the block of the point its row names. -/
theorem covered_t (i : S800000x3.Idx) :
    ∃ t : Fin cfg0.N, (cfg0.win 16).flush t = true ∧ i ∈ ((cfg0.win 16).blk t).view.set := by
  have hN : cfg0.N = 400 := N_0
  have hi0 : (i 0).val < 800000 := (i 0).isLt
  have hi1 : (i 1).val < 3 := (i 1).isLt
  have ht : (i 0).val / 2000 < cfg0.N := by omega
  refine ⟨⟨(i 0).val / 2000, ht⟩, flush0_16 _, ?_⟩
  rw [mem_blk_t]
  have e0 : win0_16.index ⟨(i 0).val / 2000, ht⟩ (0 : Fin 2) = (i 0).val / 2000 := (rows_idx ⟨(i 0).val / 2000, ht⟩).2.2.2.2.2.2.2.1
  have e1 : win0_16.index ⟨(i 0).val / 2000, ht⟩ (1 : Fin 2) = 0 := (rows_idx ⟨(i 0).val / 2000, ht⟩).2.2.2.2.2.2.2.2
  intro a
  match a with
  | ⟨0, _⟩ =>
    show win0_16.index ⟨(i 0).val / 2000, ht⟩ (0 : Fin 2) * 2000 ≤ (i 0).val ∧ (i 0).val < win0_16.index ⟨(i 0).val / 2000, ht⟩ (0 : Fin 2) * 2000 + 2000
    rw [e0]; omega
  | ⟨1, _⟩ =>
    show win0_16.index ⟨(i 0).val / 2000, ht⟩ (1 : Fin 2) * 3 ≤ (i 1).val ∧ (i 1).val < win0_16.index ⟨(i 0).val / 2000, ht⟩ (1 : Fin 2) * 3 + 3
    rw [e1]; omega

/-! ## The arrays after the region -/

/-- The message array after the edge region is every edge's message. -/
theorem edge_m_arr (c : Dev nD) :
    (dat0 (F := Ideal) V c).arrAt 15 cfg0.N
      = EdgeMK (V c main_v4) (V c main_v5) (V c main_v6) (V c main_v7) (V c main_v8) (V c main_v9)
          (V c main_v10) (V c main_v11) (V c main_v12) (V c main_arg5) (V c main_arg6) (V c main_arg7) :=
  (dat0 (F := Ideal) V c).arrAt_eq_of_cover 15 _ (fun t _ => flushed_m V c t) covered_m

/-- The shift array after the edge region is every edge's shift. -/
theorem edge_t_arr (c : Dev nD) :
    (dat0 (F := Ideal) V c).arrAt 16 cfg0.N
      = EdgeT (EdgeMK (V c main_v4) (V c main_v5) (V c main_v6) (V c main_v7) (V c main_v8) (V c main_v9)
          (V c main_v10) (V c main_v11) (V c main_v12) (V c main_arg5) (V c main_arg6) (V c main_arg7))
          (V c main_v6) (V c main_v7) (V c main_arg12) (V c main_arg13) (V c main_arg14) :=
  (dat0 (F := Ideal) V c).arrAt_eq_of_cover 16 _ (fun t _ => flushed_t V c t) covered_t

end Cert.KernelIdeal.RegionArr

end
-- ==== Proof.RegionArr.lean ====
import proofs.«425614_j2473901163257_4_alg».proof.Proof.Gen.KernelIdeal.Frame
import proofs.«425614_j2473901163257_4_alg».proof.Proof.Spec
import proofs.«425614_j2473901163257_4_alg».proof.Proof.EdgeBlock
import proofs.«425614_j2473901163257_4_alg».proof.Proof.NodeBlock
import proofs.«425614_j2473901163257_4_alg».proof.Proof.RegionArrNode
import proofs.«425614_j2473901163257_4_alg».proof.Proof.RegionArrEdge
import Idealize.ShloMosaic.Lib.Pipeline.Value
import Idealize.ShloMosaic.Lib.ValueIdx

noncomputable section

open scoped BigOperators

namespace Cert.KernelIdeal.RegionArr

open Cert.KernelIdeal Cert.KernelIdeal.Gen Cert.Spec Idealize.ShloMosaic Idealize.ShloMosaic.ValueIdx
open Idealize.ShloMosaic.TcCoe Idealize.SL.Sem
open Idealize.ShloMosaic.Pipeline (Dat Cfg Window)

-- the TensorCore's buffer contents when a region is entered: every statement below holds at any such contents
variable (V : (c : Dev nD) → (b : Ref sig .tc) → Buf (Elt Ideal) ((c : Thread nD τ).loc b))

/-- After the edge region the message array holds every edge's split-form message of the six gathered row arrays
    and the weights as the region found them: block t of the grid writes rows 2000 t … 2000 t + 1999, the 400 blocks cover the array. -/
theorem edge_m (c : Dev nD) :
    (dat0 (F := Ideal) V c).arrAt 15 cfg0.N
      = EdgeMK (V c main_v4) (V c main_v5) (V c main_v6) (V c main_v7) (V c main_v8) (V c main_v9)
          (V c main_v10) (V c main_v11) (V c main_v12) (V c main_arg5) (V c main_arg6) (V c main_arg7) :=
  edge_m_arr V c

/-- After the edge region the shift array holds every edge's shift, from that edge's message. -/
theorem edge_t (c : Dev nD) :
    (dat0 (F := Ideal) V c).arrAt 16 cfg0.N
      = EdgeT (EdgeMK (V c main_v4) (V c main_v5) (V c main_v6) (V c main_v7) (V c main_v8) (V c main_v9)
          (V c main_v10) (V c main_v11) (V c main_v12) (V c main_arg5) (V c main_arg6) (V c main_arg7))
          (V c main_v6) (V c main_v7) (V c main_arg12) (V c main_arg13) (V c main_arg14) :=
  edge_t_arr V c

end Cert.KernelIdeal.RegionArr

end
-- ==== Proof.HostDefs.lean ====
/-
  The host side of the kernel's program, as terms: how @main makes each array the two pallas_calls read.
  The edge list's two rows are sliced out and flattened (`rowIdx`, `colIdx`); a node array is read at an index vector
  by `jnp.take` in its default mode (`take64`, `take3`): negative indices wrap once (`startIdx`), the rows are gathered,
  and a row whose wrapped index is outside [0, 49999] is overwritten by the fill pattern; the per-node sums are scatter-adds
  of the per-edge arrays into zeros at the raw row indices (`scat64`, `scat3`, `scat1`); the joined weight matrices are
  sliced into their row ranges.
-/
import proofs.«425614_j2473901163257_4_alg».proof.Proof.Gen.KernelIdeal

noncomputable section

namespace Cert.KernelIdeal.HostK

open Cert.KernelIdeal Cert.KernelIdeal.Gen Idealize.ShloMosaic

variable {F : FTy → Type} [FloatOps F]

/-- Row 0 of the edge list, flattened: each edge's receiving node. -/
def rowIdx (x3 : IVec S2x800000 32) : IVec S800000 32 :=
  shapeCast S800000 (extractStridedSlice S1x800000 ![0, 0] x3 slices_S2x800000_S1x800000_0_0) shapeCasts_S1x800000_S800000
/-- Row 1 of the edge list, flattened: each edge's sending node. -/
def colIdx (x3 : IVec S2x800000 32) : IVec S800000 32 :=
  shapeCast S800000 (extractStridedSlice S1x800000 ![1, 0] x3 slices_S2x800000_S1x800000_1_0) shapeCasts_S1x800000_S800000

/-- The start indices of a take: a negative index wrapped once by the axis length 50000, as a column. -/
def startIdx (r : IVec S800000 32) : IVec S800000x1 32 :=
  broadcastInDim S800000x1 ![0] bcast_S800000_S800000x1_0
    (select (cmpi .slt r (broadcastInDim S800000 ![] bcast_S_S800000 (constantI S_ 32 0#32)))
      (addi r (broadcastInDim S800000 ![] bcast_S_S800000 (constantI S_ 32 50000#32))) r)

/-- Which rows of a take are in range: 0 ≤ start index ≤ 49999, per edge. -/
def inRange (s : IVec S800000x1 32) : IVec S800000 1 :=
  Host.reduce IntOp.andi
    (andi (cmpi .sge s (broadcastInDim S800000x1 ![] bcast_S_S800000x1 (constantI S_ 32 0#32)))
      (cmpi .sle s (broadcastInDim S800000x1 ![0, 1] bcast_S1x1_S800000x1_0_1 (broadcastInDim S1x1 ![1] bcast_S1_S1x1_1 (constantI S1 32 49999#32)))))
    (constantI S_ 1 1#1) reducesTo_S800000x1_S800000_d1 h_S_

/-- `jnp.take(x, r, axis=0)` of a 64-column node array. -/
def take64 (x : FVec F S50000x64 .f32) (r : IVec S800000 32) : FVec F S800000x64 .f32 :=
  select (broadcastInDim S800000x64 ![0] bcast_S800000_S800000x64_0 (inRange (startIdx r)))
    (Host.gather gather_S50000x64_S800000x1_S800000x64_1_0_n_n_0_1_164 x (startIdx r))
    (broadcastInDim S800000x64 ![] bcast_S_S800000x64 (constant S_ .f32 0x7FC00000#32))
/-- `jnp.take(x, r, axis=0)` of a 3-column node array. -/
def take3 (x : FVec F S50000x3 .f32) (r : IVec S800000 32) : FVec F S800000x3 .f32 :=
  select (broadcastInDim S800000x3 ![0] bcast_S800000_S800000x3_0 (inRange (startIdx r)))
    (Host.gather gather_S50000x3_S800000x1_S800000x3_1_0_n_n_0_1_13 x (startIdx r))
    (broadcastInDim S800000x3 ![] bcast_S_S800000x3 (constant S_ .f32 0x7FC00000#32))

/-- The raw row indices as a column: where a scatter-add puts each edge's row. -/
def scatIdx (r : IVec S800000 32) : IVec S800000x1 32 := broadcastInDim S800000x1 ![0] bcast_S800000_S800000x1_0 r

/-- Per-node sum of a 64-column per-edge array. -/
def scat64 (r : IVec S800000 32) (u : FVec F S800000x64 .f32) : FVec F S50000x64 .f32 :=
  Host.scatterAdd scatter_S50000x64_S800000x1_S800000x64_1_0_0_1
    (broadcastInDim S50000x64 ![] bcast_S_S50000x64 (constant S_ .f32 0x00000000#32)) (scatIdx r) u
/-- Per-node sum of a 3-column per-edge array. -/
def scat3 (r : IVec S800000 32) (u : FVec F S800000x3 .f32) : FVec F S50000x3 .f32 :=
  Host.scatterAdd scatter_S50000x3_S800000x1_S800000x3_1_0_0_1
    (broadcastInDim S50000x3 ![] bcast_S_S50000x3 (constant S_ .f32 0x00000000#32)) (scatIdx r) u
/-- Per-node edge count: the per-node sum of a column of ones. -/
def scat1 (r : IVec S800000 32) : FVec F S50000x1 .f32 :=
  Host.scatterAdd scatter_S50000x1_S800000x1_S800000x1_1_0_0_1
    (broadcastInDim S50000x1 ![] bcast_S_S50000x1 (constant S_ .f32 0x00000000#32)) (scatIdx r)
    (broadcastInDim S800000x1 ![] bcast_S_S800000x1 (constant S_ .f32 0x3F800000#32))

/-- Rows 0–63, 64–127 and 128–130 of the first edge layer's joined weight matrix. -/
def w1r (x4 : FVec F S131x64 .f32) : FVec F S64x64 .f32 := extractStridedSlice S64x64 ![0, 0] x4 slices_S131x64_S64x64_0_0
def w1c (x4 : FVec F S131x64 .f32) : FVec F S64x64 .f32 := extractStridedSlice S64x64 ![64, 0] x4 slices_S131x64_S64x64_64_0
def w1rad (x4 : FVec F S131x64 .f32) : FVec F S3x64 .f32 := extractStridedSlice S3x64 ![128, 0] x4 slices_S131x64_S3x64_128_0
/-- Rows 0–63 and 64–127 of the first node layer's joined weight matrix. -/
def nwh (x8 : FVec F S128x64 .f32) : FVec F S64x64 .f32 := extractStridedSlice S64x64 ![0, 0] x8 slices_S128x64_S64x64_0_0
def nwa (x8 : FVec F S128x64 .f32) : FVec F S64x64 .f32 := extractStridedSlice S64x64 ![64, 0] x8 slices_S128x64_S64x64_64_0

end Cert.KernelIdeal.HostK

end
-- ==== Proof.HostVals8.lean ====
import proofs.«425614_j2473901163257_4_alg».proof.Proof.Gen.KernelIdeal.Frame
import proofs.«425614_j2473901163257_4_alg».proof.Proof.HostDefs
import Idealize.ShloMosaic.Lib.StableHlo.Run
import Idealize.ShloMosaic.Lib.ValueIdx

noncomputable section

open scoped BigOperators

namespace Cert.KernelIdeal.HostVals8

open Cert.KernelIdeal Cert.KernelIdeal.Gen Idealize.ShloMosaic Idealize.ShloMosaic.ValueIdx
open Cert.KernelIdeal.HostK Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-! ## Reading a stretch of host operations: general facts, at any contents before the stretch -/

section General

variable {F : FTy → Type} [FloatOps F]

/-- A value stored at a buffer's type and read back at the same type is unchanged: the two transports along the
    buffer's type equation cancel. -/
theorem ofBuf_toBuf {T : BufTy} (x : TRef sig T) (v : T.Contents (Elt F)) : x.ofBuf (x.toBuf v) = v := by
  obtain ⟨r, h, _, _⟩ := x; subst h; rfl

/-- A stretch none of whose operations writes buffer `b` leaves `b`'s contents as they were. -/
theorem after_skip (ops : List (HloOp τ sig (Elt F))) (V : Valuation τ sig (Elt F)) (b : Ref sig .tc)
    (h : ops.Forall fun op => Proc.devRef (τ := τ) .tc b ∉ op.writes) :
    StableHlo.after ops V (Proc.devRef .tc b) = V (Proc.devRef .tc b) :=
  StableHlo.after_of_forall_not_mem ops V (List.forall_iff_forall_mem.mp h)

/-- "No operation of the stretch writes this buffer": each operation writes exactly its result buffer, and the
    references are told apart by deciding. -/
macro "not_written" : tactic => `(tactic| (
  simp only [hostOps0, hostOps0_1, hostOps0_2, hostOps0_3, hostOps0_4, hostOps0_5, hostOps0_6, hostOps0_7, hostOps1,
    List.Forall, StableHlo.nullary_writes, StableHlo.unary_writes, StableHlo.binary_writes, StableHlo.ternary_writes,
    StableHlo.reshape_writes, Finset.mem_singleton]
  (repeat' apply And.intro) <;> (apply StableHlo.devRef_ne_of_ne; decide)))

/-- Walks a buffer's contents back through every stretch that does not write it, stopping at the first that does
    (or at the launch memory). -/
macro "walk_back" : tactic => `(tactic| repeat (refine Eq.trans (after_skip _ _ _ ?_) ?_; · not_written))

/-! ### The first stretch: the edge list's two rows, sliced out and flattened -/

/-- After the first stretch the row-index vector is row 0 of the edge list, flattened. -/
theorem ops0_v1 (V : Valuation τ sig (Elt F)) :
    StableHlo.after (hostOps0 (F := F)) V (Proc.devRef .tc main_v1) = rowIdx (V (Proc.devRef .tc main_arg3)) := by
  after_results; rfl
/-- After the first stretch the column-index vector is row 1 of the edge list, flattened. -/
theorem ops0_v3 (V : Valuation τ sig (Elt F)) :
    StableHlo.after (hostOps0 (F := F)) V (Proc.devRef .tc main_v3) = colIdx (V (Proc.devRef .tc main_arg3)) := by
  after_results; rfl

/-! ### The six takes: each stretch is one `jnp.take` of a node array at an index vector — wrap a negative index once,
    gather the rows, overwrite the rows whose wrapped index is out of range by the fill pattern. The stretch's
    result is the operations' term over the contents of the node array and of the index vector before it. -/

/-- The take of the 64-column node array at the row indices. -/
theorem take_v4 (V : Valuation τ sig (Elt F)) :
    StableHlo.after (hostOps0_1 (F := F)) V (Proc.devRef .tc main_v4)
      = take64 (F := F) (V (Proc.devRef .tc main_arg0)) (V (Proc.devRef .tc main_v1)) := by
  after_results_simp
  simp only [ofBuf_toBuf]
  simp only [TRef.ofBuf, TRef.toBuf, cast_eq]
  rfl

/-- The take of the 64-column node array at the column indices. -/
theorem take_v5 (V : Valuation τ sig (Elt F)) :
    StableHlo.after (hostOps0_2 (F := F)) V (Proc.devRef .tc main_v5)
      = take64 (F := F) (V (Proc.devRef .tc main_arg0)) (V (Proc.devRef .tc main_v3)) := by
  after_results_simp
  simp only [ofBuf_toBuf]
  simp only [TRef.ofBuf, TRef.toBuf, cast_eq]
  rfl

/-- The take of the first 3-column node array at the row indices. -/
theorem take_v6 (V : Valuation τ sig (Elt F)) :
    StableHlo.after (hostOps0_3 (F := F)) V (Proc.devRef .tc main_v6)
      = take3 (F := F) (V (Proc.devRef .tc main_arg1)) (V (Proc.devRef .tc main_v1)) := by
  after_results_simp
  simp only [ofBuf_toBuf]
  simp only [TRef.ofBuf, TRef.toBuf, cast_eq]
  rfl

/-- The take of the first 3-column node array at the column indices. -/
theorem take_v7 (V : Valuation τ sig (Elt F)) :
    StableHlo.after (hostOps0_4 (F := F)) V (Proc.devRef .tc main_v7)
      = take3 (F := F) (V (Proc.devRef .tc main_arg1)) (V (Proc.devRef .tc main_v3)) := by
  after_results_simp
  simp only [ofBuf_toBuf]
  simp only [TRef.ofBuf, TRef.toBuf, cast_eq]
  rfl

/-- The take of the second 3-column node array at the row indices. -/
theorem take_v8 (V : Valuation τ sig (Elt F)) :
    StableHlo.after (hostOps0_5 (F := F)) V (Proc.devRef .tc main_v8)
      = take3 (F := F) (V (Proc.devRef .tc main_arg2)) (V (Proc.devRef .tc main_v1)) := by
  after_results_simp
  simp only [ofBuf_toBuf]
  simp only [TRef.ofBuf, TRef.toBuf, cast_eq]
  rfl

/-- The take of the second 3-column node array at the column indices. -/
theorem take_v9 (V : Valuation τ sig (Elt F)) :
    StableHlo.after (hostOps0_6 (F := F)) V (Proc.devRef .tc main_v9)
      = take3 (F := F) (V (Proc.devRef .tc main_arg2)) (V (Proc.devRef .tc main_v3)) := by
  after_results_simp
  simp only [ofBuf_toBuf]
  simp only [TRef.ofBuf, TRef.toBuf, cast_eq]
  rfl

/-! ### The last stretch before the edge region: the joined weight matrix cut into its three row ranges -/

/-- Rows 0–63 of the joined weight matrix. -/
theorem slice_v10 (V : Valuation τ sig (Elt F)) :
    StableHlo.after (hostOps0_7 (F := F)) V (Proc.devRef .tc main_v10) = w1r (F := F) (V (Proc.devRef .tc main_arg4)) := by
  after_results; rfl

/-- Rows 64–127 of the joined weight matrix. -/
theorem slice_v11 (V : Valuation τ sig (Elt F)) :
    StableHlo.after (hostOps0_7 (F := F)) V (Proc.devRef .tc main_v11) = w1c (F := F) (V (Proc.devRef .tc main_arg4)) := by
  after_results; rfl

/-- Rows 128–130 of the joined weight matrix. -/
theorem slice_v12 (V : Valuation τ sig (Elt F)) :
    StableHlo.after (hostOps0_7 (F := F)) V (Proc.devRef .tc main_v12) = w1rad (F := F) (V (Proc.devRef .tc main_arg4)) := by
  after_results; rfl

end General

/-! ## The index vectors after the first stretch, over the launch memory -/

/-- The row indices after the first stretch: row 0 of the launched edge list, flattened. -/
theorem w1_v1 (c : Dev nD) : W1 m ρ c (Proc.devRef .tc main_v1) = rowIdx (m ((c.tc : Thread nD τ).loc main_arg3)) :=
  ops0_v1 (W0 m ρ c)
/-- The column indices after the first stretch: row 1 of the launched edge list, flattened. -/
theorem w1_v3 (c : Dev nD) : W1 m ρ c (Proc.devRef .tc main_v3) = colIdx (m ((c.tc : Thread nD τ).loc main_arg3)) :=
  ops0_v3 (W0 m ρ c)

/-! ## What the edge region finds in its arrays: the host operations before it, read back to the launch memory

Each array is walked back to the one stretch that writes it; that stretch's term is over the node array (an argument:
no stretch writes it, so it is walked back to the launch memory) and an index vector (written by the first stretch). -/

theorem v8_v4 (c : Dev nD) : V8 m ρ c main_v4 = take64 (F := Ideal) (m ((c.tc : Thread nD τ).loc main_arg0)) (rowIdx (m ((c.tc : Thread nD τ).loc main_arg3))) := by
  show W8 m ρ c (Proc.devRef .tc main_v4) = _
  walk_back
  refine Eq.trans (take_v4 (W1 m ρ c)) (congrArg₂ (take64 (F := Ideal)) ?_ ?_)
  · walk_back; rfl
  · walk_back; exact w1_v1 m ρ c

theorem v8_v5 (c : Dev nD) : V8 m ρ c main_v5 = take64 (F := Ideal) (m ((c.tc : Thread nD τ).loc main_arg0)) (colIdx (m ((c.tc : Thread nD τ).loc main_arg3))) := by
  show W8 m ρ c (Proc.devRef .tc main_v5) = _
  walk_back
  refine Eq.trans (take_v5 (W2 m ρ c)) (congrArg₂ (take64 (F := Ideal)) ?_ ?_)
  · walk_back; rfl
  · walk_back; exact w1_v3 m ρ c

theorem v8_v6 (c : Dev nD) : V8 m ρ c main_v6 = take3 (F := Ideal) (m ((c.tc : Thread nD τ).loc main_arg1)) (rowIdx (m ((c.tc : Thread nD τ).loc main_arg3))) := by
  show W8 m ρ c (Proc.devRef .tc main_v6) = _
  walk_back
  refine Eq.trans (take_v6 (W3 m ρ c)) (congrArg₂ (take3 (F := Ideal)) ?_ ?_)
  · walk_back; rfl
  · walk_back; exact w1_v1 m ρ c

theorem v8_v7 (c : Dev nD) : V8 m ρ c main_v7 = take3 (F := Ideal) (m ((c.tc : Thread nD τ).loc main_arg1)) (colIdx (m ((c.tc : Thread nD τ).loc main_arg3))) := by
  show W8 m ρ c (Proc.devRef .tc main_v7) = _
  walk_back
  refine Eq.trans (take_v7 (W4 m ρ c)) (congrArg₂ (take3 (F := Ideal)) ?_ ?_)
  · walk_back; rfl
  · walk_back; exact w1_v3 m ρ c

theorem v8_v8 (c : Dev nD) : V8 m ρ c main_v8 = take3 (F := Ideal) (m ((c.tc : Thread nD τ).loc main_arg2)) (rowIdx (m ((c.tc : Thread nD τ).loc main_arg3))) := by
  show W8 m ρ c (Proc.devRef .tc main_v8) = _
  walk_back
  refine Eq.trans (take_v8 (W5 m ρ c)) (congrArg₂ (take3 (F := Ideal)) ?_ ?_)
  · walk_back; rfl
  · walk_back; exact w1_v1 m ρ c

theorem v8_v9 (c : Dev nD) : V8 m ρ c main_v9 = take3 (F := Ideal) (m ((c.tc : Thread nD τ).loc main_arg2)) (colIdx (m ((c.tc : Thread nD τ).loc main_arg3))) := by
  show W8 m ρ c (Proc.devRef .tc main_v9) = _
  walk_back
  refine Eq.trans (take_v9 (W6 m ρ c)) (congrArg₂ (take3 (F := Ideal)) ?_ ?_)
  · walk_back; rfl
  · walk_back; exact w1_v3 m ρ c

theorem v8_v10 (c : Dev nD) : V8 m ρ c main_v10 = w1r (F := Ideal) (m ((c.tc : Thread nD τ).loc main_arg4)) := by
  show W8 m ρ c (Proc.devRef .tc main_v10) = _
  refine Eq.trans (slice_v10 (W7 m ρ c)) (congrArg (w1r (F := Ideal)) ?_)
  walk_back; rfl

theorem v8_v11 (c : Dev nD) : V8 m ρ c main_v11 = w1c (F := Ideal) (m ((c.tc : Thread nD τ).loc main_arg4)) := by
  show W8 m ρ c (Proc.devRef .tc main_v11) = _
  refine Eq.trans (slice_v11 (W7 m ρ c)) (congrArg (w1c (F := Ideal)) ?_)
  walk_back; rfl

theorem v8_v12 (c : Dev nD) : V8 m ρ c main_v12 = w1rad (F := Ideal) (m ((c.tc : Thread nD τ).loc main_arg4)) := by
  show W8 m ρ c (Proc.devRef .tc main_v12) = _
  refine Eq.trans (slice_v12 (W7 m ρ c)) (congrArg (w1rad (F := Ideal)) ?_)
  walk_back; rfl

/-! ### The arguments the edge region reads directly: no stretch writes an argument -/

theorem v8_arg5 (c : Dev nD) : V8 m ρ c main_arg5 = (m ((c.tc : Thread nD τ).loc main_arg5)) := by
  show W8 m ρ c (Proc.devRef .tc main_arg5) = _
  walk_back
  rfl

theorem v8_arg6 (c : Dev nD) : V8 m ρ c main_arg6 = (m ((c.tc : Thread nD τ).loc main_arg6)) := by
  show W8 m ρ c (Proc.devRef .tc main_arg6) = _
  walk_back
  rfl

theorem v8_arg7 (c : Dev nD) : V8 m ρ c main_arg7 = (m ((c.tc : Thread nD τ).loc main_arg7)) := by
  show W8 m ρ c (Proc.devRef .tc main_arg7) = _
  walk_back
  rfl

theorem v8_arg12 (c : Dev nD) : V8 m ρ c main_arg12 = (m ((c.tc : Thread nD τ).loc main_arg12)) := by
  show W8 m ρ c (Proc.devRef .tc main_arg12) = _
  walk_back
  rfl

theorem v8_arg13 (c : Dev nD) : V8 m ρ c main_arg13 = (m ((c.tc : Thread nD τ).loc main_arg13)) := by
  show W8 m ρ c (Proc.devRef .tc main_arg13) = _
  walk_back
  rfl

theorem v8_arg14 (c : Dev nD) : V8 m ρ c main_arg14 = (m ((c.tc : Thread nD τ).loc main_arg14)) := by
  show W8 m ρ c (Proc.devRef .tc main_arg14) = _
  walk_back
  rfl

end Cert.KernelIdeal.HostVals8

end
-- ==== Proof.HostVals10.lean ====
import proofs.«425614_j2473901163257_4_alg».proof.Proof.Gen.KernelIdeal.Frame
import proofs.«425614_j2473901163257_4_alg».proof.Proof.HostDefs
import Idealize.ShloMosaic.Lib.StableHlo.Run
import Idealize.ShloMosaic.Lib.ValueIdx
import proofs.«425614_j2473901163257_4_alg».proof.Proof.HostVals8

noncomputable section

open scoped BigOperators

namespace Cert.KernelIdeal.HostVals10

open Cert.KernelIdeal Cert.KernelIdeal.Gen Idealize.ShloMosaic Idealize.ShloMosaic.ValueIdx
open Cert.KernelIdeal.HostK Idealize.ShloMosaic.TcCoe Idealize.SL.Sem Idealize.ShloMosaic.StableHlo
open Idealize.ShloMosaic.Pipeline (Dat Cfg Window)

variable (m : (ℓ : Loc nD τ sig) → Buf (Elt Ideal) ℓ) (ρ : Dev nD → PrngReg)

/-! ## The stretch between the two regions, at any contents before it: three scatter-adds into zeros at the raw row
    indices (of the edge region's two outputs, and of a column of ones), and the node layer's weight matrix cut in two -/

section General

variable {F : FTy → Type} [FloatOps F]

/-- The per-node sum of the edge region's 64-column output. -/
theorem ops1_v16 (V : Valuation τ sig (Elt F)) :
    StableHlo.after (hostOps1 (F := F)) V (Proc.devRef .tc main_v16) = scat64 (F := F) (V (Proc.devRef .tc main_v1)) (V (Proc.devRef .tc main_v13_0)) := by
  after_results; rfl

/-- The per-node sum of the edge region's 3-column output. -/
theorem ops1_v19 (V : Valuation τ sig (Elt F)) :
    StableHlo.after (hostOps1 (F := F)) V (Proc.devRef .tc main_v19) = scat3 (F := F) (V (Proc.devRef .tc main_v1)) (V (Proc.devRef .tc main_v13_1)) := by
  after_results; rfl

/-- The per-node edge count. -/
theorem ops1_v23 (V : Valuation τ sig (Elt F)) :
    StableHlo.after (hostOps1 (F := F)) V (Proc.devRef .tc main_v23) = scat1 (F := F) (V (Proc.devRef .tc main_v1)) := by
  after_results; rfl

/-- Rows 0–63 of the node layer's joined weight matrix. -/
theorem ops1_v24 (V : Valuation τ sig (Elt F)) :
    StableHlo.after (hostOps1 (F := F)) V (Proc.devRef .tc main_v24) = nwh (F := F) (V (Proc.devRef .tc main_arg8)) := by
  after_results; rfl

/-- Rows 64–127 of the node layer's joined weight matrix. -/
theorem ops1_v25 (V : Valuation τ sig (Elt F)) :
    StableHlo.after (hostOps1 (F := F)) V (Proc.devRef .tc main_v25) = nwa (F := F) (V (Proc.devRef .tc main_arg8)) := by
  after_results; rfl

end General

/-! ## Buffers the edge region leaves alone, read back from its exit -/

/-- A buffer that is none of the edge region's arrays holds at the region's exit what the stretches before the region
    left in it. -/
theorem w9_back (c : Dev nD) (b : Ref sig .tc) (hb : ∀ w, Pipeline.arrRef spec0 w ≠ b) :
    W9 m ρ c (Proc.devRef .tc b) = W8 m ρ c (Proc.devRef .tc b) := W9_of_ne m ρ c b hb

/-- A buffer the stretch between the regions does not write, and that is none of the edge region's arrays, holds at
    the node region's entry what it held at the edge region's entry. -/
theorem w10_of_not_written (c : Dev nD) (b : Ref sig .tc)
    (h : (hostOps1 (F := Ideal)).Forall fun op => Proc.devRef (τ := τ) .tc b ∉ op.writes)
    (hb : ∀ w, Pipeline.arrRef spec0 w ≠ b) :
    W10 m ρ c (Proc.devRef .tc b) = W8 m ρ c (Proc.devRef .tc b) :=
  (HostVals8.after_skip _ _ b h).trans (W9_of_ne m ρ c b hb)

/-- The row indices at the edge region's exit: written by the first stretch only, and not an array of the region. -/
theorem w9_v1 (c : Dev nD) : W9 m ρ c (Proc.devRef .tc main_v1) = rowIdx (m ((c.tc : Thread nD τ).loc main_arg3)) := by
  refine (W9_of_ne m ρ c main_v1 (by decide)).trans ?_
  walk_back
  exact HostVals8.w1_v1 m ρ c

/-! ## What the node region finds in its arrays: the edge region's two outputs summed per node by the host, the count, the
    sliced weights; and where the two results end -/

theorem v10_v16 (c : Dev nD) : V10 m ρ c main_v16 = scat64 (F := Ideal) (rowIdx (m ((c.tc : Thread nD τ).loc main_arg3))) ((dat0 (F := Ideal) (V8 m ρ) c).arrAt 15 cfg0.N) := by
  show W10 m ρ c (Proc.devRef .tc main_v16) = _
  exact Eq.trans (ops1_v16 (W9 m ρ c)) (congrArg₂ (scat64 (F := Ideal)) (w9_v1 m ρ c) (W9_arr m ρ c 15))
theorem v10_v19 (c : Dev nD) : V10 m ρ c main_v19 = scat3 (F := Ideal) (rowIdx (m ((c.tc : Thread nD τ).loc main_arg3))) ((dat0 (F := Ideal) (V8 m ρ) c).arrAt 16 cfg0.N) := by
  show W10 m ρ c (Proc.devRef .tc main_v19) = _
  exact Eq.trans (ops1_v19 (W9 m ρ c)) (congrArg₂ (scat3 (F := Ideal)) (w9_v1 m ρ c) (W9_arr m ρ c 16))
theorem v10_v23 (c : Dev nD) : V10 m ρ c main_v23 = scat1 (F := Ideal) (rowIdx (m ((c.tc : Thread nD τ).loc main_arg3))) := by
  show W10 m ρ c (Proc.devRef .tc main_v23) = _
  exact Eq.trans (ops1_v23 (W9 m ρ c)) (congrArg (scat1 (F := Ideal)) (w9_v1 m ρ c))
theorem v10_v24 (c : Dev nD) : V10 m ρ c main_v24 = nwh (F := Ideal) (m ((c.tc : Thread nD τ).loc main_arg8)) := by
  show W10 m ρ c (Proc.devRef .tc main_v24) = _
  refine Eq.trans (ops1_v24 (W9 m ρ c)) (congrArg (nwh (F := Ideal)) ?_)
  refine (W9_of_ne m ρ c main_arg8 (by decide)).trans ?_
  walk_back; rfl
theorem v10_v25 (c : Dev nD) : V10 m ρ c main_v25 = nwa (F := Ideal) (m ((c.tc : Thread nD τ).loc main_arg8)) := by
  show W10 m ρ c (Proc.devRef .tc main_v25) = _
  refine Eq.trans (ops1_v25 (W9 m ρ c)) (congrArg (nwa (F := Ideal)) ?_)
  refine (W9_of_ne m ρ c main_arg8 (by decide)).trans ?_
  walk_back; rfl
theorem v10_arg0 (c : Dev nD) : V10 m ρ c main_arg0 = (m ((c.tc : Thread nD τ).loc main_arg0)) := by
  show W10 m ρ c (Proc.devRef .tc main_arg0) = _
  exact (w10_of_not_written m ρ c main_arg0 (by not_written) (by decide)).trans (by walk_back; rfl)
theorem v10_arg9 (c : Dev nD) : V10 m ρ c main_arg9 = (m ((c.tc : Thread nD τ).loc main_arg9)) := by
  show W10 m ρ c (Proc.devRef .tc main_arg9) = _
  exact (w10_of_not_written m ρ c main_arg9 (by not_written) (by decide)).trans (by walk_back; rfl)
theorem v10_arg10 (c : Dev nD) : V10 m ρ c main_arg10 = (m ((c.tc : Thread nD τ).loc main_arg10)) := by
  show W10 m ρ c (Proc.devRef .tc main_arg10) = _
  exact (w10_of_not_written m ρ c main_arg10 (by not_written) (by decide)).trans (by walk_back; rfl)
theorem v10_arg11 (c : Dev nD) : V10 m ρ c main_arg11 = (m ((c.tc : Thread nD τ).loc main_arg11)) := by
  show W10 m ρ c (Proc.devRef .tc main_arg11) = _
  exact (w10_of_not_written m ρ c main_arg11 (by not_written) (by decide)).trans (by walk_back; rfl)

/-- The first result buffer ends at what the node region's write-backs leave in output window 9's array. -/
theorem w11_v26_0 (c : Dev nD) : W11 m ρ c (Proc.devRef .tc main_v26_0) = (dat1 (F := Ideal) (V10 m ρ) c).arrAt 9 cfg1.N :=
  W11_arr m ρ c 9
/-- The second result buffer ends at what the node region's write-backs leave in output window 10's array. -/
theorem w11_v26_1 (c : Dev nD) : W11 m ρ c (Proc.devRef .tc main_v26_1) = (dat1 (F := Ideal) (V10 m ρ) c).arrAt 10 cfg1.N :=
  W11_arr m ρ c 10

end Cert.KernelIdeal.HostVals10

end
-- ==== Proof.TakeMask.lean ====
import proofs.«425614_j2473901163257_4_alg».proof.Defs
import proofs.«425614_j2473901163257_4_alg».proof.Proof.Gen.KernelIdeal
import proofs.«425614_j2473901163257_4_alg».proof.Proof.Gen.Pre_finite_inputs
import proofs.«425614_j2473901163257_4_alg».proof.Proof.HostDefs
import Idealize.ShloMosaic.Lib.ValueIdx
import Idealize.ShloMosaic.Lib.ReduceAll
import Idealize.ShloMosaic.Lib.StableHlo.Predicate
import Idealize.ShloMosaic.Lib.Pipeline.Value

noncomputable section

open scoped BigOperators

namespace Cert.KernelIdeal.TakeMask

open Cert.KernelIdeal Cert.KernelIdeal.Gen Idealize.ShloMosaic Idealize.ShloMosaic.ValueIdx
open Cert.KernelIdeal.HostK Idealize.ShloMosaic.TcCoe Idealize.SL.Sem

/-- Every entry of an index vector, read as a signed word, is a node number: 0 ≤ · < 50000. -/
def InRange (r : IVec S800000 32) : Prop := ∀ e : S800000.Idx, 0 ≤ (r e).toInt ∧ (r e).toInt < 50000

/-! ## Words: a node number under the wrap and under the two bounds -/

/-- A node number is not negative as a signed word, so the wrap by the axis length leaves it alone. -/
theorem wrap_eq (w : BitVec 32) (h0 : 0 ≤ w.toInt) :
    Scalar.select (IntOp.cmpi .slt w 0#32) (IntOp.addi w 50000#32) w = w := by
  have hz : IntOp.cmpi .slt w 0#32 = 0#1 := by
    refine eq_zero_of_ne_one fun h => ?_
    have hlt := IntOp.cmpi_slt.1 h
    have e0 : (0#32 : BitVec 32).toInt = 0 := by decide
    omega
  rw [hz]
  exact select_zero _ _

/-- A node number passes both bounds of the range test: 0 ≤ w and w ≤ 49999, signed. -/
theorem bounds_eq_one (w : BitVec 32) (h0 : 0 ≤ w.toInt) (h1 : w.toInt < 50000) :
    IntOp.andi (IntOp.cmpi .sge w 0#32) (IntOp.cmpi .sle w 49999#32) = 1#1 := by
  have e0 : (0#32 : BitVec 32).toInt = 0 := by decide
  have e1 : (49999#32 : BitVec 32).toInt = 49999 := by decide
  exact IntOp.andi_eq_one.2 ⟨IntOp.cmpi_sge.2 (by omega), IntOp.cmpi_sle.2 (by omega)⟩

/-! ## An AND-reduction whose operand is 1 everywhere is 1 -/

/-- A left fold by `and` from 1 over words that are all 1 is 1. -/
theorem foldl_andi_of_all_one {ι : Type} (f : ι → BitVec 1) :
    ∀ l : List ι, (∀ n ∈ l, f n = 1#1) → l.foldl (fun r n => IntOp.andi r (f n)) 1#1 = 1#1
  | [], _ => rfl
  | a :: l, h => by
    have e : IntOp.andi (1#1 : BitVec 1) (1#1) = 1#1 := by decide
    rw [List.foldl_cons, h a List.mem_cons_self, e]
    exact foldl_andi_of_all_one f l fun n hn => h n (List.mem_cons_of_mem _ hn)

/-- A reduce by `and` from the constant 1 of an operand that is 1 at every index is 1 at every result index. -/
theorem reduce_andi_of_all {s t u : Shape} {axes : List (Fin s.rank)} (x : s.Idx → BitVec 1) (init : u.Idx → BitVec 1)
    (h : s.ReducesTo axes t) (hu : 0 < u.numel) (j : t.Idx) (hi : init (Shape.Idx.first hu) = 1#1) (hx : ∀ i, x i = 1#1) :
    Host.reduce IntOp.andi x init h hu j = 1#1 := by
  rw [Host.reduce_eq_foldl, hi]
  exact foldl_andi_of_all_one x _ fun i _ => hx i

/-! ## The start indices and the range mask of a take at node numbers -/

/-- The wrapped index vector at an edge is the index itself. -/
theorem wrapped_apply (r : IVec S800000 32) (hr : InRange r) (e : S800000.Idx) :
    select (cmpi .slt r (broadcastInDim S800000 ![] bcast_S_S800000 (constantI S_ 32 0#32)))
      (addi r (broadcastInDim S800000 ![] bcast_S_S800000 (constantI S_ 32 50000#32))) r e = r e :=
  wrap_eq (r e) (hr e).1

/-- Every entry of the start-index column is an entry of the index vector. -/
theorem startIdx_apply (r : IVec S800000 32) (hr : InRange r) (i : S800000x1.Idx) : ∃ e, startIdx r i = r e :=
  ⟨_, wrapped_apply r hr _⟩

/-- Every row of the take is in range: the mask is 1 at every edge. -/
theorem inRange_startIdx (r : IVec S800000 32) (hr : InRange r) (k : S800000.Idx) : inRange (startIdx r) k = 1#1 := by
  unfold inRange
  refine reduce_andi_of_all _ _ _ _ k rfl fun i => ?_
  obtain ⟨e, he⟩ := startIdx_apply r hr i
  show IntOp.andi (IntOp.cmpi .sge (startIdx r i) 0#32) (IntOp.cmpi .sle (startIdx r i) 49999#32) = 1#1
  rw [he]
  exact bounds_eq_one _ (hr e).1 (hr e).2

/-- With every index a node number no row of a take is filled: the take is the gather at the (unwrapped) start indices. -/
theorem take64_eq_gather (x : FVec Ideal S50000x64 .f32) (r : IVec S800000 32) (hr : InRange r) :
    take64 (F := Ideal) x r = Host.gather gather_S50000x64_S800000x1_S800000x64_1_0_n_n_0_1_164 x (startIdx r) := by
  funext i
  unfold take64
  rw [select_apply]
  unfold broadcastInDim
  rw [inRange_startIdx r hr]
  exact select_one _ _
theorem take3_eq_gather (x : FVec Ideal S50000x3 .f32) (r : IVec S800000 32) (hr : InRange r) :
    take3 (F := Ideal) x r = Host.gather gather_S50000x3_S800000x1_S800000x3_1_0_n_n_0_1_13 x (startIdx r) := by
  funext i
  unfold take3
  rw [select_apply]
  unfold broadcastInDim
  rw [inRange_startIdx r hr]
  exact select_one _ _

/-! ## The precondition's last conjunct, read back -/

/-- The rank-0 shape has one index. -/
instance subsingleton_S_ : Subsingleton Cert.Pre_finite_inputs.S_.Idx := ⟨fun a b => funext fun d => d.elim0⟩

/-- The last part of the precondition at any values of the earlier conjuncts: if the whole conjunction is 1 then the AND
    over all entries of (0 ≤ entry) ∧ (entry < 50000) is 1, so each entry is a node number. -/
theorem part4_range (x3 : IVec S2x800000 32) (v63 v67 : IVec Cert.Pre_finite_inputs.S_ 1)
    (h : Cert.Pre_finite_inputs.fn_part4 (F := Ideal) x3 v63 v67 ValueIdx.ix0 = 1#1) (k : S2x800000.Idx) :
    0 ≤ (x3 k).toInt ∧ (x3 k).toInt < 50000 := by
  unfold Cert.Pre_finite_inputs.fn_part4 at h
  dsimp only at h
  have hall := (IntOp.andi_eq_one.1 h).2
  have hk := Host.reduce_andi_all _ _ _ _ ValueIdx.ix0 hall k
  obtain ⟨ha, hb⟩ := IntOp.andi_eq_one.1 hk
  -- a broadcast constant reads the constant at every index
  have ha' : (0#32 : BitVec 32).toInt ≤ (x3 k).toInt := IntOp.cmpi_sge.1 ha
  have hb' : (x3 k).toInt < (50000#32 : BitVec 32).toInt := IntOp.cmpi_slt.1 hb
  have e0 : (0#32 : BitVec 32).toInt = 0 := by decide
  have e1 : (50000#32 : BitVec 32).toInt = 50000 := by decide
  exact ⟨by omega, by omega⟩

/-- Every entry of the edge list, either row, is a node number: the precondition's value is its last part at the values
    of the float conjuncts, whatever those are. -/
theorem edge_range (m : (ℓ : Loc nD τ sig) → Buf (Elt Ideal) ℓ) (hpre : Cert.Pre_KernelIdeal (hPre_finite_inputs := Cert.Pre_finite_inputs.Gen.facts) m) (c : Dev nD)
    (k : S2x800000.Idx) :
    0 ≤ ((m ((c.tc : Thread nD τ).loc main_arg3)) k).toInt ∧ ((m ((c.tc : Thread nD τ).loc main_arg3)) k).toInt < 50000 := by
  have h := congrFun (hpre c) ValueIdx.ix0
  change Cert.Pre_finite_inputs.fn_part4 (F := Ideal) _ _ _ ValueIdx.ix0 = 1#1 at h
  exact part4_range _ _ _ h k

/-- The precondition's last conjunct, decoded: both rows of the edge list hold node numbers. -/
theorem rowIdx_inRange (m : (ℓ : Loc nD τ sig) → Buf (Elt Ideal) ℓ) (hpre : Cert.Pre_KernelIdeal (hPre_finite_inputs := Cert.Pre_finite_inputs.Gen.facts) m) (c : Dev nD) :
    InRange (rowIdx (m ((c.tc : Thread nD τ).loc main_arg3))) := by
  intro e
  exact edge_range m hpre c _
theorem colIdx_inRange (m : (ℓ : Loc nD τ sig) → Buf (Elt Ideal) ℓ) (hpre : Cert.Pre_KernelIdeal (hPre_finite_inputs := Cert.Pre_finite_inputs.Gen.facts) m) (c : Dev nD) :
    InRange (colIdx (m ((c.tc : Thread nD τ).loc main_arg3))) := by
  intro e
  exact edge_range m hpre c _

end Cert.KernelIdeal.TakeMask

end
-- ==== Proof.Slices.lean ====
/-
  The sliced weight matrices read at an entry: row k of a slice that starts at row o of the joined matrix is row o + k of it.
-/
import proofs.«425614_j2473901163257_4_alg».proof.Proof.HostDefs
import Idealize.ShloMosaic.Lib.Pipeline.Value
import Idealize.ShloMosaic.Lib.ValueIdx

noncomputable section

namespace Cert.KernelIdeal.Slices

open Cert.KernelIdeal Cert.KernelIdeal.Gen Cert.KernelIdeal.HostK Idealize.ShloMosaic Idealize.ShloMosaic.ValueIdx

theorem w1r_apply (x4 : FVec Ideal S131x64 .f32) (k : Fin 64) (j : Fin 64) :
    w1r x4 (ix2 k j) = x4 (ix2 (⟨k.val, by omega⟩ : Fin 131) j) := by
  unfold w1r
  exact extractStridedSlice_apply ![0, 0] x4 slices_S131x64_S64x64_0_0 (ix2 k j) (ix2 (⟨k.val, by omega⟩ : Fin 131) j) (fun a => match a with
    | ⟨0, _⟩ => by show k.val = 0 + k.val; omega
    | ⟨1, _⟩ => by show j.val = 0 + j.val; omega)

theorem w1c_apply (x4 : FVec Ideal S131x64 .f32) (k : Fin 64) (j : Fin 64) :
    w1c x4 (ix2 k j) = x4 (ix2 (⟨k.val + 64, by omega⟩ : Fin 131) j) := by
  unfold w1c
  exact extractStridedSlice_apply ![64, 0] x4 slices_S131x64_S64x64_64_0 (ix2 k j) (ix2 (⟨k.val + 64, by omega⟩ : Fin 131) j) (fun a => match a with
    | ⟨0, _⟩ => by show k.val + 64 = 64 + k.val; omega
    | ⟨1, _⟩ => by show j.val = 0 + j.val; omega)

theorem w1rad_apply (x4 : FVec Ideal S131x64 .f32) (k : Fin 3) (j : Fin 64) :
    w1rad x4 (ix2 k j) = x4 (ix2 (⟨k.val + 128, by omega⟩ : Fin 131) j) := by
  unfold w1rad
  exact extractStridedSlice_apply ![128, 0] x4 slices_S131x64_S3x64_128_0 (ix2 k j) (ix2 (⟨k.val + 128, by omega⟩ : Fin 131) j) (fun a => match a with
    | ⟨0, _⟩ => by show k.val + 128 = 128 + k.val; omega
    | ⟨1, _⟩ => by show j.val = 0 + j.val; omega)

theorem nwh_apply (x8 : FVec Ideal S128x64 .f32) (k : Fin 64) (j : Fin 64) :
    nwh x8 (ix2 k j) = x8 (ix2 (⟨k.val, by omega⟩ : Fin 128) j) := by
  unfold nwh
  exact extractStridedSlice_apply ![0, 0] x8 slices_S128x64_S64x64_0_0 (ix2 k j) (ix2 (⟨k.val, by omega⟩ : Fin 128) j) (fun a => match a with
    | ⟨0, _⟩ => by show k.val = 0 + k.val; omega
    | ⟨1, _⟩ => by show j.val = 0 + j.val; omega)

theorem nwa_apply (x8 : FVec Ideal S128x64 .f32) (k : Fin 64) (j : Fin 64) :
    nwa x8 (ix2 k j) = x8 (ix2 (⟨k.val + 64, by omega⟩ : Fin 128) j) := by
  unfold nwa
  exact extractStridedSlice_apply ![64, 0] x8 slices_S128x64_S64x64_64_0 (ix2 k j) (ix2 (⟨k.val + 64, by omega⟩ : Fin 128) j) (fun a => match a with
    | ⟨0, _⟩ => by show k.val + 64 = 64 + k.val; omega
    | ⟨1, _⟩ => by show j.val = 0 + j.val; omega)

end Cert.KernelIdeal.Slices

end
-- ==== Proof.Closed.lean ====
/-
  The two results as ONE function of the fifteen argument arrays each, in the JOINED form: gather the endpoint rows of every
  edge, form every edge's message and shift, sum them per receiving node, and apply the node stage.
-/
import proofs.«425614_j2473901163257_4_alg».proof.Proof.HostDefs
import proofs.«425614_j2473901163257_4_alg».proof.Proof.Spec

noncomputable section

namespace Cert.KernelIdeal.Closed

open Cert.KernelIdeal Cert.KernelIdeal.Gen Cert.KernelIdeal.HostK Cert.Spec Idealize.ShloMosaic

/-- The rows of a 64-column node array at an index vector (negative indices wrapped once). -/
def g64 (x : FVec Ideal S50000x64 .f32) (r : IVec S800000 32) : FVec Ideal S800000x64 .f32 :=
  Host.gather gather_S50000x64_S800000x1_S800000x64_1_0_n_n_0_1_164 x (startIdx r)
/-- The rows of a 3-column node array at an index vector. -/
def g3 (x : FVec Ideal S50000x3 .f32) (r : IVec S800000 32) : FVec Ideal S800000x3 .f32 :=
  Host.gather gather_S50000x3_S800000x1_S800000x3_1_0_n_n_0_1_13 x (startIdx r)

/-- Every edge's message from the arguments. -/
def MOut (x0 : FVec Ideal S50000x64 .f32) (x1 x2 : FVec Ideal S50000x3 .f32) (x3 : IVec S2x800000 32) (x4 : FVec Ideal S131x64 .f32)
    (x5 : FVec Ideal S64 .f32) (x6 : FVec Ideal S64x64 .f32) (x7 : FVec Ideal S64 .f32) : FVec Ideal S800000x64 .f32 :=
  EdgeMR (g64 x0 (rowIdx x3)) (g64 x0 (colIdx x3)) (g3 x1 (rowIdx x3)) (g3 x1 (colIdx x3)) (g3 x2 (rowIdx x3)) (g3 x2 (colIdx x3)) x4 x5 x6 x7

/-- Every node's new features from the arguments. -/
def HOut (x0 : FVec Ideal S50000x64 .f32) (x1 x2 : FVec Ideal S50000x3 .f32) (x3 : IVec S2x800000 32) (x4 : FVec Ideal S131x64 .f32)
    (x5 : FVec Ideal S64 .f32) (x6 : FVec Ideal S64x64 .f32) (x7 : FVec Ideal S64 .f32) (x8 : FVec Ideal S128x64 .f32)
    (x9 : FVec Ideal S64 .f32) (x10 : FVec Ideal S64x64 .f32) (x11 : FVec Ideal S64 .f32) : FVec Ideal S50000x64 .f32 :=
  NodeHR x0 (scat64 (rowIdx x3) (MOut x0 x1 x2 x3 x4 x5 x6 x7)) x8 x9 x10 x11

/-- Every node's coordinate update from the arguments. -/
def COut (x0 : FVec Ideal S50000x64 .f32) (x1 x2 : FVec Ideal S50000x3 .f32) (x3 : IVec S2x800000 32) (x4 : FVec Ideal S131x64 .f32)
    (x5 : FVec Ideal S64 .f32) (x6 : FVec Ideal S64x64 .f32) (x7 : FVec Ideal S64 .f32) (x12 : FVec Ideal S64x64 .f32)
    (x13 : FVec Ideal S64 .f32) (x14 : FVec Ideal S64x1 .f32) : FVec Ideal S50000x3 .f32 :=
  NodeC (scat3 (rowIdx x3) (EdgeT (MOut x0 x1 x2 x3 x4 x5 x6 x7) (g3 x1 (rowIdx x3)) (g3 x1 (colIdx x3)) x12 x13 x14)) (scat1 (F := Ideal) (rowIdx x3))

end Cert.KernelIdeal.Closed

end
-- ==== Proof.ClosedSplit.lean ====
/-
  The split-form stages over the sliced weight matrices are the joined-form stages over the whole ones: the closed-form
  functions of the arguments, reached from the split side.
-/
import proofs.«425614_j2473901163257_4_alg».proof.Proof.Closed
import proofs.«425614_j2473901163257_4_alg».proof.Proof.Slices

noncomputable section

namespace Cert.KernelIdeal.Closed

open Cert.KernelIdeal Cert.KernelIdeal.Gen Cert.KernelIdeal.HostK Cert.KernelIdeal.Slices Cert.Spec Idealize.ShloMosaic

/-- Every edge's split-form message over the three row ranges of the first layer's weights is the closed-form message array. -/
theorem MOut_split (x0 : FVec Ideal S50000x64 .f32) (x1 x2 : FVec Ideal S50000x3 .f32) (x3 : IVec S2x800000 32) (x4 : FVec Ideal S131x64 .f32)
    (x5 : FVec Ideal S64 .f32) (x6 : FVec Ideal S64x64 .f32) (x7 : FVec Ideal S64 .f32) :
    EdgeMK (Host.gather gather_S50000x64_S800000x1_S800000x64_1_0_n_n_0_1_164 x0 (startIdx (rowIdx x3))) (Host.gather gather_S50000x64_S800000x1_S800000x64_1_0_n_n_0_1_164 x0 (startIdx (colIdx x3))) (Host.gather gather_S50000x3_S800000x1_S800000x3_1_0_n_n_0_1_13 x1 (startIdx (rowIdx x3))) (Host.gather gather_S50000x3_S800000x1_S800000x3_1_0_n_n_0_1_13 x1 (startIdx (colIdx x3)))
        (Host.gather gather_S50000x3_S800000x1_S800000x3_1_0_n_n_0_1_13 x2 (startIdx (rowIdx x3))) (Host.gather gather_S50000x3_S800000x1_S800000x3_1_0_n_n_0_1_13 x2 (startIdx (colIdx x3)))
        (w1r (F := Ideal) x4) (w1c (F := Ideal) x4) (w1rad (F := Ideal) x4) x5 x6 x7
      = MOut x0 x1 x2 x3 x4 x5 x6 x7 :=
  EdgeMK_eq_EdgeMR (g64 x0 (rowIdx x3)) (g64 x0 (colIdx x3)) (g3 x1 (rowIdx x3)) (g3 x1 (colIdx x3)) (g3 x2 (rowIdx x3)) (g3 x2 (colIdx x3))
    x4 x5 x6 x7 (w1r (F := Ideal) x4) (w1c (F := Ideal) x4) (w1rad (F := Ideal) x4) (w1r_apply x4) (w1c_apply x4) (w1rad_apply x4)

/-- Every node's split-form features over the two row ranges of the first layer's weights are the joined-form ones. -/
theorem NodeH_split (x0 agg : FVec Ideal S50000x64 .f32) (x8 : FVec Ideal S128x64 .f32) (x9 : FVec Ideal S64 .f32)
    (x10 : FVec Ideal S64x64 .f32) (x11 : FVec Ideal S64 .f32) :
    NodeHK x0 agg (nwh (F := Ideal) x8) (nwa (F := Ideal) x8) x9 x10 x11 = NodeHR x0 agg x8 x9 x10 x11 :=
  NodeHK_eq_NodeHR x0 agg x8 x9 x10 x11 (nwh (F := Ideal) x8) (nwa (F := Ideal) x8) (nwh_apply x8) (nwa_apply x8)

end Cert.KernelIdeal.Closed

end
-- ==== Proof.KValue.lean ====
/-
  What the kernel's program leaves in its two result buffers, as functions of the launch memory's argument arrays:
  the node region's split-form stage over the per-node sums of the edge region's split-form stage over the taken rows.
  Under the precondition every index is a node number, so each take is the plain gather; the split first layers are the
  joined ones over the sliced weight rows.
-/
import proofs.«425614_j2473901163257_4_alg».proof.Proof.Gen.KernelIdeal.Frame
import proofs.«425614_j2473901163257_4_alg».proof.Proof.RegionArr
import proofs.«425614_j2473901163257_4_alg».proof.Proof.HostVals8
import proofs.«425614_j2473901163257_4_alg».proof.Proof.HostVals10
import proofs.«425614_j2473901163257_4_alg».proof.Proof.TakeMask
import proofs.«425614_j2473901163257_4_alg».proof.Proof.Slices
import proofs.«425614_j2473901163257_4_alg».proof.Proof.Closed
import proofs.«425614_j2473901163257_4_alg».proof.Proof.ClosedSplit

noncomputable section

namespace Cert.KernelIdeal.KValue

open Cert.KernelIdeal Cert.KernelIdeal.Gen Cert.KernelIdeal.HostK Cert.KernelIdeal.Closed Cert.KernelIdeal.TakeMask Cert.KernelIdeal.Slices
open Cert.KernelIdeal.HostVals8 Cert.KernelIdeal.HostVals10 Cert.Spec
open Idealize.ShloMosaic Idealize.ShloMosaic.TcCoe Idealize.SL.Sem

variable (m : (ℓ : Loc nD τ sig) → Buf (Elt Ideal) ℓ) (ρ : Dev nD → PrngReg)
variable (hpre : Cert.Pre_KernelIdeal (hPre_finite_inputs := Cert.Pre_finite_inputs.Gen.facts) m)
include hpre

/-- The edge region's message array is every edge's joined-form message of the gathered rows. -/
theorem edge_m_closed (c : Dev nD) :
    (dat0 (F := Ideal) (V8 m ρ) c).arrAt 15 cfg0.N
      = MOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [RegionArr.edge_m (V8 m ρ) c, v8_v4, v8_v5, v8_v6, v8_v7, v8_v8, v8_v9, v8_v10, v8_v11, v8_v12, v8_arg5, v8_arg6, v8_arg7,
    take64_eq_gather _ _ (rowIdx_inRange m hpre c), take64_eq_gather _ _ (colIdx_inRange m hpre c),
    take3_eq_gather (m ((c.tc : Thread nD τ).loc main_arg1)) _ (rowIdx_inRange m hpre c), take3_eq_gather (m ((c.tc : Thread nD τ).loc main_arg1)) _ (colIdx_inRange m hpre c),
    take3_eq_gather (m ((c.tc : Thread nD τ).loc main_arg2)) _ (rowIdx_inRange m hpre c), take3_eq_gather (m ((c.tc : Thread nD τ).loc main_arg2)) _ (colIdx_inRange m hpre c)]
  rw [MOut_split]

/-- The edge region's shift array is every edge's shift from its message. -/
theorem edge_t_closed (c : Dev nD) :
    (dat0 (F := Ideal) (V8 m ρ) c).arrAt 16 cfg0.N
      = EdgeT (MOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)))
          (g3 (m ((c.tc : Thread nD τ).loc main_arg1)) (rowIdx (m ((c.tc : Thread nD τ).loc main_arg3)))) (g3 (m ((c.tc : Thread nD τ).loc main_arg1)) (colIdx (m ((c.tc : Thread nD τ).loc main_arg3)))) (m ((c.tc : Thread nD τ).loc main_arg12)) (m ((c.tc : Thread nD τ).loc main_arg13)) (m ((c.tc : Thread nD τ).loc main_arg14)) := by
  rw [RegionArr.edge_t (V8 m ρ) c, ← RegionArr.edge_m (V8 m ρ) c, edge_m_closed m ρ hpre c, v8_v6, v8_v7, v8_arg12, v8_arg13, v8_arg14,
    take3_eq_gather _ _ (rowIdx_inRange m hpre c), take3_eq_gather _ _ (colIdx_inRange m hpre c)]
  rfl

/-- The first result: every node's new features. -/
theorem kernel_h (c : Dev nD) :
    W11 m ρ c (Proc.devRef .tc main_v26_0)
      = HOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  rw [w11_v26_0, RegionArr.node_h (V10 m ρ) c, v10_arg0, v10_v16, v10_v24, v10_v25, v10_arg9, v10_arg10, v10_arg11, edge_m_closed m ρ hpre c]
  rw [NodeH_split]
  rfl

/-- The second result: every node's coordinate update. -/
theorem kernel_c (c : Dev nD) :
    W11 m ρ c (Proc.devRef .tc main_v26_1)
      = COut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg12)) (m ((c.tc : Thread nD τ).loc main_arg13)) (m ((c.tc : Thread nD τ).loc main_arg14)) := by
  rw [w11_v26_1, RegionArr.node_c (V10 m ρ) c, v10_v19, v10_v23, edge_t_closed m ρ hpre c]
  rfl

end Cert.KernelIdeal.KValue

end
-- ==== Proof.RefEdge.lean ====
import proofs.«425614_j2473901163257_4_alg».proof.Proof.ReadP
import proofs.«425614_j2473901163257_4_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefEdge

open Cert.ReferenceIdeal Cert.ReferenceIdeal.Gen Cert.ReferenceIdeal.ReadP Cert.Spec Idealize.ShloMosaic Idealize.ShloMosaic.ValueIdx

/-! ## The radial features of an edge -/

section Radial
variable (x1 x2 : (⟨S50000x3, .f32⟩ : BufTy).Contents (Elt Ideal)) (x3 : (⟨S2x800000, .i32⟩ : BufTy).Contents (Elt Ideal))

/-- Δx of an edge: the difference of its two gathered position rows. -/
abbrev dX (e : Fin 800000) : Fin 3 → EReal :=
  diff3 (row (val_main_v10 (F := Ideal) x1 x3) e) (row (val_main_v17 (F := Ideal) x1 x3) e)
/-- Δv of an edge: the difference of its two gathered velocity rows. -/
abbrev dV (e : Fin 800000) : Fin 3 → EReal :=
  diff3 (row (val_main_v25 (F := Ideal) x2 x3) e) (row (val_main_v32 (F := Ideal) x2 x3) e)

/-- The position difference array at (e, k) is Δx's k-th component. -/
theorem dx_apply (e : Fin 800000) (k : Fin 3) :
    val_main_v18 (F := Ideal) x1 x3 (ix2 e k) = dX x1 x3 e k := rfl

/-- The velocity difference array at (e, k) is Δv's k-th component. -/
theorem dv_apply (e : Fin 800000) (k : Fin 3) :
    val_main_v33 (F := Ideal) x2 x3 (ix2 e k) = dV x2 x3 e k := rfl

/-- |Δx|: the root of the sum over the three components of the squares; the sum starts from the zero word, which is 0. -/
theorem lenx_apply (e : Fin 800000) :
    val_main_v37 (F := Ideal) x1 x3 (ix2 e (0 : Fin 1)) = len3 (dX x1 x3 e) := by
  rw [val_main_v37_apply, Ideal.hostUnary_sqrt_def, val_main_v36_apply, val_main_v35_apply, val_main_cst_apply,
    Ideal.ofBits_def, Ideal.ofBits_zero_f32, zero_add]
  unfold len3
  refine congrArg Ideal.sqrt (Finset.sum_congr rfl fun k _ => ?_)
  have e1 : idx_main_v35 (idx_main_v36 (ix2 e (0 : Fin 1))) k = ix2 e k :=
    funext fun a => Fin.ext (by match a with | ⟨0, _⟩ => rfl | ⟨1, _⟩ => rfl)
  rw [e1]
  rfl

/-- |Δv|, the same way. -/
theorem lenv_apply (e : Fin 800000) :
    val_main_v41 (F := Ideal) x2 x3 (ix2 e (0 : Fin 1)) = len3 (dV x2 x3 e) := by
  rw [val_main_v41_apply, Ideal.hostUnary_sqrt_def, val_main_v40_apply, val_main_v39_apply, val_main_cst_7_apply,
    Ideal.ofBits_def, Ideal.ofBits_zero_f32, zero_add]
  unfold len3
  refine congrArg Ideal.sqrt (Finset.sum_congr rfl fun k _ => ?_)
  have e1 : idx_main_v39 (idx_main_v40 (ix2 e (0 : Fin 1))) k = ix2 e k :=
    funext fun a => Fin.ext (by match a with | ⟨0, _⟩ => rfl | ⟨1, _⟩ => rfl)
  rw [e1]
  rfl

/-- Δx / |Δx| at (e, k): the length column is read at row e whatever k is. -/
theorem ux_apply (e : Fin 800000) (k : Fin 3) :
    val_main_v43 (F := Ideal) x1 x3 (ix2 e k) = Ideal.div (dX x1 x3 e k) (len3 (dX x1 x3 e)) := by
  rw [val_main_v43_apply, Ideal.hostDivf_def, val_main_v42_apply]
  have e1 : idx_main_v42 (ix2 e k) = ix2 e (0 : Fin 1) :=
    funext fun a => Fin.ext (by match a with | ⟨0, _⟩ => rfl | ⟨1, _⟩ => rfl)
  rw [e1, lenx_apply]
  rfl

/-- Δv / |Δv| at (e, k). -/
theorem uv_apply (e : Fin 800000) (k : Fin 3) :
    val_main_v45 (F := Ideal) x2 x3 (ix2 e k) = Ideal.div (dV x2 x3 e k) (len3 (dV x2 x3 e)) := by
  rw [val_main_v45_apply, Ideal.hostDivf_def, val_main_v44_apply]
  have e1 : idx_main_v44 (ix2 e k) = ix2 e (0 : Fin 1) :=
    funext fun a => Fin.ext (by match a with | ⟨0, _⟩ => rfl | ⟨1, _⟩ => rfl)
  rw [e1, lenv_apply]
  rfl

/-- The third radial feature: the sum over the components of the product of the two unit vectors. -/
theorem cos_apply (e : Fin 800000) :
    val_main_v48 (F := Ideal) x1 x2 x3 (ix2 e (0 : Fin 1))
      = ∑ k, Ideal.div (dX x1 x3 e k) (len3 (dX x1 x3 e)) * Ideal.div (dV x2 x3 e k) (len3 (dV x2 x3 e)) := by
  rw [val_main_v48_apply, val_main_v47_apply, val_main_cst_8_apply, Ideal.ofBits_def, Ideal.ofBits_zero_f32, zero_add]
  refine Finset.sum_congr rfl fun k _ => ?_
  have e1 : idx_main_v47 (idx_main_v48 (ix2 e (0 : Fin 1))) k = ix2 e k :=
    funext fun a => Fin.ext (by match a with | ⟨0, _⟩ => rfl | ⟨1, _⟩ => rfl)
  rw [e1, val_main_v46_apply, Ideal.mulf_def, ux_apply, uv_apply]

/-- The three columns joined along axis 1, each of extent one: column a is piece a at column 0. -/
theorem radial_apply (e : Fin 800000) (a : Fin 3) :
    val_main_v49 (F := Ideal) x1 x2 x3 (ix2 e a) = radial (dX x1 x3 e) (dV x2 x3 e) a := by
  unfold val_main_v49
  match a with
  | ⟨0, h0⟩ =>
    show _ = len3 (dX x1 x3 e)
    refine (concatenate_apply_piece (t := S800000x3) 1 [⟨S800000x1, val_main_v37 (F := Ideal) x1 x3⟩, ⟨S800000x1, val_main_v41 (F := Ideal) x2 x3⟩, ⟨S800000x1, val_main_v48 (F := Ideal) x1 x2 x3⟩] concatenates_S800000x1_S800000x1_S800000x1_S800000x3_d1
      (ix2 e ⟨0, h0⟩) 0 (by simp) S800000x1 (val_main_v37 (F := Ideal) x1 x3) rfl rfl 0 rfl (ix2 e (0 : Fin 1)) ?_ rfl).trans
      (lenx_apply x1 x3 e)
    intro b hb
    match b with
    | ⟨0, _⟩ => rfl
    | ⟨1, _⟩ => exact absurd rfl hb
  | ⟨1, h1⟩ =>
    show _ = len3 (dV x2 x3 e)
    refine (concatenate_apply_piece (t := S800000x3) 1 [⟨S800000x1, val_main_v37 (F := Ideal) x1 x3⟩, ⟨S800000x1, val_main_v41 (F := Ideal) x2 x3⟩, ⟨S800000x1, val_main_v48 (F := Ideal) x1 x2 x3⟩] concatenates_S800000x1_S800000x1_S800000x1_S800000x3_d1
      (ix2 e ⟨1, h1⟩) 1 (by simp) S800000x1 (val_main_v41 (F := Ideal) x2 x3) rfl rfl 1 rfl (ix2 e (0 : Fin 1)) ?_ rfl).trans
      (lenv_apply x2 x3 e)
    intro b hb
    match b with
    | ⟨0, _⟩ => rfl
    | ⟨1, _⟩ => exact absurd rfl hb
  | ⟨2, h2⟩ =>
    show _ = ∑ k, Ideal.div (dX x1 x3 e k) (len3 (dX x1 x3 e)) * Ideal.div (dV x2 x3 e k) (len3 (dV x2 x3 e))
    refine (concatenate_apply_piece (t := S800000x3) 1 [⟨S800000x1, val_main_v37 (F := Ideal) x1 x3⟩, ⟨S800000x1, val_main_v41 (F := Ideal) x2 x3⟩, ⟨S800000x1, val_main_v48 (F := Ideal) x1 x2 x3⟩] concatenates_S800000x1_S800000x1_S800000x1_S800000x3_d1
      (ix2 e ⟨2, h2⟩) 2 (by simp) S800000x1 (val_main_v48 (F := Ideal) x1 x2 x3) rfl rfl 2 rfl (ix2 e (0 : Fin 1)) ?_ rfl).trans
      (cos_apply x1 x2 x3 e)
    intro b hb
    match b with
    | ⟨0, _⟩ => rfl
    | ⟨1, _⟩ => exact absurd rfl hb

end Radial

/-! ## The message of an edge -/

section Message
variable (x0 : (⟨S50000x64, .f32⟩ : BufTy).Contents (Elt Ideal)) (x1 x2 : (⟨S50000x3, .f32⟩ : BufTy).Contents (Elt Ideal))
  (x3 : (⟨S2x800000, .i32⟩ : BufTy).Contents (Elt Ideal)) (x4 : (⟨S131x64, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal))

/-- The 131 inputs of an edge's first layer: its two gathered feature rows, then its radial features. -/
abbrev inOf (e : Fin 800000) : Fin 131 → EReal :=
  join131 (row (val_main_v56 (F := Ideal) x0 x3) e) (row (val_main_v63 (F := Ideal) x0 x3) e) (radial (dX x1 x3 e) (dV x2 x3 e))

/-- The three arrays joined along axis 1 with extents 64, 64, 3: column k lies in the first piece below 64, in the second
    below 128 (at k − 64), else in the third (at k − 128). -/
theorem join_apply (e : Fin 800000) (k : Fin 131) :
    val_main_v64 (F := Ideal) x0 x1 x2 x3 (ix2 e k) = inOf x0 x1 x2 x3 e k := by
  unfold val_main_v64
  show _ = join131 _ _ _ k
  unfold join131
  by_cases h : k.val < 64
  · rw [dif_pos h]
    refine concatenate_apply_piece (t := S800000x131) 1 [⟨S800000x64, val_main_v56 (F := Ideal) x0 x3⟩, ⟨S800000x64, val_main_v63 (F := Ideal) x0 x3⟩, ⟨S800000x3, val_main_v49 (F := Ideal) x1 x2 x3⟩] concatenates_S800000x64_S800000x64_S800000x3_S800000x131_d1
      (ix2 e k) 0 (by simp) S800000x64 (val_main_v56 (F := Ideal) x0 x3) rfl rfl 0 rfl (ix2 e (⟨k.val, h⟩ : Fin 64)) ?_ ?_
    · intro b hb
      match b with
      | ⟨0, _⟩ => rfl
      | ⟨1, _⟩ => exact absurd rfl hb
    · show 0 + k.val = k.val
      omega
  · rw [dif_neg h]
    by_cases h2 : k.val < 128
    · rw [dif_pos h2]
      refine concatenate_apply_piece (t := S800000x131) 1 [⟨S800000x64, val_main_v56 (F := Ideal) x0 x3⟩, ⟨S800000x64, val_main_v63 (F := Ideal) x0 x3⟩, ⟨S800000x3, val_main_v49 (F := Ideal) x1 x2 x3⟩] concatenates_S800000x64_S800000x64_S800000x3_S800000x131_d1
        (ix2 e k) 1 (by simp) S800000x64 (val_main_v63 (F := Ideal) x0 x3) rfl rfl 64 rfl (ix2 e (⟨k.val - 64, by omega⟩ : Fin 64)) ?_ ?_
      · intro b hb
        match b with
        | ⟨0, _⟩ => rfl
        | ⟨1, _⟩ => exact absurd rfl hb
      · show 64 + (k.val - 64) = k.val
        omega
    · rw [dif_neg h2]
      refine (concatenate_apply_piece (t := S800000x131) 1 [⟨S800000x64, val_main_v56 (F := Ideal) x0 x3⟩, ⟨S800000x64, val_main_v63 (F := Ideal) x0 x3⟩, ⟨S800000x3, val_main_v49 (F := Ideal) x1 x2 x3⟩] concatenates_S800000x64_S800000x64_S800000x3_S800000x131_d1
        (ix2 e k) 2 (by simp) S800000x3 (val_main_v49 (F := Ideal) x1 x2 x3) rfl rfl 128 rfl
        (ix2 e (⟨k.val - 128, by have := k.isLt; omega⟩ : Fin 3)) ?_ ?_).trans (radial_apply x1 x2 x3 e _)
      · intro b hb
        match b with
        | ⟨0, _⟩ => rfl
        | ⟨1, _⟩ => exact absurd rfl hb
      · show 128 + (k.val - 128) = k.val
        omega

/-- The first layer before its max(·,0): row e of the joined inputs against column j of the weights, plus the bias at j. -/
theorem pre_apply (e : Fin 800000) (j : Fin 64) :
    val_main_v68 (F := Ideal) x0 x1 x2 x3 x4 x5 (ix2 e j) = epreR (row (val_main_v56 (F := Ideal) x0 x3) e)
      (row (val_main_v63 (F := Ideal) x0 x3) e) (radial (dX x1 x3 e) (dV x2 x3 e)) (mat x4) (vec x5) j := by
  rw [val_main_v68_apply, Ideal.addf_def, val_main_v65_apply, val_main_v67_apply, val_main_v66_apply]
  unfold epreR
  refine congrArg₂ (· + ·) (Finset.sum_congr rfl fun k _ => ?_) ?_
  · have e1 : lidx_main_v65 (ix2 e j) k = ix2 e k :=
      funext fun a => Fin.ext (by match a with | ⟨0, _⟩ => rfl | ⟨1, _⟩ => rfl)
    have e2 : ridx_main_v65 (ix2 e j) k = ix2 k j :=
      funext fun a => Fin.ext (by match a with | ⟨0, _⟩ => rfl | ⟨1, _⟩ => rfl)
    rw [e1, e2, join_apply]
    rfl
  · show x5 _ = x5 (ix1 j)
    exact congrArg x5 (funext fun a => Fin.ext (by match a with | ⟨0, _⟩ => rfl))

/-- The first layer after its max(·,0); the zero splat is the zero word, which is 0. -/
theorem act_apply (e : Fin 800000) (j : Fin 64) :
    val_main_v69 (F := Ideal) x0 x1 x2 x3 x4 x5 (ix2 e j) = relu (epreR (row (val_main_v56 (F := Ideal) x0 x3) e)
      (row (val_main_v63 (F := Ideal) x0 x3) e) (radial (dX x1 x3 e) (dV x2 x3 e)) (mat x4) (vec x5) j) := by
  rw [val_main_v69_apply, Ideal.maximumf_def, val_main_call0_v0_apply, val_main_call0_cst_apply, Ideal.ofBits_def,
    Ideal.ofBits_zero_f32, pre_apply]
  rfl

/-- The message: the second layer on the activated first layer, then max(·,0). -/
theorem m_apply (e : Fin 800000) (j : Fin 64) :
    val_main_v74 (F := Ideal) x0 x1 x2 x3 x4 x5 x6 x7 (ix2 e j) = msg (epreR (row (val_main_v56 (F := Ideal) x0 x3) e)
      (row (val_main_v63 (F := Ideal) x0 x3) e) (radial (dX x1 x3 e) (dV x2 x3 e)) (mat x4) (vec x5)) (mat x6) (vec x7) j := by
  rw [val_main_v74_apply, Ideal.maximumf_def, val_main_call1_v0_apply, val_main_call1_cst_apply, Ideal.ofBits_def,
    Ideal.ofBits_zero_f32, val_main_v73_apply, Ideal.addf_def, val_main_v70_apply, val_main_v72_apply, val_main_v71_apply]
  unfold msg lin
  show max _ 0 = max _ 0
  refine congrArg (max · 0) (congrArg₂ (· + ·) (Finset.sum_congr rfl fun k _ => ?_) ?_)
  · have e1 : lidx_main_v70 (ix2 e j) k = ix2 e k :=
      funext fun a => Fin.ext (by match a with | ⟨0, _⟩ => rfl | ⟨1, _⟩ => rfl)
    have e2 : ridx_main_v70 (ix2 e j) k = ix2 k j :=
      funext fun a => Fin.ext (by match a with | ⟨0, _⟩ => rfl | ⟨1, _⟩ => rfl)
    rw [e1, e2, act_apply]
    rfl
  · show x7 _ = x7 (ix1 j)
    exact congrArg x7 (funext fun a => Fin.ext (by match a with | ⟨0, _⟩ => rfl))

end Message

/-- The reference's message array (its second max(·,0)) is every edge's joined-form message of its six gathered row arrays. -/
theorem ref_m (x0 : (⟨S50000x64, .f32⟩ : BufTy).Contents (Elt Ideal)) (x1 : (⟨S50000x3, .f32⟩ : BufTy).Contents (Elt Ideal)) (x2 : (⟨S50000x3, .f32⟩ : BufTy).Contents (Elt Ideal)) (x3 : (⟨S2x800000, .i32⟩ : BufTy).Contents (Elt Ideal)) (x4 : (⟨S131x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) :
    val_main_v74 (F := Ideal) x0 x1 x2 x3 x4 x5 x6 x7
      = EdgeMR (val_main_v56 (F := Ideal) x0 x3) (val_main_v63 (F := Ideal) x0 x3) (val_main_v10 (F := Ideal) x1 x3) (val_main_v17 (F := Ideal) x1 x3)
          (val_main_v25 (F := Ideal) x2 x3) (val_main_v32 (F := Ideal) x2 x3) x4 x5 x6 x7 := by
  funext i
  obtain ⟨e, j, rfl⟩ : ∃ (e : Fin 800000) (j : Fin 64), i = ix2 e j := ⟨i 0, i 1, eq_ix2 i⟩
  exact m_apply x0 x1 x2 x3 x4 x5 x6 x7 e j

/-! ## The shift of an edge -/

section Shift
variable (x0 : (⟨S50000x64, .f32⟩ : BufTy).Contents (Elt Ideal)) (x1 x2 : (⟨S50000x3, .f32⟩ : BufTy).Contents (Elt Ideal))
  (x3 : (⟨S2x800000, .i32⟩ : BufTy).Contents (Elt Ideal)) (x4 : (⟨S131x64, .f32⟩ : BufTy).Contents (Elt Ideal))
  (x5 : (⟨S64, .f32⟩ : BufTy).Contents (Elt Ideal)) (x6 : (⟨S64x64, .f32⟩ : BufTy).Contents (Elt Ideal))
  (x7 : (⟨S64, .f32⟩ : BufTy).Contents (Elt Ideal)) (x12 : (⟨S64x64, .f32⟩ : BufTy).Contents (Elt Ideal))
  (x13 : (⟨S64, .f32⟩ : BufTy).Contents (Elt Ideal)) (x14 : (⟨S64x1, .f32⟩ : BufTy).Contents (Elt Ideal))

/-- The gate's hidden layer at (e, k): row e of the messages against column k of the weights, plus the bias at k, then max(·,0). -/
theorem hid_apply (e : Fin 800000) (k : Fin 64) :
    val_main_v79 (F := Ideal) x0 x1 x2 x3 x4 x5 x6 x7 x12 x13 (ix2 e k)
      = relu (lin (row (val_main_v74 (F := Ideal) x0 x1 x2 x3 x4 x5 x6 x7) e) (mat x12) (vec x13) k) := by
  rw [val_main_v79_apply, Ideal.maximumf_def, val_main_call2_v0_apply, val_main_call2_cst_apply, Ideal.ofBits_def,
    Ideal.ofBits_zero_f32, val_main_v78_apply, Ideal.addf_def, val_main_v75_apply, val_main_v77_apply, val_main_v76_apply]
  unfold lin
  show max _ 0 = max _ 0
  refine congrArg (max · 0) (congrArg₂ (· + ·) (Finset.sum_congr rfl fun k' _ => ?_) ?_)
  · have e1 : lidx_main_v75 (ix2 e k) k' = ix2 e k' :=
      funext fun a => Fin.ext (by match a with | ⟨0, _⟩ => rfl | ⟨1, _⟩ => rfl)
    have e2 : ridx_main_v75 (ix2 e k) k' = ix2 k' k :=
      funext fun a => Fin.ext (by match a with | ⟨0, _⟩ => rfl | ⟨1, _⟩ => rfl)
    rw [e1, e2]
    rfl
  · show x13 _ = x13 (ix1 k)
    exact congrArg x13 (funext fun a => Fin.ext (by match a with | ⟨0, _⟩ => rfl))

/-- The gate: the hidden layer of row e against the single column of the last weights. -/
theorem gate_apply (e : Fin 800000) :
    val_main_v80 (F := Ideal) x0 x1 x2 x3 x4 x5 x6 x7 x12 x13 x14 (ix2 e (0 : Fin 1))
      = gate (row (val_main_v74 (F := Ideal) x0 x1 x2 x3 x4 x5 x6 x7) e) (mat x12) (vec x13) (col x14) := by
  rw [val_main_v80_apply]
  unfold gate
  refine Finset.sum_congr rfl fun k _ => ?_
  have e1 : lidx_main_v80 (ix2 e (0 : Fin 1)) k = ix2 e k :=
    funext fun a => Fin.ext (by match a with | ⟨0, _⟩ => rfl | ⟨1, _⟩ => rfl)
  have e2 : ridx_main_v80 (ix2 e (0 : Fin 1)) k = ix2 k (0 : Fin 1) :=
    funext fun a => Fin.ext (by match a with | ⟨0, _⟩ => rfl | ⟨1, _⟩ => rfl)
  rw [e1, e2, hid_apply]
  rfl

/-- The shift at (e, a): Δx's a-th component times the gate of row e, clipped between the two bound words. -/
theorem t_apply (e : Fin 800000) (a : Fin 3) :
    val_main_v83 (F := Ideal) x0 x1 x2 x3 x4 x5 x6 x7 x12 x13 x14 (ix2 e a)
      = shift (dX x1 x3 e) (gate (row (val_main_v74 (F := Ideal) x0 x1 x2 x3 x4 x5 x6 x7) e) (mat x12) (vec x13) (col x14)) a := by
  rw [val_main_v83_apply, Ideal.minimumf_def, val_main_call3_v4_apply, val_main_call3_v3_apply, val_main_cst_14_apply,
    Ideal.ofBits_def, val_main_call3_v2_apply, Ideal.maximumf_def, val_main_call3_v1_apply, val_main_call3_v0_apply,
    val_main_cst_13_apply, Ideal.ofBits_def, val_main_v82_apply, Ideal.mulf_def, val_main_v81_apply]
  have e1 : idx_main_v81 (ix2 e a) = ix2 e (0 : Fin 1) :=
    funext fun a => Fin.ext (by match a with | ⟨0, _⟩ => rfl | ⟨1, _⟩ => rfl)
  rw [e1, gate_apply]
  rfl

end Shift

/-- The reference's clipped shift array is every edge's shift from its message. -/
theorem ref_t (x0 : (⟨S50000x64, .f32⟩ : BufTy).Contents (Elt Ideal)) (x1 : (⟨S50000x3, .f32⟩ : BufTy).Contents (Elt Ideal)) (x2 : (⟨S50000x3, .f32⟩ : BufTy).Contents (Elt Ideal)) (x3 : (⟨S2x800000, .i32⟩ : BufTy).Contents (Elt Ideal)) (x4 : (⟨S131x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x12 : (⟨S64x64, .f32⟩ : BufTy).Contents (Elt Ideal)) (x13 : (⟨S64, .f32⟩ : BufTy).Contents (Elt Ideal)) (x14 : (⟨S64x1, .f32⟩ : BufTy).Contents (Elt Ideal)) :
    val_main_v83 (F := Ideal) x0 x1 x2 x3 x4 x5 x6 x7 x12 x13 x14
      = EdgeT (val_main_v74 (F := Ideal) x0 x1 x2 x3 x4 x5 x6 x7) (val_main_v10 (F := Ideal) x1 x3) (val_main_v17 (F := Ideal) x1 x3) x12 x13 x14 := by
  funext i
  obtain ⟨e, a, rfl⟩ : ∃ (e : Fin 800000) (a : Fin 3), i = ix2 e a := ⟨i 0, i 1, eq_ix2 i⟩
  exact t_apply x0 x1 x2 x3 x4 x5 x6 x7 x12 x13 x14 e a

end Cert.ReferenceIdeal.RefEdge

end
-- ==== Proof.RefNode.lean ====
import proofs.«425614_j2473901163257_4_alg».proof.Proof.ReadP
import proofs.«425614_j2473901163257_4_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.ReferenceIdeal.RefNode

open Cert.ReferenceIdeal Cert.ReferenceIdeal.Gen Cert.ReferenceIdeal.ReadP Cert.Spec Idealize.ShloMosaic Idealize.ShloMosaic.ValueIdx

/-! ## The composed index functions at explicit coordinates

Each index function of the generated reading is a match on the axis; at an index given by its coordinates (n, j) it is
again an index given by coordinates. -/

/-- The left operand of the first product is read at row n, column k. -/
theorem lidx100_eq (n : Fin 50000) (j : Fin 64) (k : Fin 128) : lidx_main_v100 (ix2 n j) k = ix2 n k :=
  funext fun a => Fin.ext (by match a with | ⟨0, _⟩ => rfl | ⟨1, _⟩ => rfl)
/-- The right operand of the first product is read at row k, column j. -/
theorem ridx100_eq (n : Fin 50000) (j : Fin 64) (k : Fin 128) : ridx_main_v100 (ix2 n j) k = ix2 k j :=
  funext fun a => Fin.ext (by match a with | ⟨0, _⟩ => rfl | ⟨1, _⟩ => rfl)
/-- The left operand of the second product is read at row n, column k. -/
theorem lidx105_eq (n : Fin 50000) (j : Fin 64) (k : Fin 64) : lidx_main_v105 (ix2 n j) k = ix2 n k :=
  funext fun a => Fin.ext (by match a with | ⟨0, _⟩ => rfl | ⟨1, _⟩ => rfl)
/-- The right operand of the second product is read at row k, column j. -/
theorem ridx105_eq (n : Fin 50000) (j : Fin 64) (k : Fin 64) : ridx_main_v105 (ix2 n j) k = ix2 k j :=
  funext fun a => Fin.ext (by match a with | ⟨0, _⟩ => rfl | ⟨1, _⟩ => rfl)
/-- The first bias, broadcast twice, is read at j. -/
theorem idx102_eq (n : Fin 50000) (j : Fin 64) : idx_main_v101 (idx_main_v102 (ix2 n j)) = ix1 j :=
  funext fun a => Fin.ext (by match a with | ⟨0, _⟩ => rfl)
/-- The second bias, broadcast twice, is read at j. -/
theorem idx107_eq (n : Fin 50000) (j : Fin 64) : idx_main_v106 (idx_main_v107 (ix2 n j)) = ix1 j :=
  funext fun a => Fin.ext (by match a with | ⟨0, _⟩ => rfl)
/-- The clamped count column, broadcast over the three coordinates, is read at row n. -/
theorem idx92_eq (n : Fin 50000) (a : Fin 3) : idx_main_v92 (ix2 n a) = ix2 n (0 : Fin 1) :=
  funext fun b => Fin.ext (by match b with | ⟨0, _⟩ => rfl | ⟨1, _⟩ => rfl)

/-! ## The node features, stage by stage -/

/-- The joined array [h, agg] at (n, k): entry k of the joined row, which is h's row n below 64 and agg's row n, 64 less, from 64 on. -/
theorem join_apply (x0 : (⟨S50000x64, .f32⟩ : BufTy).Contents (Elt Ideal)) (x1 : (⟨S50000x3, .f32⟩ : BufTy).Contents (Elt Ideal)) (x2 : (⟨S50000x3, .f32⟩ : BufTy).Contents (Elt Ideal)) (x3 : (⟨S2x800000, .i32⟩ : BufTy).Contents (Elt Ideal)) (x4 : (⟨S131x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (n : Fin 50000) (k : Fin 128) :
    val_main_v99 (F := Ideal) x0 x1 x2 x3 x4 x5 x6 x7 (ix2 n k) = join128 (row x0 n) (row (val_main_v98 (F := Ideal) x0 x1 x2 x3 x4 x5 x6 x7) n) k := by
  unfold val_main_v99
  generalize val_main_v98 (F := Ideal) x0 x1 x2 x3 x4 x5 x6 x7 = agg
  unfold join128
  by_cases hk : k.val < 64
  · rw [dif_pos hk]
    exact concatenate_pair_apply_left _ x0 agg concatenates_S50000x64_S50000x64_S50000x128_d1 (ix2 n k) rfl (ix2 n (⟨k.val, hk⟩ : Fin 64))
      (fun b => by match b with | ⟨0, _⟩ => rfl | ⟨1, _⟩ => rfl)
  · rw [dif_neg hk]
    exact concatenate_pair_apply_right _ x0 agg concatenates_S50000x64_S50000x64_S50000x128_d1 (ix2 n k) rfl rfl
      (ix2 n (⟨k.val - 64, by have := k.isLt; omega⟩ : Fin 64))
      (fun b hb => by match b with | ⟨0, _⟩ => rfl | ⟨1, _⟩ => exact absurd rfl hb)
      (by show (k.val - 64) + 64 = k.val; omega)

/-- The first layer before its max(·,0) at (n, j): the sum over the 128 joined inputs against column j of the weights, plus bias j. -/
theorem pre_apply (x0 : (⟨S50000x64, .f32⟩ : BufTy).Contents (Elt Ideal)) (x1 : (⟨S50000x3, .f32⟩ : BufTy).Contents (Elt Ideal)) (x2 : (⟨S50000x3, .f32⟩ : BufTy).Contents (Elt Ideal)) (x3 : (⟨S2x800000, .i32⟩ : BufTy).Contents (Elt Ideal)) (x4 : (⟨S131x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S128x64, .f32⟩ : BufTy).Contents (Elt Ideal)) (x9 : (⟨S64, .f32⟩ : BufTy).Contents (Elt Ideal)) (n : Fin 50000) (j : Fin 64) :
    val_main_v103 (F := Ideal) x0 x1 x2 x3 x4 x5 x6 x7 x8 x9 (ix2 n j) = npreR (row x0 n) (row (val_main_v98 (F := Ideal) x0 x1 x2 x3 x4 x5 x6 x7) n) (mat x8) (vec x9) j := by
  rw [val_main_v103_apply, val_main_v100_apply, val_main_v102_apply, val_main_v101_apply, idx102_eq, Ideal.addf_def]
  unfold npreR
  refine congrArg₂ (· + ·) (Finset.sum_congr rfl fun k _ => ?_) rfl
  rw [lidx100_eq, ridx100_eq, join_apply]
  rfl

/-- The first layer after its max(·,0) at (n, k). -/
theorem act_apply (x0 : (⟨S50000x64, .f32⟩ : BufTy).Contents (Elt Ideal)) (x1 : (⟨S50000x3, .f32⟩ : BufTy).Contents (Elt Ideal)) (x2 : (⟨S50000x3, .f32⟩ : BufTy).Contents (Elt Ideal)) (x3 : (⟨S2x800000, .i32⟩ : BufTy).Contents (Elt Ideal)) (x4 : (⟨S131x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S128x64, .f32⟩ : BufTy).Contents (Elt Ideal)) (x9 : (⟨S64, .f32⟩ : BufTy).Contents (Elt Ideal)) (n : Fin 50000) (k : Fin 64) :
    val_main_v104 (F := Ideal) x0 x1 x2 x3 x4 x5 x6 x7 x8 x9 (ix2 n k) = relu (npreR (row x0 n) (row (val_main_v98 (F := Ideal) x0 x1 x2 x3 x4 x5 x6 x7) n) (mat x8) (vec x9) k) := by
  rw [val_main_v104_apply, val_main_call5_v0_apply, val_main_call5_cst_apply, pre_apply, Ideal.maximumf_def, Ideal.ofBits_def,
    Ideal.ofBits_zero_f32]
  rfl

/-- The new features at (n, j): the second dense layer on the activated first layer, no max after it. -/
theorem h_apply (x0 : (⟨S50000x64, .f32⟩ : BufTy).Contents (Elt Ideal)) (x1 : (⟨S50000x3, .f32⟩ : BufTy).Contents (Elt Ideal)) (x2 : (⟨S50000x3, .f32⟩ : BufTy).Contents (Elt Ideal)) (x3 : (⟨S2x800000, .i32⟩ : BufTy).Contents (Elt Ideal)) (x4 : (⟨S131x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S128x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) (n : Fin 50000) (j : Fin 64) :
    val_main_v108 (F := Ideal) x0 x1 x2 x3 x4 x5 x6 x7 x8 x9 x10 x11 (ix2 n j)
      = nodeH (npreR (row x0 n) (row (val_main_v98 (F := Ideal) x0 x1 x2 x3 x4 x5 x6 x7) n) (mat x8) (vec x9)) (mat x10) (vec x11) j := by
  rw [val_main_v108_apply, val_main_v105_apply, val_main_v107_apply, val_main_v106_apply, idx107_eq, Ideal.addf_def]
  unfold nodeH lin
  refine congrArg₂ (· + ·) (Finset.sum_congr rfl fun k _ => ?_) rfl
  rw [lidx105_eq, ridx105_eq, act_apply]
  rfl

/-- The reference's new node features are the joined-form features of each node's own row and its summed messages. -/
theorem ref_h (x0 : (⟨S50000x64, .f32⟩ : BufTy).Contents (Elt Ideal)) (x1 : (⟨S50000x3, .f32⟩ : BufTy).Contents (Elt Ideal)) (x2 : (⟨S50000x3, .f32⟩ : BufTy).Contents (Elt Ideal)) (x3 : (⟨S2x800000, .i32⟩ : BufTy).Contents (Elt Ideal)) (x4 : (⟨S131x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x8 : (⟨S128x64, .f32⟩ : BufTy).Contents (Elt Ideal)) (x9 : (⟨S64, .f32⟩ : BufTy).Contents (Elt Ideal)) (x10 : (⟨S64x64, .f32⟩ : BufTy).Contents (Elt Ideal)) (x11 : (⟨S64, .f32⟩ : BufTy).Contents (Elt Ideal)) :
    val_main_v108 (F := Ideal) x0 x1 x2 x3 x4 x5 x6 x7 x8 x9 x10 x11
      = NodeHR x0 (val_main_v98 (F := Ideal) x0 x1 x2 x3 x4 x5 x6 x7) x8 x9 x10 x11 := by
  funext i
  obtain ⟨n, j, rfl⟩ : ∃ (n : Fin 50000) (j : Fin 64), i = ix2 n j := ⟨i 0, i 1, eq_ix2 i⟩
  rw [h_apply]
  rfl

/-- The reference's coordinate update is each node's summed shifts over its clamped edge count. -/
theorem ref_c (x0 : (⟨S50000x64, .f32⟩ : BufTy).Contents (Elt Ideal)) (x1 : (⟨S50000x3, .f32⟩ : BufTy).Contents (Elt Ideal)) (x2 : (⟨S50000x3, .f32⟩ : BufTy).Contents (Elt Ideal)) (x3 : (⟨S2x800000, .i32⟩ : BufTy).Contents (Elt Ideal)) (x4 : (⟨S131x64, .f32⟩ : BufTy).Contents (Elt Ideal)) (x5 : (⟨S64, .f32⟩ : BufTy).Contents (Elt Ideal)) (x6 : (⟨S64x64, .f32⟩ : BufTy).Contents (Elt Ideal)) (x7 : (⟨S64, .f32⟩ : BufTy).Contents (Elt Ideal)) (x12 : (⟨S64x64, .f32⟩ : BufTy).Contents (Elt Ideal)) (x13 : (⟨S64, .f32⟩ : BufTy).Contents (Elt Ideal)) (x14 : (⟨S64x1, .f32⟩ : BufTy).Contents (Elt Ideal)) :
    val_main_v95 (F := Ideal) x0 x1 x2 x3 x4 x5 x6 x7 x12 x13 x14
      = NodeC (val_main_v86 (F := Ideal) x0 x1 x2 x3 x4 x5 x6 x7 x12 x13 x14) (val_main_v90 (F := Ideal) x3) := by
  funext i
  obtain ⟨n, a, rfl⟩ : ∃ (n : Fin 50000) (a : Fin 3), i = ix2 n a := ⟨i 0, i 1, eq_ix2 i⟩
  rw [val_main_v95_apply, val_main_v93_apply, val_main_v94_apply, val_main_cst_19_apply, val_main_v92_apply, val_main_v91_apply,
    val_main_call4_v1_apply, val_main_call4_v0_apply, val_main_cst_18_apply, idx92_eq, Ideal.mulf_def, Ideal.hostDivf_def,
    Ideal.maximumf_def, Ideal.ofBits_def, max_comm]
  rfl

end Cert.ReferenceIdeal.RefNode

end
-- ==== Proof.Bridge.lean ====
/-
  The reference program's stages are the same host terms as the kernel program's: the same slices of the edge list, the same
  wrapped start indices, the same gathers and the same scatter-adds into zeros (the two programs' dimension records differ
  only in the proofs of their side conditions). So the reference's two results are the closed-form functions of the arguments.
-/
import proofs.«425614_j2473901163257_4_alg».proof.Proof.ReadP
import proofs.«425614_j2473901163257_4_alg».proof.Proof.Closed
import proofs.«425614_j2473901163257_4_alg».proof.Proof.RefEdge
import proofs.«425614_j2473901163257_4_alg».proof.Proof.RefNode

noncomputable section

namespace Cert.Proof.Bridge

open Cert.ReferenceIdeal.ReadP Cert.KernelIdeal.HostK Cert.KernelIdeal.Closed Cert.Spec Idealize.ShloMosaic

theorem hrow (x0 : FVec Ideal Cert.KernelIdeal.S50000x64 .f32) (x3 : IVec Cert.KernelIdeal.S2x800000 32) : val_main_v56 (F := Ideal) x0 x3 = g64 x0 (rowIdx x3) := rfl
theorem hcol (x0 : FVec Ideal Cert.KernelIdeal.S50000x64 .f32) (x3 : IVec Cert.KernelIdeal.S2x800000 32) : val_main_v63 (F := Ideal) x0 x3 = g64 x0 (colIdx x3) := rfl
theorem crow (x1 : FVec Ideal Cert.KernelIdeal.S50000x3 .f32) (x3 : IVec Cert.KernelIdeal.S2x800000 32) : val_main_v10 (F := Ideal) x1 x3 = g3 x1 (rowIdx x3) := rfl
theorem ccol (x1 : FVec Ideal Cert.KernelIdeal.S50000x3 .f32) (x3 : IVec Cert.KernelIdeal.S2x800000 32) : val_main_v17 (F := Ideal) x1 x3 = g3 x1 (colIdx x3) := rfl
theorem vrow (x2 : FVec Ideal Cert.KernelIdeal.S50000x3 .f32) (x3 : IVec Cert.KernelIdeal.S2x800000 32) : val_main_v25 (F := Ideal) x2 x3 = g3 x2 (rowIdx x3) := rfl
theorem vcol (x2 : FVec Ideal Cert.KernelIdeal.S50000x3 .f32) (x3 : IVec Cert.KernelIdeal.S2x800000 32) : val_main_v32 (F := Ideal) x2 x3 = g3 x2 (colIdx x3) := rfl

/-- The reference's message array is the closed-form one. -/
theorem m_total (x0 : FVec Ideal Cert.KernelIdeal.S50000x64 .f32) (x1 : FVec Ideal Cert.KernelIdeal.S50000x3 .f32) (x2 : FVec Ideal Cert.KernelIdeal.S50000x3 .f32) (x3 : IVec Cert.KernelIdeal.S2x800000 32) (x4 : FVec Ideal Cert.KernelIdeal.S131x64 .f32) (x5 : FVec Ideal Cert.KernelIdeal.S64 .f32) (x6 : FVec Ideal Cert.KernelIdeal.S64x64 .f32) (x7 : FVec Ideal Cert.KernelIdeal.S64 .f32) : val_main_v74 (F := Ideal) x0 x1 x2 x3 x4 x5 x6 x7 = MOut x0 x1 x2 x3 x4 x5 x6 x7 := by
  rw [Cert.ReferenceIdeal.RefEdge.ref_m, hrow, hcol, crow, ccol, vrow, vcol]
  rfl

/-- The reference's per-node sums are the scatter-adds of its per-edge arrays at the raw row indices. -/
theorem agg (x0 : FVec Ideal Cert.KernelIdeal.S50000x64 .f32) (x1 : FVec Ideal Cert.KernelIdeal.S50000x3 .f32) (x2 : FVec Ideal Cert.KernelIdeal.S50000x3 .f32) (x3 : IVec Cert.KernelIdeal.S2x800000 32) (x4 : FVec Ideal Cert.KernelIdeal.S131x64 .f32) (x5 : FVec Ideal Cert.KernelIdeal.S64 .f32) (x6 : FVec Ideal Cert.KernelIdeal.S64x64 .f32) (x7 : FVec Ideal Cert.KernelIdeal.S64 .f32) :
    val_main_v98 (F := Ideal) x0 x1 x2 x3 x4 x5 x6 x7 = scat64 (F := Ideal) (rowIdx x3) (val_main_v74 (F := Ideal) x0 x1 x2 x3 x4 x5 x6 x7) := rfl
theorem seg (x0 : FVec Ideal Cert.KernelIdeal.S50000x64 .f32) (x1 : FVec Ideal Cert.KernelIdeal.S50000x3 .f32) (x2 : FVec Ideal Cert.KernelIdeal.S50000x3 .f32) (x3 : IVec Cert.KernelIdeal.S2x800000 32) (x4 : FVec Ideal Cert.KernelIdeal.S131x64 .f32) (x5 : FVec Ideal Cert.KernelIdeal.S64 .f32) (x6 : FVec Ideal Cert.KernelIdeal.S64x64 .f32) (x7 : FVec Ideal Cert.KernelIdeal.S64 .f32) (x12 : FVec Ideal Cert.KernelIdeal.S64x64 .f32) (x13 : FVec Ideal Cert.KernelIdeal.S64 .f32) (x14 : FVec Ideal Cert.KernelIdeal.S64x1 .f32) :
    val_main_v86 (F := Ideal) x0 x1 x2 x3 x4 x5 x6 x7 x12 x13 x14 = scat3 (F := Ideal) (rowIdx x3) (val_main_v83 (F := Ideal) x0 x1 x2 x3 x4 x5 x6 x7 x12 x13 x14) := rfl
theorem cnt (x3 : IVec Cert.KernelIdeal.S2x800000 32) : val_main_v90 (F := Ideal) x3 = scat1 (F := Ideal) (rowIdx x3) := rfl

/-- The reference's new node features are the closed-form ones. -/
theorem h_total (x0 : FVec Ideal Cert.KernelIdeal.S50000x64 .f32) (x1 : FVec Ideal Cert.KernelIdeal.S50000x3 .f32) (x2 : FVec Ideal Cert.KernelIdeal.S50000x3 .f32) (x3 : IVec Cert.KernelIdeal.S2x800000 32) (x4 : FVec Ideal Cert.KernelIdeal.S131x64 .f32) (x5 : FVec Ideal Cert.KernelIdeal.S64 .f32) (x6 : FVec Ideal Cert.KernelIdeal.S64x64 .f32) (x7 : FVec Ideal Cert.KernelIdeal.S64 .f32) (x8 : FVec Ideal Cert.KernelIdeal.S128x64 .f32) (x9 : FVec Ideal Cert.KernelIdeal.S64 .f32) (x10 : FVec Ideal Cert.KernelIdeal.S64x64 .f32) (x11 : FVec Ideal Cert.KernelIdeal.S64 .f32) :
    val_main_v108 (F := Ideal) x0 x1 x2 x3 x4 x5 x6 x7 x8 x9 x10 x11 = HOut x0 x1 x2 x3 x4 x5 x6 x7 x8 x9 x10 x11 := by
  rw [Cert.ReferenceIdeal.RefNode.ref_h, agg, m_total]
  rfl

/-- The reference's coordinate update is the closed-form one. -/
theorem c_total (x0 : FVec Ideal Cert.KernelIdeal.S50000x64 .f32) (x1 : FVec Ideal Cert.KernelIdeal.S50000x3 .f32) (x2 : FVec Ideal Cert.KernelIdeal.S50000x3 .f32) (x3 : IVec Cert.KernelIdeal.S2x800000 32) (x4 : FVec Ideal Cert.KernelIdeal.S131x64 .f32) (x5 : FVec Ideal Cert.KernelIdeal.S64 .f32) (x6 : FVec Ideal Cert.KernelIdeal.S64x64 .f32) (x7 : FVec Ideal Cert.KernelIdeal.S64 .f32) (x12 : FVec Ideal Cert.KernelIdeal.S64x64 .f32) (x13 : FVec Ideal Cert.KernelIdeal.S64 .f32) (x14 : FVec Ideal Cert.KernelIdeal.S64x1 .f32) :
    val_main_v95 (F := Ideal) x0 x1 x2 x3 x4 x5 x6 x7 x12 x13 x14 = COut x0 x1 x2 x3 x4 x5 x6 x7 x12 x13 x14 := by
  rw [Cert.ReferenceIdeal.RefNode.ref_c, seg, cnt, Cert.ReferenceIdeal.RefEdge.ref_t, m_total, crow, ccol]
  rfl

end Cert.Proof.Bridge

end
-- ==== Proof.lean ====
/-
  One message-passing layer of an equivariant graph network over 50000 nodes and 800000 edges, as a kernel program of two
  pallas_calls with host gathers and scatter-adds around them, against the plain jnp reference, over the extended reals.

  The mathematics. For every edge (row, col): Δx and Δv of the two endpoints' coordinates and velocities, three radial features
  (|Δx|, |Δv|, Σ (Δx/|Δx|)(Δv/|Δv|)), a two-layer message of [h_row, h_col, radial] and a clipped gated shift of Δx; for every
  node: the sum of its edges' messages through a two-layer update of [h, agg], and the sum of its edges' shifts over its edge
  count clamped below by one. The kernel computes the first layer of each stage as a sum of partial products over the row
  ranges of the joined weight matrix where the reference joins the inputs and multiplies once: a finite sum over a range cut
  in pieces is the sum of the pieces' sums, which holds on the extended reals with no finiteness (addition there is
  associative and commutative). The kernel blocks the edges by 2000 and the nodes by 2000; every block's rows are the same row
  function of the same rows of the inputs, and the blocks cover the arrays. The kernel reads the endpoint rows by take with a
  fill for out-of-range indices where the reference's indexing clamps; on node numbers (the added precondition: every entry of
  the edge list is in [0, 50000)) no row is filled and both are the same gather. The scatter-adds are the same host operation
  on both sides. Finiteness of the float inputs is not used.
-/
import proofs.«425614_j2473901163257_4_alg».proof.Defs
import proofs.«425614_j2473901163257_4_alg».proof.Proof.Gen.Kernel
import proofs.«425614_j2473901163257_4_alg».proof.Proof.Gen.Kernel.Frame
import proofs.«425614_j2473901163257_4_alg».proof.Proof.Gen.KernelIdeal
import proofs.«425614_j2473901163257_4_alg».proof.Proof.Gen.KernelIdeal.Frame
import proofs.«425614_j2473901163257_4_alg».proof.Proof.Gen.ReferenceIdeal
import proofs.«425614_j2473901163257_4_alg».proof.Proof.RefRun
import proofs.«425614_j2473901163257_4_alg».proof.Proof.Gen.Pre_finite_inputs
import proofs.«425614_j2473901163257_4_alg».proof.Proof.KRun
import proofs.«425614_j2473901163257_4_alg».proof.Proof.KValue
import proofs.«425614_j2473901163257_4_alg».proof.Proof.Bridge
import Idealize.ShloMosaic.Adequacy
import Idealize.ShloMosaic.Init

noncomputable section

namespace Cert.Proof

open Idealize.ShloMosaic Idealize.SL.Sem Cert.KernelIdeal.Closed

/-- The word-level kernel terminates without a fault and leaves its arguments unchanged. -/
theorem frame_k : Cert.frame_Kernel := fun m ρ _ => Cert.Kernel.Gen.frame m ρ
/-- So does the idealized kernel. -/
theorem frame_ki : Cert.frame_KernelIdeal := fun m ρ _ => Cert.KernelIdeal.Gen.frame m ρ
/-- So does the idealized reference: its run with the two results dropped. -/
theorem frame_ri : Cert.frame_ReferenceIdeal := fun m ρ _ =>
  (θ_run Cert.ReferenceIdeal.defs _ _).mono (fun _ h c => (h c).2.2) (Cert.ReferenceIdeal.RefRun.run (F := Ideal) m ρ)

/-- Run from memories that agree on the arguments, with every index a node number, both programs end with the new node
    features and the coordinate updates at the same closed-form functions of the arguments. -/
theorem algebraic : Cert.algebraic_KernelIdeal_ReferenceIdeal := by
  intro m ρ m' ρ' hpre hagree
  refine ⟨fun c => HOut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => COut (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.KValue.kernel_h m ρ hpre c), (h c).2.1.trans (Cert.KernelIdeal.KValue.kernel_c m ρ hpre c), (h c).2.2⟩)
      (Cert.KernelIdeal.Gen.run_results (F := Ideal) m ρ)
  · refine (θ_run Cert.ReferenceIdeal.defs _ _).mono (fun r h c => ⟨(h c).1.trans ?_, (h c).2.1.trans ?_, (h c).2.2⟩)
      (Cert.ReferenceIdeal.RefRun.run (F := Ideal) m' ρ')
    · obtain ⟨e0, e1, e2, e3, e4, e5, e6, e7, e8, e9, e10, e11, e12, e13, e14⟩ := hagree c
      rw [Cert.Proof.Bridge.h_total, e0, e1, e2, e3, e4, e5, e6, e7, e8, e9, e10, e11]
    · obtain ⟨e0, e1, e2, e3, e4, e5, e6, e7, e8, e9, e10, e11, e12, e13, e14⟩ := hagree c
      rw [Cert.Proof.Bridge.c_total, e0, e1, e2, e3, e4, e5, e6, e7, e12, e13, e14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
